-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x512x512 : Shape := ⟨4, ![4, 64, 512, 512]⟩
abbrev S4x512x512 : Shape := ⟨3, ![4, 512, 512]⟩
abbrev S64 : Shape := ⟨1, ![64]⟩
abbrev S_ : Shape := ⟨0, ![]⟩

class Facts : Prop where
  bcast_S_S4x64x512x512 : S_.BroadcastsInDim S4x64x512x512 (![] : Fin 0 → Fin S4x64x512x512.rank)
  reducesTo_S4x64x512x512_S_d0_1_2_3 : S4x64x512x512.ReducesTo [0, 1, 2, 3] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg2 : IVec S64 32) (main_v13 : IVec S_ 1) (main_v15 : IVec S64 1) (main_c_5 : IVec S_ 32) : IVec S_ 1 :=
  let main_v16 : IVec S64 32 := broadcastInDim S64 ![] bcast_S_S64 main_c_5
  let main_v17 : IVec S64 1 := cmpi .slt main_arg2 main_v16
  let main_v18 : IVec S64 1 := andi main_v15 main_v17
  let main_c_6 : IVec S_ 1 := constantI S_ 1 1#1
  let main_v19 : IVec S_ 1 := (fun x v => Host.reduce IntOp.andi x v reducesTo_S64_S_d0 h_S_) main_v18 main_c_6
  let main_v20 : IVec S_ 1 := andi main_v13 main_v19
  main_v20

def fn {F : FTy → Type} [FloatOps F] (main_arg0 : FVec F S4x64x512x512 .f32) (main_arg1 : IVec S4x512x512 32) (main_arg2 : IVec S64 32) : IVec S_ 1 :=
  let main_v0 : FVec F S4x64x512x512 .f32 := Host.absf main_arg0
  let main_cst : FVec F S_ .f32 := constant S_ .f32 0x7F800000#32
  let main_v1 : FVec F S4x64x512x512 .f32 := broadcastInDim S4x64x512x512 ![] bcast_S_S4x64x512x512 main_cst
  let main_v2 : IVec S4x64x512x512 1 := cmpf .olt main_v0 main_v1
  let main_c : IVec S_ 1 := constantI S_ 1 1#1
  let main_v3 : IVec S_ 1 := (fun x v => Host.reduce IntOp.andi x v reducesTo_S4x64x512x512_S_d0_1_2_3 h_S_) main_v2 main_c
  let main_c_0 : IVec S_ 32 := constantI S_ 32 255#32
  let main_v4 : IVec S4x512x512 32 := broadcastInDim S4x512x512 ![] bcast_S_S4x512x512 main_c_0
  let main_v5 : IVec S4x512x512 1 := cmpi .eq main_arg1 main_v4
  let main_c_1 : IVec S_ 32 := constantI S_ 32 0#32
  let main_v6 : IVec S4x512x512 32 := broadcastInDim S4x512x512 ![] bcast_S_S4x512x512 main_c_1
  let main_v7 : IVec S4x512x512 1 := cmpi .sge main_arg1 main_v6
  let main_c_2 : IVec S_ 32 := constantI S_ 32 20#32
  let main_v8 : IVec S4x512x512 32 := broadcastInDim S4x512x512 ![] bcast_S_S4x512x512 main_c_2
  let main_v9 : IVec S4x512x512 1 := cmpi .slt main_arg1 main_v8
  let main_v10 : IVec S4x512x512 1 := andi main_v7 main_v9
  let main_v11 : IVec S4x512x512 1 := ori main_v5 main_v10
  let main_c_3 : IVec S_ 1 := constantI S_ 1 1#1
  let main_v12 : IVec S_ 1 := (fun x v => Host.reduce IntOp.andi x v reducesTo_S4x512x512_S_d0_1_2 h_S_) main_v11 main_c_3
  let main_v13 : IVec S_ 1 := andi main_v3 main_v12
  let main_c_4 : IVec S_ 32 := constantI S_ 32 0#32
  let main_v14 : IVec S64 32 := broadcastInDim S64 ![] bcast_S_S64 main_c_4
  let main_v15 : IVec S64 1 := cmpi .sge main_arg2 main_v14
  let main_c_5 : IVec S_ 32 := constantI S_ 32 20#32
  fn_part1 (F := F) main_arg2 main_v13 main_v15 main_c_5
-- ==== Kernel.lean ====
abbrev S4x64x512x512 : Shape := ⟨4, ![4, 64, 512, 512]⟩
abbrev S4x512x512 : Shape := ⟨3, ![4, 512, 512]⟩
abbrev S64 : Shape := ⟨1, ![64]⟩
abbrev S4x64x262144 : Shape := ⟨3, ![4, 64, 262144]⟩
abbrev S4x1x262144 : Shape := ⟨3, ![4, 1, 262144]⟩
abbrev S64x1 : Shape := ⟨2, ![64, 1]⟩
abbrev S1x20 : Shape := ⟨2, ![1, 20]⟩
abbrev S64x20 : Shape := ⟨2, ![64, 20]⟩
abbrev S20x64 : Shape := ⟨2, ![20, 64]⟩
abbrev S4x1x1 : Shape := ⟨3, ![4, 1, 1]⟩
abbrev S1x64x16384 : Shape := ⟨3, ![1, 64, 16384]⟩
abbrev S1x1x1 : Shape := ⟨3, ![1, 1, 1]⟩
abbrev S1x64 : Shape := ⟨2, ![1, 64]⟩
abbrev S1x64x1 : Shape := ⟨3, ![1, 64, 1]⟩
abbrev S1x1 : Shape := ⟨2, ![1, 1]⟩
abbrev S_ : Shape := ⟨0, ![]⟩
abbrev S1x1x16384 : Shape := ⟨3, ![1, 1, 16384]⟩
abbrev S64x16384 : Shape := ⟨2, ![64, 16384]⟩
abbrev S20x16384 : Shape := ⟨2, ![20, 16384]⟩
abbrev S16384 : Shape := ⟨1, ![16384]⟩
abbrev S1x16384 : Shape := ⟨2, ![1, 16384]⟩
abbrev S1 : Shape := ⟨1, ![1]⟩

abbrev nBuf : Space → Nat
  | .hbm => 26
  | .vmem => 14
  | .smem => 0
  | _ => 0

abbrev bufTy : (tb : Table) → Fin (tcTables nBuf tb) → BufTy
  | .hbm, ⟨0, _⟩ => ⟨S4x64x512x512, .f32⟩
  | .hbm, ⟨1, _⟩ => ⟨S4x512x512, .i32⟩
  | .hbm, ⟨2, _⟩ => ⟨S64, .i32⟩
  | .hbm, ⟨3, _⟩ => ⟨S4x64x262144, .f32⟩
  | .hbm, ⟨4, _⟩ => ⟨S4x1x262144, .i32⟩
  | .hbm, ⟨5, _⟩ => ⟨S64x1, .i32⟩
  | .hbm, ⟨6, _⟩ => ⟨S1x20, .i32⟩
  | .hbm, ⟨7, _⟩ => ⟨S64x20, .i32⟩
  | .hbm, ⟨8, _⟩ => ⟨S64x20, .i32⟩
  | .hbm, ⟨9, _⟩ => ⟨S64x20, .i1⟩
  | .hbm, ⟨10, _⟩ => ⟨S64x20, .f32⟩
  | .hbm, ⟨11, _⟩ => ⟨S20x64, .f32⟩
  | .hbm, ⟨12, _⟩ => ⟨S20x64, .bf16⟩
  | .hbm, ⟨13, _⟩ => ⟨S4x1x1, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S4x1x1, .f32⟩
  | .hbm, ⟨18, _⟩ => ⟨S4x1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1x64x16384, .f32⟩
  | .local _ .vmem, ⟨1, _⟩ => ⟨S1x64x16384, .f32⟩
  | .local _ .vmem, ⟨2, _⟩ => ⟨S1x1x1, .f32⟩
  | .local _ .vmem, ⟨3, _⟩ => ⟨S1x1x1, .f32⟩
  | .local _ .vmem, ⟨4, _⟩ => ⟨S1x64x16384, .f32⟩
  | .local _ .vmem, ⟨5, _⟩ => ⟨S1x64x16384, .f32⟩
  | .local _ .vmem, ⟨6, _⟩ => ⟨S1x1x16384, .i32⟩
  | .local _ .vmem, ⟨7, _⟩ => ⟨S1x1x16384, .i32⟩
  | .local _ .vmem, ⟨8, _⟩ => ⟨S1x1, .f32⟩
  | .local _ .vmem, ⟨9, _⟩ => ⟨S20x64, .bf16⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | _, _ => ⟨S4x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_cst_0 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x16384 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S20x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S4x64x512x512_S4x64x262144 : S4x64x512x512.ShapeCasts S4x64x262144
  shapeCasts_S4x512x512_S4x1x262144 : S4x512x512.ShapeCasts S4x1x262144
  bcast_S64_S64x1_0 : S64.BroadcastsInDim S64x1 (![0] : Fin 1 → Fin S64x1.rank)
  bcast_S64x1_S64x20_0_1 : S64x1.BroadcastsInDim S64x20 (![0, 1] : Fin 2 → Fin S64x20.rank)
  bcast_S1x20_S64x20_0_1 : S1x20.BroadcastsInDim S64x20 (![0, 1] : Fin 2 → Fin S64x20.rank)
  transposes_S64x20_S20x64_1_0 : S64x20.Transposes [1, 0] S20x64
  bitsLt_bf16_f32 : FTy.bits .bf16 < FTy.bits .f32
  inb_S1x1x1_S1x1x1_0_0_0 : ∀ a, (![0, 0, 0] : Fin 3 → Nat) a + S1x1x1.size a ≤ S1x1x1.size a
  h_S1x1x1 : 0 < S1x1x1.numel
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S1x64x16384 : S1x64x16384.ShapeCasts S1x64x16384
  reduces_S1x64x16384_S1x64 : S1x64x16384.Reduces [2] S1x64
  shapeCasts_S1x64_S1x64x1 : S1x64.ShapeCasts S1x64x1
  reduces_S1x64x1_S1x1 : S1x64x1.Reduces [1] S1x1
  shapeCasts_S1x1_S1x1x1 : S1x1.ShapeCasts S1x1x1
  shapeCasts_S1x1x1_S1x1 : S1x1x1.ShapeCasts S1x1
  shapeCasts_S1x1x1_S1x1x1 : S1x1x1.ShapeCasts S1x1x1
  reducesTo_S4x1x1_S_d0_1_2 : S4x1x1.ReducesTo [0, 1, 2] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1x1_S1x64x16384 : S1x1x1.Broadcasts S1x64x16384
  shapeCasts_S1x64x16384_S64x16384 : S1x64x16384.ShapeCasts S64x16384
  inb_S20x64_S20x64_0_0 : ∀ a, (![0, 0] : Fin 2 → Nat) a + S20x64.size a ≤ S20x64.size a
  h_S20x64 : 0 < S20x64.numel
  shapeCasts_S20x64_S20x64 : S20x64.ShapeCasts S20x64
  reduces_S20x16384_S16384 : S20x16384.Reduces [0] S16384
  shapeCasts_S16384_S1x16384 : S16384.ShapeCasts S1x16384
  inb_S1x1x16384_S1x1x16384_0_0_0 : ∀ a, (![0, 0, 0] : Fin 3 → Nat) a + S1x1x16384.size a ≤ S1x1x16384.size a
  h_S1x1x16384 : 0 < S1x1x16384.numel
  shapeCasts_S1x1x16384_S1x16384 : S1x1x16384.ShapeCasts S1x16384
  iota_S20x16384_d0_w32 : S20x16384.Iotas .tc 32 [0]
  shapeCasts_S1x16384_S1x16384 : S1x16384.ShapeCasts S1x16384
  broadcasts_S1x16384_S20x16384 : S1x16384.Broadcasts S20x16384
  reduces_S1x16384_S1 : S1x16384.Reduces [1] S1
  shapeCasts_S1_S1x1 : S1.ShapeCasts S1x1
  natLt_1_32 : 1 < 32
  dot_S20x64_S64x16384_S20x16384_1_0_0_1_n_n_wf : DotDims.WF S20x64 S64x16384 S20x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x16384.size a ≤ S4x64x262144.size a
  hwx0_0 : ∀ i : grid0.Coords, EltTy.bits .f32 = 32 ∨ (Rect.block (s := S4x64x262144) S1x64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S4x1x1.size a
  hwx0_1 : ∀ i : grid0.Coords, EltTy.bits .f32 = 32 ∨ (Rect.block (s := S4x1x1) S1x1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x16384.size a ≤ S4x64x262144.size a
  hwx1_0 : ∀ i : grid1.Coords, EltTy.bits .f32 = 32 ∨ (Rect.block (s := S4x64x262144) S1x64x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x16384.size a ≤ S4x1x262144.size a
  hwx1_1 : ∀ i : grid1.Coords, EltTy.bits .i32 = 32 ∨ (Rect.block (s := S4x1x262144) S1x1x16384.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S20x64.size a ≤ S20x64.size a
  hwx1_3 : ∀ i : grid1.Coords, EltTy.bits .bf16 = 32 ∨ (Rect.block (s := S20x64) S20x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S4x1x1.size a
  hwx1_4 : ∀ i : grid1.Coords, EltTy.bits .f32 = 32 ∨ (Rect.block (s := S4x1x1) S1x1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1.size a ≤ S4x1x1.size a
  hwx1_5 : ∀ i : grid1.Coords, EltTy.bits .f32 = 32 ∨ (Rect.block (s := S4x1x1) S1x1x1.size (cc1_transform_5 i) (hinb1_5 i)).WholeWords (EltTy.packing .f32)

variable [Facts₀]

def dot_S20x64_S64x16384_S20x16384_1_0_0_1_n_n : DotDims S20x64 S64x16384 S20x16384 where
  lhsContracting := [1]
  rhsContracting := [0]
  lhsNonContracting := [0]
  rhsNonContracting := [1]
  lhsBatch := []
  rhsBatch := []
  wf := dot_S20x64_S64x16384_S20x16384_1_0_0_1_n_n_wf

abbrev win0_0 : Pipeline.Window sig grid0 :=
  Pipeline.Window.ofSpec (Memref.whole main_v0) S1x64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1x64x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S20x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8_0) S1x1x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8_1) S1x1x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x64x512x512 : Shape := ⟨4, ![4, 64, 512, 512]⟩
abbrev S4x512x512 : Shape := ⟨3, ![4, 512, 512]⟩
abbrev S64 : Shape := ⟨1, ![64]⟩
abbrev S_ : Shape := ⟨0, ![]⟩
abbrev S64x4x512x512 : Shape := ⟨4, ![64, 4, 512, 512]⟩
abbrev S20x4x512x512 : Shape := ⟨4, ![20, 4, 512, 512]⟩
abbrev S64x1 : Shape := ⟨2, ![64, 1]⟩
abbrev S4x20x512x512 : Shape := ⟨4, ![4, 20, 512, 512]⟩
abbrev S4x1x512x512 : Shape := ⟨4, ![4, 1, 512, 512]⟩
abbrev S4x1x512x512x1 : Shape := ⟨5, ![4, 1, 512, 512, 1]⟩
abbrev S1 : Shape := ⟨1, ![1]⟩
abbrev S1x1x1x1x1 : Shape := ⟨5, ![1, 1, 1, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S4x64x512x512, .f32⟩
  | .hbm, ⟨1, _⟩ => ⟨S4x512x512, .i32⟩
  | .hbm, ⟨2, _⟩ => ⟨S64, .i32⟩
  | .hbm, ⟨3, _⟩ => ⟨S_, .f32⟩
  | .hbm, ⟨4, _⟩ => ⟨S_, .f32⟩
  | .hbm, ⟨5, _⟩ => ⟨S4x64x512x512, .f32⟩
  | .hbm, ⟨6, _⟩ => ⟨S4x64x512x512, .f32⟩
  | .hbm, ⟨7, _⟩ => ⟨S4x64x512x512, .f32⟩
  | .hbm, ⟨8, _⟩ => ⟨S64x4x512x512, .f32⟩
  | .hbm, ⟨9, _⟩ => ⟨S_, .f32⟩
  | .hbm, ⟨10, _⟩ => ⟨S20x4x512x512, .f32⟩
  | .hbm, ⟨11, _⟩ => ⟨S64x1, .i32⟩
  | .hbm, ⟨12, _⟩ => ⟨S20x4x512x512, .f32⟩
  | .hbm, ⟨13, _⟩ => ⟨S4x20x512x512, .f32⟩
  | .hbm, ⟨14, _⟩ => ⟨S4x20x512x512, .f32⟩
  | .hbm, ⟨15, _⟩ => ⟨S_, .f32⟩
  | .hbm, ⟨16, _⟩ => ⟨S4x512x512, .f32⟩
  | .hbm, ⟨17, _⟩ => ⟨S4x1x512x512, .f32⟩
  | .hbm, ⟨18, _⟩ => ⟨S4x1x512x512, .f32⟩
  | .hbm, ⟨19, _⟩ => ⟨S4x20x512x512, .f32⟩
  | .hbm, ⟨20, _⟩ => ⟨S4x20x512x512, .f32⟩
  | .hbm, ⟨21, _⟩ => ⟨S_, .i32⟩
  | .hbm, ⟨22, _⟩ => ⟨S4x512x512, .i32⟩
  | .hbm, ⟨23, _⟩ => ⟨S4x512x512, .i1⟩
  | .hbm, ⟨24, _⟩ => ⟨S_, .i32⟩
  | .hbm, ⟨25, _⟩ => ⟨S_, .i32⟩
  | .hbm, ⟨26, _⟩ => ⟨S4x512x512, .i32⟩
  | .hbm, ⟨27, _⟩ => ⟨S4x512x512, .i32⟩
  | .hbm, ⟨28, _⟩ => ⟨S4x1x512x512, .i32⟩
  | .hbm, ⟨29, _⟩ => ⟨S_, .i32⟩
  | .hbm, ⟨30, _⟩ => ⟨S4x1x512x512, .i32⟩
  | .hbm, ⟨31, _⟩ => ⟨S4x1x512x512, .i1⟩
  | .hbm, ⟨32, _⟩ => ⟨S_, .i32⟩
  | .hbm, ⟨33, _⟩ => ⟨S4x1x512x512, .i32⟩
  | .hbm, ⟨34, _⟩ => ⟨S4x1x512x512, .i32⟩
  | .hbm, ⟨35, _⟩ => ⟨S4x1x512x512, .i32⟩
  | .hbm, ⟨36, _⟩ => ⟨S4x1x512x512x1, .i32⟩
  | .hbm, ⟨37, _⟩ => ⟨S1, .i32⟩
  | .hbm, ⟨38, _⟩ => ⟨S_, .i32⟩
  | .hbm, ⟨39, _⟩ => ⟨S4x1x512x512x1, .i32⟩
  | .hbm, ⟨40, _⟩ => ⟨S4x1x512x512x1, .i1⟩
  | .hbm, ⟨41, _⟩ => ⟨S1x1x1x1x1, .i32⟩
  | .hbm, ⟨42, _⟩ => ⟨S4x1x512x512x1, .i32⟩
  | .hbm, ⟨43, _⟩ => ⟨S4x1x512x512x1, .i1⟩
  | .hbm, ⟨44, _⟩ => ⟨S4x1x512x512x1, .i1⟩
  | .hbm, ⟨45, _⟩ => ⟨S_, .i1⟩
  | .hbm, ⟨46, _⟩ => ⟨S4x1x512x512, .i1⟩
  | .hbm, ⟨47, _⟩ => ⟨S4x1x512x512, .f32⟩
  | .hbm, ⟨48, _⟩ => ⟨S_, .f32⟩
  | .hbm, ⟨49, _⟩ => ⟨S4x1x512x512, .f32⟩
  | .hbm, ⟨50, _⟩ => ⟨S4x1x512x512, .f32⟩
  | .hbm, ⟨51, _⟩ => ⟨S4x512x512, .f32⟩
  | .hbm, ⟨52, _⟩ => ⟨S4x512x512, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .f32⟩
  | .hbm, ⟨58, _⟩ => ⟨S_, .f32⟩
  | .hbm, ⟨59, _⟩ => ⟨S4x512x512, .f32⟩
  | .hbm, ⟨60, _⟩ => ⟨S4x512x512, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S4x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_v18 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_3 : Ref sig .tc := ⟨.hbm, 53, rfl⟩
abbrev main_v22 : Ref sig .tc := ⟨.hbm, 54, rfl⟩
abbrev main_c_4 : Ref sig .tc := ⟨.hbm, 55, rfl⟩
abbrev main_v23 : Ref sig .tc := ⟨.hbm, 56, rfl⟩
abbrev main_cst_5 : Ref sig .tc := ⟨.hbm, 57, rfl⟩
abbrev main_call2_v0 : Ref sig .tc := ⟨.hbm, 58, rfl⟩
abbrev main_call2_v1 : Ref sig .tc := ⟨.hbm, 59, rfl⟩
abbrev main_v24 : Ref sig .tc := ⟨.hbm, 60, rfl⟩
abbrev main_cst_6 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩

abbrev nD : Nat := 1
abbrev τ : Topo := Topo.v7x

variable {F : FTy → Type} [FloatOps F]

class Facts₀ : Prop where
  reducesTo_S4x64x512x512_S_d0_1_2_3 : S4x64x512x512.ReducesTo [0, 1, 2, 3] S_
  h_S_ : 0 < S_.numel
  bcast_S_S4x64x512x512 : S_.BroadcastsInDim S4x64x512x512 (![] : Fin 0 → Fin S4x64x512x512.rank)
  transposes_S4x64x512x512_S64x4x512x512_1_0_2_3 : S4x64x512x512.Transposes [1, 0, 2, 3] S64x4x512x512
  bcast_S_S20x4x512x512 : S_.BroadcastsInDim S20x4x512x512 (![] : Fin 0 → Fin S20x4x512x512.rank)
  bcast_S64_S64x1_0 : S64.BroadcastsInDim S64x1 (![0] : Fin 1 → Fin S64x1.rank)
  transposes_S20x4x512x512_S4x20x512x512_1_0_2_3 : S20x4x512x512.Transposes [1, 0, 2, 3] S4x20x512x512
  reducesTo_S4x64x512x512_S4x512x512_d1 : S4x64x512x512.ReducesTo [1] S4x512x512
  bcast_S4x512x512_S4x1x512x512_0_2_3 : S4x512x512.BroadcastsInDim S4x1x512x512 (![0, 2, 3] : Fin 3 → Fin S4x1x512x512.rank)
  bcast_S4x1x512x512_S4x20x512x512_0_1_2_3 : S4x1x512x512.BroadcastsInDim S4x20x512x512 (![0, 1, 2, 3] : Fin 4 → Fin S4x20x512x512.rank)
  bcast_S_S4x512x512 : S_.BroadcastsInDim S4x512x512 (![] : Fin 0 → Fin S4x512x512.rank)
  bcast_S_S4x1x512x512 : S_.BroadcastsInDim S4x1x512x512 (![] : Fin 0 → Fin S4x1x512x512.rank)
  shapeCasts_S4x1x512x512_S4x1x512x512x1 : S4x1x512x512.ShapeCasts S4x1x512x512x1
  bcast_S_S4x1x512x512x1 : S_.BroadcastsInDim S4x1x512x512x1 (![] : Fin 0 → Fin S4x1x512x512x1.rank)
  bcast_S1_S1x1x1x1x1_4 : S1.BroadcastsInDim S1x1x1x1x1 (![4] : Fin 1 → Fin S1x1x1x1x1.rank)
  bcast_S1x1x1x1x1_S4x1x512x512x1_0_1_2_3_4 : S1x1x1x1x1.BroadcastsInDim S4x1x512x512x1 (![0, 1, 2, 3, 4] : Fin 5 → Fin S4x1x512x512x1.rank)
  reducesTo_S4x1x512x512x1_S4x1x512x512_d4 : S4x1x512x512x1.ReducesTo [4] S4x1x512x512
  shapeCasts_S4x1x512x512_S4x512x512 : S4x1x512x512.ShapeCasts S4x512x512
  natLt_1_32 : 1 < 32
  reducesTo_S4x512x512_S_d0_1_2 : S4x512x512.ReducesTo [0, 1, 2] S_
  scatter_S20x4x512x512_S64x1_S64x4x512x512_123_0_0_1_wf : ScatterDims.WF S20x4x512x512 S64x1 S64x4x512x512 [1, 2, 3] [0] [0] 1
  gather_S4x20x512x512_S4x1x512x512x1_S4x1x512x512_n_1_023_023_1_4_1111_wf : GatherDims.WF S4x20x512x512 S4x1x512x512x1 S4x1x512x512 [] [1] [0, 2, 3] [1] [0, 2, 3] 4 ![1, 1, 1, 1]

variable [Facts₀]

def scatter_S20x4x512x512_S64x1_S64x4x512x512_123_0_0_1 : ScatterDims S20x4x512x512 S64x1 S64x4x512x512 where
  updateWindowDims := [1, 2, 3]
  insertedWindowDims := [0]
  scatterDimsToOperandDims := [0]
  indexVectorDim := 1
  wf := scatter_S20x4x512x512_S64x1_S64x4x512x512_123_0_0_1_wf
def gather_S4x20x512x512_S4x1x512x512x1_S4x1x512x512_n_1_023_023_1_4_1111 : GatherDims S4x20x512x512 S4x1x512x512x1 S4x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S4x20x512x512_S4x1x512x512x1_S4x1x512x512_n_1_023_023_1_4_1111_wf

class Facts : Prop extends Facts₀ where

variable [Facts]
-- ==== Proof.KFlat.lean ====
/-
  The quantities the two launches compute, over the arrays they are given.

  The scores come flattened to [4, 64, 262144] (a pixel's flat position p in place of its row and column), the
  labels to [4, 1, 262144], the largest score as a [1, 1] array, and the channels' classes as a [20, 64] table of
  zeros and ones. The first launch leaves each image's largest score (bmax). The second walks an image in sixteen
  blocks of 16384 positions; at a position it forms the twenty class sums as table-weighted sums of the shifted
  exponentials, and adds to the image's running sum the position's term (termB: 0 - (log of the label's class sum
  - log of the sum of the class sums), 0 at an ignored label) and to its running count a one for every label that
  is not ignored (oneB). Over an image that is the sum over all positions (sums, counts).
-/
import Idealize.ShloMosaic.PureOps.Ideal
import Idealize.ShloMosaic.Lib.ValueIdx

noncomputable section

open scoped BigOperators

namespace Cert.KFlat

open Idealize.ShloMosaic Idealize.ShloMosaic.ValueIdx

abbrev SXF : Shape := ⟨3, ![4, 64, 262144]⟩
abbrev STF : Shape := ⟨3, ![4, 1, 262144]⟩
abbrev SM : Shape := ⟨2, ![1, 1]⟩
abbrev SO : Shape := ⟨2, ![20, 64]⟩
abbrev SXB : Shape := ⟨3, ![1, 64, 16384]⟩
abbrev STB : Shape := ⟨3, ![1, 1, 16384]⟩

/-- Image b's largest score (the bottom element for none). -/
def bmax (xf : SXF.Idx → EReal) (b : Fin 4) : EReal :=
  Finset.univ.sup fun q : Fin 64 × Fin 262144 => xf (ix3 b q.1 q.2)

section Block
variable (xb : SXB.Idx → EReal) (tb : STB.Idx → BitVec 32) (mb : SM.Idx → EReal) (ob : SO.Idx → EReal)

/-- The shifted exponential of channel c at position s of the block. -/
def eB (c : Fin 64) (s : Fin 16384) : EReal := Ideal.exp (xb (ix3 0 c s) - mb (ix2 0 0))
/-- Class n's sum at position s: the table's row n against the shifted exponentials. -/
def oriB (n : Fin 20) (s : Fin 16384) : EReal := ∑ c : Fin 64, ob (ix2 n c) * eB xb mb c s
/-- The label at s with the ignore value replaced by 0. -/
def lblB (s : Fin 16384) : BitVec 32 := if tb (ix3 0 0 s) ≠ 255#32 then tb (ix3 0 0 s) else 0#32
/-- Position s's term. -/
def termB (s : Fin 16384) : EReal :=
  if tb (ix3 0 0 s) ≠ 255#32 then
    0 - (Ideal.log (∑ n : Fin 20, if BitVec.ofNat 32 n.val = lblB tb s then oriB xb mb ob n s else 0)
          - Ideal.log (∑ n : Fin 20, oriB xb mb ob n s))
  else 0
/-- One for a label that is not ignored. -/
def oneB (s : Fin 16384) : EReal := if tb (ix3 0 0 s) ≠ 255#32 then 1 else 0

end Block

section Arr
variable (xf : SXF.Idx → EReal) (tf : STF.Idx → BitVec 32) (mx : SM.Idx → EReal) (oh : SO.Idx → EReal)

def eF (b : Fin 4) (c : Fin 64) (p : Fin 262144) : EReal := Ideal.exp (xf (ix3 b c p) - mx (ix2 0 0))
def oriF (b : Fin 4) (n : Fin 20) (p : Fin 262144) : EReal := ∑ c : Fin 64, oh (ix2 n c) * eF xf mx b c p
def lblF (b : Fin 4) (p : Fin 262144) : BitVec 32 := if tf (ix3 b 0 p) ≠ 255#32 then tf (ix3 b 0 p) else 0#32
def termF (b : Fin 4) (p : Fin 262144) : EReal :=
  if tf (ix3 b 0 p) ≠ 255#32 then
    0 - (Ideal.log (∑ n : Fin 20, if BitVec.ofNat 32 n.val = lblF tf b p then oriF xf mx oh b n p else 0)
          - Ideal.log (∑ n : Fin 20, oriF xf mx oh b n p))
  else 0
def oneF (b : Fin 4) (p : Fin 262144) : EReal := if tf (ix3 b 0 p) ≠ 255#32 then 1 else 0
/-- Image b's sum of terms and count of labels that are not ignored. -/
def sums (b : Fin 4) : EReal := ∑ p : Fin 262144, termF xf tf mx oh b p
def counts (b : Fin 4) : EReal := ∑ p : Fin 262144, oneF tf b p

end Arr

end Cert.KFlat

end
-- ==== Proof.Spec.lean ====
/-
  The loss, as a function of the three argument arrays, over the extended reals.

  x : [4, 64, 512, 512] scores, t : [4, 512, 512] labels (255 = ignore), g : [64] the class of each of the 64 channels.
  With M the largest score, e = exp (x - M), the channels are summed class by class (ori), a pixel's term is
  log ori[label] - log (sum of e over the channels), and the loss is minus the sum of the valid pixels' terms over
  the number of valid pixels (at least one).

  Two closed forms are written down. The first sums the classes' sums where the second sums the channels, picks
  the label's class by a sum over the classes against a one-hot comparison, negates each term (as 0 - term) before
  summing, counts in the extended reals, and runs over a pixel's flat position p = 512 h + w. The second indexes
  the label's class directly, negates after summing and counts in the naturals. They agree when every score is
  finite, every label is 255 or below 20, and every channel's class is below 20 (lossK_eq_lossR, proved elsewhere).
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨4, ![4, 64, 512, 512]⟩
abbrev ST : Shape := ⟨3, ![4, 512, 512]⟩
abbrev SG : Shape := ⟨1, ![64]⟩

section Forms
variable (x : SX.Idx → EReal) (t : ST.Idx → BitVec 32) (g : SG.Idx → BitVec 32)

/-- The largest score (the bottom element for no score at all). -/
def gmax : EReal := Finset.univ.sup x

/-- The shifted exponential of the score at (b, c, h, w). -/
def ex (b : Fin 4) (c : Fin 64) (h w : Fin 512) : EReal := Ideal.exp (x (ix4 b c h w) - gmax x)

/-- Class n's sum at pixel (b, h, w): the shifted exponentials of the channels whose class is n. -/
def ori (b : Fin 4) (n : Fin 20) (h w : Fin 512) : EReal :=
  ∑ c : Fin 64, if g (ix1 c) = BitVec.ofNat 32 n.val then ex x b c h w else 0

/-- The normaliser as the sum of the twenty class sums. -/
def esumK (b : Fin 4) (h w : Fin 512) : EReal := ∑ n : Fin 20, ori x g b n h w

/-- The normaliser as the sum over the sixty-four channels. -/
def esumR (b : Fin 4) (h w : Fin 512) : EReal := ∑ c : Fin 64, ex x b c h w

/-- The label with the ignore value replaced by 0. -/
def lbl (b : Fin 4) (h w : Fin 512) : BitVec 32 := if t (ix3 b h w) ≠ 255#32 then t (ix3 b h w) else 0#32

/-- The label's class sum, picked by comparing every class with the label. -/
def pickK (b : Fin 4) (h w : Fin 512) : EReal :=
  ∑ n : Fin 20, if BitVec.ofNat 32 n.val = lbl t b h w then ori x g b n h w else 0

/-- A pixel's contribution, negated before it is summed; 0 at an ignored pixel. -/
def termK (b : Fin 4) (h w : Fin 512) : EReal :=
  if t (ix3 b h w) ≠ 255#32 then 0 - (Ideal.log (pickK x t g b h w) - Ideal.log (esumK x g b h w)) else 0

/-- The label as a class (reduced mod 20 so that it is one for every word). -/
def lblFin (b : Fin 4) (h w : Fin 512) : Fin 20 := ⟨(lbl t b h w).toNat % 20, Nat.mod_lt _ (by decide)⟩

/-- A pixel's contribution, not negated; 0 at an ignored pixel. -/
def termR (b : Fin 4) (h w : Fin 512) : EReal :=
  if t (ix3 b h w) ≠ 255#32 then Ideal.log (ori x g b (lblFin t b h w) h w) - Ideal.log (esumR x b h w) else 0

/-- The number of pixels whose label is not the ignore value. -/
def cnt : ℕ := (Finset.univ.filter fun q : Fin 4 × Fin 512 × Fin 512 => t (ix3 q.1 q.2.1 q.2.2) ≠ 255#32).card

/-- Row and column of the flat position p = 512 h + w. -/
def hOf (p : Fin 262144) : Fin 512 := ⟨p.val / 512, by have := p.isLt; omega⟩
def wOf (p : Fin 262144) : Fin 512 := ⟨p.val % 512, by omega⟩

/-- The first closed form. -/
def lossK : EReal :=
  Ideal.div (∑ b : Fin 4, ∑ p : Fin 262144, termK x t g b (hOf p) (wOf p)) (max ((cnt t : ℝ) : EReal) 1)

/-- The second closed form. -/
def lossR : EReal :=
  Ideal.div (-(∑ b : Fin 4, ∑ h : Fin 512, ∑ w : Fin 512, termR x t g b h w)) (((max (cnt t) 1 : ℕ) : ℝ) : EReal)

/-- The domain: finite scores, labels 255 or below 20, channel classes below 20. -/
structure Dom : Prop where
  fin : ∀ i, x i ≠ ⊤ ∧ x i ≠ ⊥
  lab : ∀ i, t i = 255#32 ∨ (t i).toNat < 20
  grp : ∀ i, (g i).toNat < 20

end Forms

end Cert.Spec

end
-- ==== Proof.K0.lean ====
/-
  The first launch: each image's entry of its result array ends at the image's largest score.

  The launch walks image b in sixteen blocks of 16384 positions (point 16 b + i takes block i, all 64 channels). Its
  body keeps a running value in a one-entry block: at an image's first block it stores -inf, and at every block it
  replaces the running value by the larger of it and the block's largest entry (a maximum over the positions of each
  channel, then over the channels; over the extended reals a maximum started at -inf is a supremum). By induction on i
  the running value after point 16 b + i is the supremum of image b's entries at the positions below 16384 (i + 1);
  after i = 15 that is the supremum over all 262144 positions, and that is the point after which the one-entry block
  is written to entry (b, 0, 0) of the result array.
-/
import proofs.«404899_j12180527252165_2_alg».proof.Proof.Gen.KernelIdeal.Frame
import proofs.«404899_j12180527252165_2_alg».proof.Proof.KFlat
import Idealize.ShloMosaic.Lib.Pipeline.Value
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.K0

open Cert.KernelIdeal Cert.KernelIdeal.Gen

theorem hz : (![0, 0, 0] : Fin 3 → Nat) = fun _ => 0 := funext fun a => by fin_cases a <;> rfl

section Pieces
variable {F : FTy → Type} [FloatOps F]

/-- At a point that does not open an image the body leaves, over the running value xo, the update of xo by the block x. -/
theorem out_B (c : Dev nD) (i : grid0.Coords) (a1 : Memref sig .tc .vmem S1x64x16384 .f32) (h1 : a1.IsWhole)
    (a2 : Memref sig .tc .vmem S1x1x1 .f32) (h2 : a2.IsWhole) (hc : ¬cond0_0 i)
    (x : Vec F S1x64x16384 .f32) (xo : Vec F S1x1x1 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  sl_unfold_words
  rw [View.canon_unit_zero hz]
  simp only [View.readAt_eq_ld, h1.read_unread, h2.read_unread, View.ld_unit_zero (S := S1x64x16384) hz, View.ld_unit_zero (S := S1x1x1) hz]

/-- At a point that opens an image the body first stores the -inf block, reads it back, and leaves its update by x. -/
theorem out_A (c : Dev nD) (i : grid0.Coords) (a1 : Memref sig .tc .vmem S1x64x16384 .f32) (h1 : a1.IsWhole)
    (a2 : Memref sig .tc .vmem S1x1x1 .f32) (h2 : a2.IsWhole) (hc : cond0_0 i)
    (x : Vec F S1x64x16384 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x1x1) hz, View.readCov_unit_zero (S := S1x1x1) _ hz]
  simp only [View.readAt_eq_ld, h1.read_unread, View.ld_unit_zero (S := S1x64x16384) hz, View.ld_unit_zero (S := S1x1x1) hz]

end Pieces

/-! ## The update, read over the extended reals -/

/-- The f32 pattern 0xFF800000 denotes -inf, the bottom element. -/
theorem neg_inf_bits : Ideal.ofBits .f32 0xFF800000#32 = (⊥ : EReal) := by simp [Ideal.ofBits, Ideal.ieee]

/-- A fold of max from the bottom element is the supremum. -/
theorem fold_max_bot_eq_sup {ι : Type} (s : Finset ι) (f : ι → EReal) : s.fold max ⊥ f = s.sup f :=
  le_antisymm ((Finset.fold_max_le _).2 ⟨bot_le, fun x hx => Finset.le_sup hx⟩)
    (Finset.sup_le fun x hx => (Finset.le_fold_max _).2 (Or.inr ⟨x, hx, le_rfl⟩))

/-- A maximum-reduction over one axis, started at -inf, is at each kept index the supremum over that axis. -/
theorem multiReduction_max_sup {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j
      = Finset.univ.sup fun k : Fin (s.size a) => src (h.lift j k) := by
  refine (Ideal.multiReduction_maximumf_single src _ h hφ hacc j).trans ?_
  show Finset.fold max (Ideal.ofBits .f32 0xFF800000#32) _ _ = _
  rw [neg_inf_bits]
  exact fold_max_bot_eq_sup _ _

/-- A supremum over pairs is the supremum over the first components of the suprema over the second. -/
theorem sup_pairs {α β : Type} [Fintype α] [Fintype β] (f : α → β → EReal) :
    (Finset.univ.sup fun q : α × β => f q.1 q.2)
      = Finset.univ.sup fun k : α => Finset.univ.sup fun s : β => f k s := by
  rw [← Finset.univ_product_univ, Finset.sup_product_left]

/-- Three casts among one-entry shapes read the one entry. -/
theorem cast_unit3 (v : FVec Ideal S1x1 .f32) (h1 : S1x1.ShapeCasts S1x1x1) (h2 : S1x1x1.ShapeCasts S1x1)
    (h3 : S1x1.ShapeCasts S1x1x1) :
    shapeCast S1x1x1 (shapeCast S1x1 (shapeCast S1x1x1 v h1) h2) h3 (ix3 0 0 0) = v (ix2 0 0) := by
  have e : shapeCast S1x1 (shapeCast S1x1x1 v h1) h2 = v := shapeCast_shapeCast v h1 h2
  rw [e]
  exact shapeCast_apply v h3 (ix3 0 0 0) (ix2 0 0) (by rw [Shape.rowMajor_val_two, Shape.rowMajor_val_three]; rfl)

/-- The reduction over the 64 channels of the per-channel maxima. -/
theorem red_channels (v : FVec Ideal S1x64 .f32) (h : S1x64.ShapeCasts S1x64x1) (hr : S1x64x1.Reduces [1] S1x1)
    (hφ : FKind.Formats .f32) (hacc : (0xFF800000#32 : BitVec 32) = FKind.maximumf.neutral .f32 hφ) :
    multiReduction .maximumf [1] S1x1 (shapeCast S1x64x1 v h) 0xFF800000#32 hr hφ hacc (ix2 0 0)
      = Finset.univ.sup fun k : Fin 64 => v (ix2 0 k) := by
  refine (multiReduction_max_sup (shapeCast S1x64x1 v h) hr hφ hacc (ix2 0 0)).trans ?_
  refine Finset.sup_congr rfl fun k _ => ?_
  exact shapeCast_apply v h _ (ix2 0 k) (by rw [Shape.rowMajor_val_two, Shape.rowMajor_val_three]; show 0 * 64 + k.val = (0 * 64 + k.val) * 1 + 0; omega)

/-- The reduction over a channel's 16384 positions. -/
theorem red_positions (x : FVec Ideal S1x64x16384 .f32) (h : S1x64x16384.ShapeCasts S1x64x16384)
    (hr : S1x64x16384.Reduces [2] S1x64) (hφ : FKind.Formats .f32)
    (hacc : (0xFF800000#32 : BitVec 32) = FKind.maximumf.neutral .f32 hφ) (k : Fin 64) :
    multiReduction .maximumf [2] S1x64 (shapeCast S1x64x16384 x h) 0xFF800000#32 hr hφ hacc (ix2 0 k)
      = Finset.univ.sup fun s : Fin 16384 => x (ix3 0 k s) := by
  rw [shapeCast_self]
  refine (multiReduction_max_sup x hr hφ hacc (ix2 0 k)).trans ?_
  refine Finset.sup_congr rfl fun s _ => ?_
  exact congrArg x (funext fun a => by match a with | ⟨0, _⟩ => rfl | ⟨1, _⟩ => rfl | ⟨2, _⟩ => rfl)

/-- The update at its one entry: the larger of the running value and the block's largest entry. -/
theorem pay2_apply (x : FVec Ideal S1x64x16384 .f32) (acc : FVec Ideal S1x1x1 .f32) :
    k0_pay2 (F := Ideal) x acc (ix3 0 0 0)
      = max (acc (ix3 0 0 0)) (Finset.univ.sup fun q : Fin 64 × Fin 16384 => x (ix3 0 q.1 q.2)) := by
  unfold k0_pay2
  dsimp only
  refine (maximumf_apply _ _ _).trans ?_
  refine congrArg₂ max (congrFun (shapeCast_self acc _) _) ?_
  refine (cast_unit3 _ _ _ _).trans ?_
  refine (red_channels _ _ _ _ _).trans ?_
  refine Eq.trans ?_ (sup_pairs fun k s => x (ix3 0 k s)).symm
  exact Finset.sup_congr rfl fun k _ => red_positions x _ _ _ _ k

/-- The -inf block at its one entry. -/
theorem pay1_apply : k0_pay1 (F := Ideal) (ix3 0 0 0) = (⊥ : EReal) := by
  unfold k0_pay1
  show Ideal.ofBits .f32 0xFF800000#32 = _
  exact neg_inf_bits

/-! ## The largest entry among the first n positions of an image -/

section PMax
variable (xf : Cert.KFlat.SXF.Idx → EReal) (b : Fin 4)

/-- Image b's largest entry among the positions below n (the bottom element for none). -/
def pmax (n : ℕ) : EReal :=
  Finset.univ.sup fun q : Fin 64 × Fin 262144 => if q.2.val < n then xf (ix3 b q.1 q.2) else ⊥

theorem pmax_base : pmax xf b (16384 * 0) = ⊥ :=
  bot_unique (Finset.sup_le fun q _ => by rw [if_neg (by omega)])

theorem pmax_full : pmax xf b 262144 = Cert.KFlat.bmax xf b :=
  Finset.sup_congr rfl fun q _ => if_pos q.2.isLt

/-- Taking in one more block of 16384 positions. -/
theorem pmax_step (i : ℕ) (hi : 16384 * (i + 1) ≤ 262144) (blk : Fin 64 → Fin 16384 → EReal)
    (hblk : ∀ (ch : Fin 64) (s : Fin 16384) (hp : 16384 * i + s.val < 262144), blk ch s = xf (ix3 b ch ⟨16384 * i + s.val, hp⟩)) :
    max (pmax xf b (16384 * i)) (Finset.univ.sup fun q : Fin 64 × Fin 16384 => blk q.1 q.2)
      = pmax xf b (16384 * (i + 1)) := by
  apply le_antisymm
  · refine max_le (Finset.sup_le fun q _ => ?_) (Finset.sup_le fun q _ => ?_)
    · by_cases h : q.2.val < 16384 * i
      · rw [if_pos h]
        exact (le_of_eq (if_pos (by omega)).symm).trans
          (Finset.le_sup (f := fun q : Fin 64 × Fin 262144 => if q.2.val < 16384 * (i + 1) then xf (ix3 b q.1 q.2) else ⊥) (Finset.mem_univ q))
      · rw [if_neg h]; exact bot_le
    · have hs := q.2.isLt
      have hp : 16384 * i + q.2.val < 262144 := by omega
      rw [hblk q.1 q.2 hp]
      exact (le_of_eq (if_pos (show ((q.1, (⟨16384 * i + q.2.val, hp⟩ : Fin 262144)) : Fin 64 × Fin 262144).2.val < 16384 * (i + 1) from by show 16384 * i + q.2.val < _; omega)).symm).trans
        (Finset.le_sup (f := fun q : Fin 64 × Fin 262144 => if q.2.val < 16384 * (i + 1) then xf (ix3 b q.1 q.2) else ⊥) (Finset.mem_univ (q.1, (⟨16384 * i + q.2.val, hp⟩ : Fin 262144))))
  · refine Finset.sup_le fun q _ => ?_
    by_cases h : q.2.val < 16384 * (i + 1)
    · rw [if_pos h]
      by_cases h' : q.2.val < 16384 * i
      · exact le_max_of_le_left ((le_of_eq (if_pos h').symm).trans
          (Finset.le_sup (f := fun q : Fin 64 × Fin 262144 => if q.2.val < 16384 * i then xf (ix3 b q.1 q.2) else ⊥) (Finset.mem_univ q)))
      · have hs : q.2.val - 16384 * i < 16384 := by omega
        have hp : 16384 * i + (⟨q.2.val - 16384 * i, hs⟩ : Fin 16384).val < 262144 := by show 16384 * i + (q.2.val - 16384 * i) < _; omega
        have e : q.2 = (⟨16384 * i + (⟨q.2.val - 16384 * i, hs⟩ : Fin 16384).val, hp⟩ : Fin 262144) :=
          Fin.ext (by show q.2.val = 16384 * i + (q.2.val - 16384 * i); omega)
        have e2 : xf (ix3 b q.1 q.2) = blk q.1 ⟨q.2.val - 16384 * i, hs⟩ := by
          rw [hblk q.1 ⟨q.2.val - 16384 * i, hs⟩ hp, ← e]
        rw [e2]
        exact le_max_of_le_right
          (Finset.le_sup (f := fun q : Fin 64 × Fin 16384 => blk q.1 q.2) (Finset.mem_univ (q.1, (⟨q.2.val - 16384 * i, hs⟩ : Fin 16384))))
    · rw [if_neg h]; exact bot_le

end PMax

variable (V : (c : Dev nD) → (b : Ref sig .tc) → Buf (Elt Ideal) ((c : Thread nD τ).loc b))

/-! ## The launch: what the result block holds after each point -/

/-- The scores as the launch finds them. -/
abbrev xarr (c : Dev nD) : Cert.KFlat.SXF.Idx → EReal := V c main_v0
/-- The block of scores the body is given at point t. -/
abbrev xblk (c : Dev nD) (t : Fin cfg0.N) : FVec Ideal S1x64x16384 .f32 := iblk0 V c 0 t

/-- Where the first window's block sits at each point: image t / 16, all channels, positions from 16384 (t % 16). -/
theorem index0 : ∀ t : Fin cfg0.N, win0_0.index t 0 = t.val / 16 ∧ win0_0.index t 1 = 0 ∧ win0_0.index t 2 = t.val % 16 :=
  (by decide +kernel : ∀ t : Fin grid0.N, win0_0.index t 0 = t.val / 16 ∧ win0_0.index t 1 = 0 ∧ win0_0.index t 2 = t.val % 16)

/-- The block at point 16 b + i is image b's positions 16384 i … 16384 i + 16383. -/
theorem xblk_apply (c : Dev nD) (b : Fin 4) (i : Fin 16) (t : Fin cfg0.N) (ht : t.val = 16 * b.val + i.val)
    (ch : Fin 64) (s : Fin 16384) (hp : 16384 * i.val + s.val < 262144) :
    xblk V c t (ix3 0 ch s) = xarr V c (ix3 b ch ⟨16384 * i.val + s.val, hp⟩) := by
  have hi := index0 t
  have hb := b.isLt
  have hi16 := i.isLt
  unfold xblk iblk0
  rw [View.read_apply]
  show V c main_v0 _ = V c main_v0 _
  congr 1
  funext a
  apply Fin.ext
  match a with
  | ⟨0, _⟩ => show win0_0.index t 0 * 1 + 1 * 0 = b.val; rw [hi.1]; omega
  | ⟨1, _⟩ => show win0_0.index t 1 * 64 + 1 * ch.val = ch.val; rw [hi.2.1]; omega
  | ⟨2, _⟩ => show win0_0.index t 2 * 16384 + 1 * s.val = 16384 * i.val + s.val; rw [hi.2.2]; omega

/-- After point 16 b + i the result block holds image b's largest entry among the first 16384 (i + 1) positions. -/
theorem inv (c : Dev nD) (b : Fin 4) : ∀ (i : ℕ) (hi : i < 16) (h : 16 * b.val + i < cfg0.N),
    (outsAt0 V c (16 * b.val + i) h : S1x1x1.Idx → EReal) (ix3 0 0 0) = pmax (xarr V c) b (16384 * (i + 1))
  | 0, hi, h => by
    have hA : (⟨16 * b.val + 0, h⟩ : Fin cfg0.N).val % 16 = 0 := by dsimp only; omega
    rw [outsAt0_A V c ⟨16 * b.val + 0, h⟩ hA, out_A]
    refine (pay2_apply (xblk V c ⟨16 * b.val + 0, h⟩) (k0_pay1 (F := Ideal))).trans ?_
    refine (congrArg₂ max (pay1_apply.trans (pmax_base (xarr V c) b).symm) rfl).trans ?_
    exact pmax_step (xarr V c) b 0 (by omega) (fun ch s => xblk V c ⟨16 * b.val + 0, h⟩ (ix3 0 ch s))
      (fun ch s hp => xblk_apply V c b ⟨0, hi⟩ ⟨16 * b.val + 0, h⟩ rfl ch s hp)
  | i + 1, hi, h => by
    have hB : ¬(⟨16 * b.val + (i + 1), h⟩ : Fin cfg0.N).val % 16 = 0 := by dsimp only; omega
    rw [outsAt0_B V c ⟨16 * b.val + (i + 1), h⟩ hB, out_B]
    refine (pay2_apply (xblk V c ⟨16 * b.val + (i + 1), h⟩) _).trans ?_
    refine (congrArg₂ max (inv c b i (by omega) (by omega)) rfl).trans ?_
    exact pmax_step (xarr V c) b (i + 1) (by omega) (fun ch s => xblk V c ⟨16 * b.val + (i + 1), h⟩ (ix3 0 ch s))
      (fun ch s hp => xblk_apply V c b ⟨i + 1, hi⟩ ⟨16 * b.val + (i + 1), h⟩ rfl ch s hp)

/-- The same, at a point given by its number. -/
theorem inv_at (c : Dev nD) (b : Fin 4) (i : ℕ) (hi : i < 16) (t : Fin cfg0.N) (ht : t.val = 16 * b.val + i) :
    (outsAt0 V c t.val t.isLt : S1x1x1.Idx → EReal) (ix3 0 0 0) = pmax (xarr V c) b (16384 * (i + 1)) := by
  obtain ⟨n, hn⟩ := t
  dsimp only at ht
  subst ht
  exact inv V c b i hi hn

/-- Image n's largest entry (the bottom element past the last image). -/
def bmaxN (xf : Cert.KFlat.SXF.Idx → EReal) (n : ℕ) : EReal := if h : n < 4 then Cert.KFlat.bmax xf ⟨n, h⟩ else ⊥

/-- The array the launch leaves: entry (b, 0, 0) is image b's largest entry. -/
def result (c : Dev nD) : S4x1x1.Idx → EReal := fun j => bmaxN (xarr V c) (j 0).val

/-- Where the result window's block sits at each point: entry (t / 16, 0, 0). -/
theorem index1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)

/-- A write-back happens after an image's last point, and writes the image's largest entry to the image's entry. -/
theorem flushed_eq (c : Dev nD) (t : Fin cfg0.N) (hf : (cfg0.win 1).flush t = true) :
    (dat0 V c).flushed 1 t = ((cfg0.win 1).blk t).view.read (Elt Ideal) (result V c) := by
  have hN : cfg0.N = 64 := N_0
  have h15 : t.val % 16 = 15 := (flush0_1 t).mp hf
  have hlt := t.isLt
  have hi := index1 t
  show (cfg0.win 1).cut (grid0.coords t) ((dat0 V c).after 1 t) = _
  rw [after0_1]
  refine funext fun (j : S1x1x1.Idx) => ?_
  have hj : j = ix3 0 0 0 := by
    funext a; apply Fin.ext
    have h0 : (j 0 : Nat) < 1 := (j 0).isLt
    have h1 : (j 1 : Nat) < 1 := (j 1).isLt
    have h2 : (j 2 : Nat) < 1 := (j 2).isLt
    match a with
    | ⟨0, _⟩ => show (j 0 : Nat) = 0; omega
    | ⟨1, _⟩ => show (j 1 : Nat) = 0; omega
    | ⟨2, _⟩ => show (j 2 : Nat) = 0; omega
  subst hj
  have hb : t.val / 16 < 4 := by omega
  refine (inv_at V c ⟨t.val / 16, hb⟩ 15 (by omega) t (by show t.val = 16 * (t.val / 16) + 15; omega)).trans ?_
  show pmax (xarr V c) ⟨t.val / 16, hb⟩ 262144 = _
  rw [pmax_full, View.read_apply]
  show _ = bmaxN (xarr V c) (win0_1.index t 0 * 1 + 1 * 0)
  rw [hi.1]
  unfold bmaxN
  rw [dif_pos (show t.val / 16 * 1 + 1 * 0 < 4 by omega)]
  congr 1
  exact Fin.ext (by show t.val / 16 = t.val / 16 * 1 + 1 * 0; omega)

theorem arr0 (c : Dev nD) (b : Fin 4) :
    ((dat0 (F := Ideal) V c).arrAt 1 cfg0.N : S4x1x1.Idx → EReal) (ix3 b 0 0) = Cert.KFlat.bmax (V c main_v0) b := by
  have hN : cfg0.N = 64 := N_0
  have hb := b.isLt
  have ht : 16 * b.val + 15 < cfg0.N := by omega
  have hi := index1 ⟨16 * b.val + 15, ht⟩
  refine ((dat0 V c).arrAt_apply_of_mem 1 (result V c) (flushed_eq V c) cfg0.N ⟨16 * b.val + 15, ht⟩ (ix3 b 0 0) ht
    ((flush0_1 _).mpr (by show (16 * b.val + 15) % 16 = 15; omega)) ?_).trans ?_
  · show ix3 b 0 0 ∈ ((View.whole main_v5).slice (win0_1.rect ⟨16 * b.val + 15, ht⟩)).set
    rw [View.set_slice_whole, Rect.mem_set_unit]
    intro a
    match a with
    | ⟨0, _⟩ =>
      show win0_1.index ⟨16 * b.val + 15, ht⟩ 0 * 1 ≤ b.val ∧ b.val < win0_1.index ⟨16 * b.val + 15, ht⟩ 0 * 1 + 1
      rw [hi.1]; show (16 * b.val + 15) / 16 * 1 ≤ b.val ∧ b.val < (16 * b.val + 15) / 16 * 1 + 1; omega
    | ⟨1, _⟩ =>
      show win0_1.index ⟨16 * b.val + 15, ht⟩ 1 * 1 ≤ 0 ∧ 0 < win0_1.index ⟨16 * b.val + 15, ht⟩ 1 * 1 + 1
      rw [hi.2.1]; omega
    | ⟨2, _⟩ =>
      show win0_1.index ⟨16 * b.val + 15, ht⟩ 2 * 1 ≤ 0 ∧ 0 < win0_1.index ⟨16 * b.val + 15, ht⟩ 2 * 1 + 1
      rw [hi.2.2]; omega
  · show bmaxN (xarr V c) b.val = _
    exact dif_pos b.isLt

end Cert.KernelIdeal.K0

end
-- ==== Proof.K1Pay.lean ====
/-
  The second launch's two stored values, at one block: the running sum plus the block's terms, the running count
  plus the block's ones.

  The payload is read at an index operation by operation. The shifted exponentials, cast from [1, 64, 16384] to
  [64, 16384], read exp (x - max) at (0, c, s); the table times them reads, at (n, s), the sum over the channels c of
  the table's (n, c) against the exponential at (c, s), which is class n's sum; the sum over the class axis is the
  sum of the twenty class sums; the class axis' iota compared with the broadcast label keeps the label's class sum
  alone, and its sum over the class axis is the one-hot pick; the two logarithms, their difference and its negation
  are pointwise; the mask keeps a position whose label is not ignored; and the sum over the 16384 positions, cast
  up to [1, 1, 1], is added to the running value.
-/
import proofs.«404899_j12180527252165_2_alg».proof.Proof.Gen.KernelIdeal.Skeleton
import proofs.«404899_j12180527252165_2_alg».proof.Proof.KFlat
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.K1Pay

open Cert.KernelIdeal Cert.KernelIdeal.Gen

/-! ### Pointwise operations and words -/

theorem exp_apply {s : Shape} {φ : FTy} (v : FVec Ideal s φ) (i : s.Idx) : exp v i = Ideal.exp (v i) := rfl
theorem log_apply {s : Shape} {φ : FTy} (v : FVec Ideal s φ) (i : s.Idx) : log v i = Ideal.log (v i) := rfl
theorem cmpi_apply {s : Shape} {w : Nat} (p : CmpIPredicate) (a b : IVec s w) (i : s.Idx) :
    cmpi p a b i = IntOp.cmpi p (a i) (b i) := rfl

/-- A select on "the two words differ" is the 'if' on their difference. -/
theorem select_cmpi_ne {α : Type} (a b : BitVec 32) (u v : α) :
    Scalar.select (IntOp.cmpi .ne a b) u v = if a ≠ b then u else v := by
  unfold Scalar.select IntOp.cmpi
  by_cases h : a = b
  · subst h; simp
  · have hb : (a != b) = true := by simpa using h
    rw [hb]; simp [h]

/-- A select on "the two words are equal" is the 'if' on their equality. -/
theorem select_cmpi_eq {α : Type} (a b : BitVec 32) (u v : α) :
    Scalar.select (IntOp.cmpi .eq a b) u v = if a = b then u else v := by
  unfold Scalar.select IntOp.cmpi
  by_cases h : a = b
  · subst h; simp
  · have hb : (a == b) = false := by simpa using h
    rw [hb]; simp [h]

/-- The bit "the two words differ", widened and converted, is one or zero. -/
theorem sitofp_cmpi_ne (a b : BitVec 32) :
    FloatOps.sitofp (F := Ideal) .f32 ((IntOp.cmpi .ne a b).setWidth 32) = if a ≠ b then 1 else 0 := by
  show ((((IntOp.cmpi .ne a b).setWidth 32).toInt : ℝ) : EReal) = _
  unfold IntOp.cmpi
  by_cases h : a = b
  · have hb : (a != b) = false := by simp [h]
    have e : (BitVec.setWidth 32 (BitVec.ofBool false)).toInt = 0 := by decide
    rw [hb, e]; simp [h]
  · have hb : (a != b) = true := by simpa using h
    have e : (BitVec.setWidth 32 (BitVec.ofBool true)).toInt = 1 := by decide
    rw [hb, e]; simp [h]

/-- The zero word is the extended real zero. -/
theorem zero_word : (Scalar.ofBits .f32 0x00000000#32 : Ideal .f32) = (0 : EReal) := Ideal.ofBits_zero_f32

/-! ### Sums over one axis, with the casts around them -/

/-- The sum over the class axis of a [20, 16384] array, cast to [1, 16384], reads at (0, s) the sum over the
    twenty classes at s. -/
theorem classSum_apply (v : FVec Ideal S20x16384 .f32) (s : Fin 16384) :
    shapeCast S1x16384 (multiReduction (F := Ideal) .add [0] S16384 v 0x00000000#32 reduces_S20x16384_S16384 (.inl rfl) rfl)
        shapeCasts_S16384_S1x16384 (ix2 (0 : Fin 1) s)
      = ∑ n : Fin 20, v (ix2 n s) := by
  refine (shapeCast_a_1a_apply _ _ (0 : Fin 1) s).trans ?_
  refine (Ideal.multiReduction_add_single v 0x00000000#32 reduces_S20x16384_S16384 (.inl rfl) rfl (ix1 s)).trans ?_
  refine Finset.sum_congr rfl fun n _ => congrArg v (funext fun a => Fin.ext ?_)
  match a with
  | ⟨0, _⟩ => rfl
  | ⟨1, _⟩ => rfl

/-- The sum over the positions of a [1, 16384] array, cast up to [1, 1, 1], reads the sum over the 16384
    positions. -/
theorem laneSum_apply (v : FVec Ideal S1x16384 .f32) :
    shapeCast S1x1x1 (shapeCast S1x1 (multiReduction (F := Ideal) .add [1] S1 v 0x00000000#32 reduces_S1x16384_S1 (.inl rfl) rfl)
        shapeCasts_S1_S1x1) shapeCasts_S1x1_S1x1x1 (ix3 (0 : Fin 1) (0 : Fin 1) (0 : Fin 1))
      = ∑ s : Fin 16384, v (ix2 (0 : Fin 1) s) := by
  refine (shapeCast_ab_1ab_apply _ _ (0 : Fin 1) (0 : Fin 1) (0 : Fin 1)).trans ?_
  refine (shapeCast_a_1a_apply _ _ (0 : Fin 1) (0 : Fin 1)).trans ?_
  refine (Ideal.multiReduction_add_single v 0x00000000#32 reduces_S1x16384_S1 (.inl rfl) rfl (ix1 (0 : Fin 1))).trans ?_
  refine Finset.sum_congr rfl fun s _ => congrArg v (funext fun a => Fin.ext ?_)
  match a with
  | ⟨0, _⟩ => rfl
  | ⟨1, _⟩ => rfl

/-! ### The table times the exponentials -/

theorem lhs_0 (i : S20x16384.Idx) (q : dot_S20x64_S64x16384_S20x16384_1_0_0_1_n_n.contr.Idx) :
    (dot_S20x64_S64x16384_S20x16384_1_0_0_1_n_n.lhsIdx i q 0).val = (i 0).val := by
  unfold DotDims.lhsIdx
  rw [dif_neg (show ¬(0 : Fin S20x64.rank) ∈ dot_S20x64_S64x16384_S20x16384_1_0_0_1_n_n.lhsBatch by decide),
    dif_pos (show (0 : Fin S20x64.rank) ∈ dot_S20x64_S64x16384_S20x16384_1_0_0_1_n_n.lhsNonContracting by decide)]
  rfl
theorem lhs_1 (i : S20x16384.Idx) (q : dot_S20x64_S64x16384_S20x16384_1_0_0_1_n_n.contr.Idx) :
    (dot_S20x64_S64x16384_S20x16384_1_0_0_1_n_n.lhsIdx i q 1).val = (q ⟨0, by decide⟩).val :=
  dot_S20x64_S64x16384_S20x16384_1_0_0_1_n_n.lhsIdx_val_of_single rfl i q
theorem rhs_0 (i : S20x16384.Idx) (q : dot_S20x64_S64x16384_S20x16384_1_0_0_1_n_n.contr.Idx) :
    (dot_S20x64_S64x16384_S20x16384_1_0_0_1_n_n.rhsIdx i q 0).val = (q ⟨0, by decide⟩).val :=
  dot_S20x64_S64x16384_S20x16384_1_0_0_1_n_n.rhsIdx_val_of_single rfl i q
theorem rhs_1 (i : S20x16384.Idx) (q : dot_S20x64_S64x16384_S20x16384_1_0_0_1_n_n.contr.Idx) :
    (dot_S20x64_S64x16384_S20x16384_1_0_0_1_n_n.rhsIdx i q 1).val = (i 1).val := by
  unfold DotDims.rhsIdx
  rw [dif_neg (show ¬(1 : Fin S64x16384.rank) ∈ dot_S20x64_S64x16384_S20x16384_1_0_0_1_n_n.rhsBatch by decide),
    dif_pos (show (1 : Fin S64x16384.rank) ∈ dot_S20x64_S64x16384_S20x16384_1_0_0_1_n_n.rhsNonContracting by decide)]
  rfl

/-- The product into the zero accumulator reads, at (n, s), the sum over the channels of the table's (n, c)
    against the right operand's (c, s). -/
theorem matmul_apply (A : FVec Ideal S20x64 .bf16) (B : FVec Ideal S64x16384 .bf16) (n : Fin 20) (s : Fin 16384) :
    matmul dot_S20x64_S64x16384_S20x16384_1_0_0_1_n_n none A B (constant (F := Ideal) S20x16384 .f32 0x00000000#32) (ix2 n s)
      = ∑ c : Fin 64, A (ix2 n c) * B (ix2 c s) := by
  refine (Ideal.matmul_constant_zero_apply dot_S20x64_S64x16384_S20x16384_1_0_0_1_n_n none A B (ix2 n s)).trans ?_
  rw [← Equiv.sum_comp (contrEquiv1 dot_S20x64_S64x16384_S20x16384_1_0_0_1_n_n 64 rfl rfl).symm]
  refine Finset.sum_congr rfl fun k _ => ?_
  have hk := contrEquiv1_symm_val dot_S20x64_S64x16384_S20x16384_1_0_0_1_n_n 64 rfl rfl k
  have el : dot_S20x64_S64x16384_S20x16384_1_0_0_1_n_n.lhsIdx (ix2 n s)
      ((contrEquiv1 dot_S20x64_S64x16384_S20x16384_1_0_0_1_n_n 64 rfl rfl).symm k) = ix2 n k :=
    funext fun a => Fin.ext (by
      match a with
      | ⟨0, _⟩ => exact lhs_0 _ _
      | ⟨1, _⟩ => exact (lhs_1 _ _).trans hk)
  have er : dot_S20x64_S64x16384_S20x16384_1_0_0_1_n_n.rhsIdx (ix2 n s)
      ((contrEquiv1 dot_S20x64_S64x16384_S20x16384_1_0_0_1_n_n 64 rfl rfl).symm k) = ix2 k s :=
    funext fun a => Fin.ext (by
      match a with
      | ⟨0, _⟩ => exact (rhs_0 _ _).trans hk
      | ⟨1, _⟩ => exact rhs_1 _ _)
  rw [el, er]

/-! ### The labels -/

/-- The labels cast from [1, 1, 16384] to [1, 16384] read, at (0, s), the label at (0, 0, s). -/
theorem pay5_apply (tb : Vec Ideal S1x1x16384 .i32) (s : Fin 16384) :
    k1_pay5 (F := Ideal) tb (ix2 (0 : Fin 1) s) = tb (ix3 (0 : Fin 1) (0 : Fin 1) s) := by
  unfold k1_pay5
  exact shapeCast_1ab_ab_apply _ _ (0 : Fin 1) s

/-- The mask at (0, s) is the bit "the label at s is not the ignore value". -/
theorem pay6_apply (tb : Vec Ideal S1x1x16384 .i32) (s : Fin 16384) :
    k1_pay6 (F := Ideal) tb (ix2 (0 : Fin 1) s) = IntOp.cmpi .ne (tb (ix3 (0 : Fin 1) (0 : Fin 1) s)) 255#32 := by
  unfold k1_pay6
  show IntOp.cmpi .ne (k1_pay5 (F := Ideal) tb (ix2 (0 : Fin 1) s)) 255#32 = _
  rw [pay5_apply]

/-- The label with the ignore value replaced by zero, as the payload forms it. -/
def lblV (tb : Vec Ideal S1x1x16384 .i32) : IVec S1x16384 32 :=
  select (k1_pay6 (F := Ideal) tb) (k1_pay5 (F := Ideal) tb) (broadcast S1x16384 0#32)

theorem lblV_apply (tb : Vec Ideal S1x1x16384 .i32) (s : Fin 16384) :
    lblV tb (ix2 (0 : Fin 1) s) = Cert.KFlat.lblB tb s := by
  unfold lblV Cert.KFlat.lblB
  rw [select_apply, pay6_apply, pay5_apply, broadcast_apply, select_cmpi_ne]

/-! ### The shifted exponentials -/

/-- The largest score, a [1, 1] array cast to [1, 1, 1] and broadcast over the block, reads its one entry. -/
theorem max_apply (mb : Vec Ideal S1x1 .f32) (c : Fin 64) (s : Fin 16384) :
    broadcastTo S1x64x16384 (shapeCast S1x1x1 (shapeCast S1x1 mb shapeCasts_S1x1_S1x1) shapeCasts_S1x1_S1x1x1)
        broadcasts_S1x1x1_S1x64x16384 (ix3 (0 : Fin 1) c s) = mb (ix2 (0 : Fin 1) (0 : Fin 1)) := by
  refine (broadcastTo_apply _ _ (ix3 (0 : Fin 1) c s) (ix3 (0 : Fin 1) (0 : Fin 1) (0 : Fin 1)) fun a => ?_).trans ?_
  · match a with
    | ⟨0, _⟩ => rfl
    | ⟨1, _⟩ => rfl
    | ⟨2, _⟩ => rfl
  · refine (shapeCast_ab_1ab_apply _ _ (0 : Fin 1) (0 : Fin 1) (0 : Fin 1)).trans ?_
    rw [shapeCast_self]

/-- The exponentials of the scores less the largest score, cast to [64, 16384] and narrowed, as the payload
    forms them. -/
def eV (xb : Vec Ideal S1x64x16384 .f32) (mb : Vec Ideal S1x1 .f32) : FVec Ideal S64x16384 .bf16 :=
  truncf .bf16
    (shapeCast S64x16384
      (exp (subf (shapeCast S1x64x16384 xb shapeCasts_S1x64x16384_S1x64x16384)
        (broadcastTo S1x64x16384 (shapeCast S1x1x1 (shapeCast S1x1 mb shapeCasts_S1x1_S1x1) shapeCasts_S1x1_S1x1x1)
          broadcasts_S1x1x1_S1x64x16384)))
      shapeCasts_S1x64x16384_S64x16384)
    bitsLt_bf16_f32

theorem eV_apply (xb : Vec Ideal S1x64x16384 .f32) (mb : Vec Ideal S1x1 .f32) (c : Fin 64) (s : Fin 16384) :
    eV xb mb (ix2 c s) = Cert.KFlat.eB xb mb c s := by
  unfold eV Cert.KFlat.eB
  rw [truncf_apply]
  refine (shapeCast_1ab_ab_apply _ _ c s).trans ?_
  rw [exp_apply, subf_apply, max_apply, shapeCast_self]

/-! ### The class sums -/

/-- The table times the exponentials, as the payload forms it. -/
def mmV (xb : Vec Ideal S1x64x16384 .f32) (mb : Vec Ideal S1x1 .f32) (ob : Vec Ideal S20x64 .bf16) :
    FVec Ideal S20x16384 .f32 :=
  matmul dot_S20x64_S64x16384_S20x16384_1_0_0_1_n_n none
    (shapeCast S20x64 ob shapeCasts_S20x64_S20x64 : FVec Ideal S20x64 .bf16) (eV xb mb)
    (constant (F := Ideal) S20x16384 .f32 0x00000000#32)

theorem mmV_apply (xb : Vec Ideal S1x64x16384 .f32) (mb : Vec Ideal S1x1 .f32) (ob : Vec Ideal S20x64 .bf16)
    (n : Fin 20) (s : Fin 16384) : mmV xb mb ob (ix2 n s) = Cert.KFlat.oriB xb mb ob n s := by
  unfold mmV Cert.KFlat.oriB
  refine (matmul_apply _ _ n s).trans ?_
  refine Finset.sum_congr rfl fun c _ => ?_
  rw [shapeCast_self, eV_apply]

/-- The class sums with every class but the label's replaced by zero, as the payload forms them. -/
def pickV (xb : Vec Ideal S1x64x16384 .f32) (mb : Vec Ideal S1x1 .f32) (ob : Vec Ideal S20x64 .bf16)
    (tb : Vec Ideal S1x1x16384 .i32) : FVec Ideal S20x16384 .f32 :=
  select (cmpi .eq (iota .tc S20x16384 32 [0] iota_S20x16384_d0_w32)
      (broadcastTo S20x16384 (shapeCast S1x16384 (lblV tb) shapeCasts_S1x16384_S1x16384) broadcasts_S1x16384_S20x16384))
    (mmV xb mb ob) (broadcast S20x16384 (Scalar.ofBits (F := Ideal) .f32 0x00000000#32))

theorem pickV_apply (xb : Vec Ideal S1x64x16384 .f32) (mb : Vec Ideal S1x1 .f32) (ob : Vec Ideal S20x64 .bf16)
    (tb : Vec Ideal S1x1x16384 .i32) (n : Fin 20) (s : Fin 16384) :
    pickV xb mb ob tb (ix2 n s)
      = if BitVec.ofNat 32 n.val = Cert.KFlat.lblB tb s then Cert.KFlat.oriB xb mb ob n s else 0 := by
  unfold pickV
  rw [select_apply, cmpi_apply, iota_single_apply, broadcastTo_1b_ab_apply, shapeCast_self, lblV_apply, mmV_apply,
    broadcast_apply, select_cmpi_eq, zero_word]

/-! ### The payload -/

theorem pay7_eq (xb : Vec Ideal S1x64x16384 .f32) (mb : Vec Ideal S1x1 .f32) (ob : Vec Ideal S20x64 .bf16)
    (tb : Vec Ideal S1x1x16384 .i32) :
    k1_pay7 (F := Ideal) xb mb ob tb =
      subf (broadcast S1x16384 (Scalar.ofBits (F := Ideal) .f32 0x00000000#32))
        (subf
          (log (shapeCast S1x16384 (multiReduction (F := Ideal) .add [0] S16384 (pickV xb mb ob tb) 0x00000000#32
            reduces_S20x16384_S16384 (.inl rfl) rfl) shapeCasts_S16384_S1x16384))
          (log (shapeCast S1x16384 (multiReduction (F := Ideal) .add [0] S16384 (mmV xb mb ob) 0x00000000#32
            reduces_S20x16384_S16384 (.inl rfl) rfl) shapeCasts_S16384_S1x16384))) := rfl

/-- The negated term at position s, before the mask. -/
theorem pay7_apply (xb : Vec Ideal S1x64x16384 .f32) (mb : Vec Ideal S1x1 .f32) (ob : Vec Ideal S20x64 .bf16)
    (tb : Vec Ideal S1x1x16384 .i32) (s : Fin 16384) :
    k1_pay7 (F := Ideal) xb mb ob tb (ix2 (0 : Fin 1) s) =
      0 - (Ideal.log (∑ n : Fin 20, if BitVec.ofNat 32 n.val = Cert.KFlat.lblB tb s then Cert.KFlat.oriB xb mb ob n s else 0)
            - Ideal.log (∑ n : Fin 20, Cert.KFlat.oriB xb mb ob n s)) := by
  rw [pay7_eq, subf_apply, subf_apply, log_apply, log_apply, broadcast_apply, zero_word, classSum_apply, classSum_apply]
  simp only [pickV_apply, mmV_apply]

theorem pay1_unfold (m : IVec S1x16384 1) (v : FVec Ideal S1x16384 .f32) (z : Ideal .f32) (acc : Vec Ideal S1x1x1 .f32) :
    k1_pay1 (F := Ideal) m v z acc =
      addf (shapeCast S1x1x1 acc shapeCasts_S1x1x1_S1x1x1)
        (shapeCast S1x1x1 (shapeCast S1x1 (multiReduction (F := Ideal) .add [1] S1 (select m v (broadcast S1x16384 z))
          0x00000000#32 reduces_S1x16384_S1 (.inl rfl) rfl) shapeCasts_S1_S1x1) shapeCasts_S1x1_S1x1x1) := rfl

theorem pay2_unfold (m : IVec S1x16384 1) (acc : Vec Ideal S1x1x1 .f32) :
    k1_pay2 (F := Ideal) m acc =
      addf (shapeCast S1x1x1 acc shapeCasts_S1x1x1_S1x1x1)
        (shapeCast S1x1x1 (shapeCast S1x1 (multiReduction (F := Ideal) .add [1] S1 (sitofp .f32 (extui 32 m natLt_1_32))
          0x00000000#32 reduces_S1x16384_S1 (.inl rfl) rfl) shapeCasts_S1_S1x1) shapeCasts_S1x1_S1x1x1) := rfl

theorem pay1_eq (xb : Vec Ideal S1x64x16384 .f32) (tb : Vec Ideal S1x1x16384 .i32) (mb : Vec Ideal S1x1 .f32)
    (ob : Vec Ideal S20x64 .bf16) (acc : Vec Ideal S1x1x1 .f32) :
    k1_pay1 (F := Ideal) (k1_pay6 (F := Ideal) tb) (k1_pay7 (F := Ideal) xb mb ob tb) (Scalar.ofBits .f32 0x00000000#32) acc (ix3 0 0 0)
      = acc (ix3 0 0 0) + ∑ s : Fin 16384, Cert.KFlat.termB xb tb mb ob s := by
  rw [pay1_unfold, addf_apply, shapeCast_self, laneSum_apply]
  refine congrArg (acc (ix3 0 0 0) + ·) (Finset.sum_congr rfl fun s _ => ?_)
  rw [select_apply, pay6_apply, pay7_apply, broadcast_apply, zero_word, select_cmpi_ne]
  rfl

theorem pay2_eq (tb : Vec Ideal S1x1x16384 .i32) (acc : Vec Ideal S1x1x1 .f32) :
    k1_pay2 (F := Ideal) (k1_pay6 (F := Ideal) tb) acc (ix3 0 0 0)
      = acc (ix3 0 0 0) + ∑ s : Fin 16384, Cert.KFlat.oneB tb s := by
  rw [pay2_unfold, addf_apply, shapeCast_self, laneSum_apply]
  refine congrArg (acc (ix3 0 0 0) + ·) (Finset.sum_congr rfl fun s _ => ?_)
  rw [sitofp_apply, extui_apply, pay6_apply, sitofp_cmpi_ne]
  rfl

end Cert.KernelIdeal.K1Pay

end
-- ==== Proof.K1.lean ====
/-
  The second launch: each image's entries of its two result arrays end at the image's sum of terms and at its
  count of labels that are not ignored.

  Point t = 16 b + i of the grid reads positions 16384 i … 16384 i + 16383 of image b. The two result cells of
  image b are reset to 0 at i = 0 and each block adds its terms (its ones) to them, so after point t they hold the
  terms (the ones) of the image's first 16384 (i + 1) positions: an induction on the point, the step being the
  splitting of a sum over a range at 16384 (i + 1) = 16384 i + 16384. The cells are written back after i = 15,
  when the range is the whole image, to entry (b, 0, 0); those four write-backs cover the result arrays.
-/
import proofs.«404899_j12180527252165_2_alg».proof.Proof.Gen.KernelIdeal.Frame
import proofs.«404899_j12180527252165_2_alg».proof.Proof.KFlat
import proofs.«404899_j12180527252165_2_alg».proof.Proof.K1Pay
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.K1

open Cert.KernelIdeal Cert.KernelIdeal.Gen

variable (V : (c : Dev nD) → (b : Ref sig .tc) → Buf (Elt Ideal) ((c : Thread nD τ).loc b))

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later block (i ≠ 0) leaves in the sum's cell the running sum plus the block's masked sum. -/
theorem outB4 (c : Dev nD) (i : grid1.Coords) (a2 : Memref sig .tc .vmem S1x64x16384 .f32) (h2 : a2.IsWhole)
    (a3 : Memref sig .tc .vmem S1x1x16384 .i32) (h3 : a3.IsWhole) (a4 : Memref sig .tc .vmem S1x1 .f32) (h4 : a4.IsWhole)
    (a5 : Memref sig .tc .vmem S20x64 .bf16) (h5 : a5.IsWhole) (a6 : Memref sig .tc .vmem S1x1x1 .f32) (h6 : a6.IsWhole)
    (a7 : Memref sig .tc .vmem S1x1x1 .f32) (h7 : a7.IsWhole) (hc : ¬cond1_0 i)
    (x0 : Vec F S1x64x16384 .f32) (x1 : Vec F S1x1x16384 .i32) (x2 : Vec F S1x1 .f32) (x3 : Vec F S20x64 .bf16)
    (xo4 xo5 : Vec F S1x1x1 .f32) :
    out1_B_4 c i a2 h2 a3 h3 a4 h4 a5 h5 a6 h6 a7 h7 hc x0 x1 x2 x3 xo4 xo5
      = k1_pay1 (k1_pay6 x1) (k1_pay7 x0 x2 x3 x1) (Scalar.ofBits .f32 0x00000000#32) xo4 := by
  unfold out1_B_4
  rw [View.read_writes_eq_canon _ _ _ (cover1_B_4 c i a2 h2 a3 h3 a4 h4 a5 h5 a6 h6 a7 h7 hc x0 x1 x2 x3 xo4 xo5)]
  unfold kernelRun1_B
  dsimp only
  sl_unfold_words
  rw [View.canon_unit_zero hz3]
  simp only [View.readAt_eq_ld, h2.read_unread, h3.read_unread, h4.read_unread, h5.read_unread, h6.read_unread, h7.read_unread,
    View.ld_unit_zero (S := S1x64x16384) hz3, View.ld_unit_zero (S := S1x1x16384) hz3, View.ld_unit_zero (S := S1x1) hz2,
    View.ld_unit_zero (S := S20x64) hz2, View.ld_unit_zero (S := S1x1x1) hz3]

/-- A later block leaves in the count's cell the running count plus the block's count. -/
theorem outB5 (c : Dev nD) (i : grid1.Coords) (a2 : Memref sig .tc .vmem S1x64x16384 .f32) (h2 : a2.IsWhole)
    (a3 : Memref sig .tc .vmem S1x1x16384 .i32) (h3 : a3.IsWhole) (a4 : Memref sig .tc .vmem S1x1 .f32) (h4 : a4.IsWhole)
    (a5 : Memref sig .tc .vmem S20x64 .bf16) (h5 : a5.IsWhole) (a6 : Memref sig .tc .vmem S1x1x1 .f32) (h6 : a6.IsWhole)
    (a7 : Memref sig .tc .vmem S1x1x1 .f32) (h7 : a7.IsWhole) (hc : ¬cond1_0 i)
    (x0 : Vec F S1x64x16384 .f32) (x1 : Vec F S1x1x16384 .i32) (x2 : Vec F S1x1 .f32) (x3 : Vec F S20x64 .bf16)
    (xo4 xo5 : Vec F S1x1x1 .f32) :
    out1_B_5 c i a2 h2 a3 h3 a4 h4 a5 h5 a6 h6 a7 h7 hc x0 x1 x2 x3 xo4 xo5 = k1_pay2 (k1_pay6 x1) xo5 := by
  unfold out1_B_5
  rw [View.read_writes_eq_canon _ _ _ (cover1_B_5 c i a2 h2 a3 h3 a4 h4 a5 h5 a6 h6 a7 h7 hc x0 x1 x2 x3 xo4 xo5)]
  unfold kernelRun1_B
  dsimp only
  sl_unfold_words
  rw [View.canon_unit_zero hz3]
  simp only [View.readAt_eq_ld, h2.read_unread, h3.read_unread, h4.read_unread, h5.read_unread, h6.read_unread, h7.read_unread,
    View.ld_unit_zero (S := S1x64x16384) hz3, View.ld_unit_zero (S := S1x1x16384) hz3, View.ld_unit_zero (S := S1x1) hz2,
    View.ld_unit_zero (S := S20x64) hz2, View.ld_unit_zero (S := S1x1x1) hz3]

/-- An image's first block (i = 0) stores the zero cell, reads it back, and leaves zero plus the block's masked sum. -/
theorem outA4 (c : Dev nD) (i : grid1.Coords) (a2 : Memref sig .tc .vmem S1x64x16384 .f32) (h2 : a2.IsWhole)
    (a3 : Memref sig .tc .vmem S1x1x16384 .i32) (h3 : a3.IsWhole) (a4 : Memref sig .tc .vmem S1x1 .f32) (h4 : a4.IsWhole)
    (a5 : Memref sig .tc .vmem S20x64 .bf16) (h5 : a5.IsWhole) (a6 : Memref sig .tc .vmem S1x1x1 .f32) (h6 : a6.IsWhole)
    (a7 : Memref sig .tc .vmem S1x1x1 .f32) (h7 : a7.IsWhole) (hc : cond1_0 i)
    (x0 : Vec F S1x64x16384 .f32) (x1 : Vec F S1x1x16384 .i32) (x2 : Vec F S1x1 .f32) (x3 : Vec F S20x64 .bf16) :
    out1_A_4 c i a2 h2 a3 h3 a4 h4 a5 h5 a6 h6 a7 h7 hc x0 x1 x2 x3
      = k1_pay1 (k1_pay6 x1) (k1_pay7 x0 x2 x3 x1) (Scalar.ofBits .f32 0x00000000#32) (k1_pay3 (F := F)) := by
  unfold out1_A_4
  rw [View.read_writes_eq_canon _ _ _ (cover1_A_4 c i a2 h2 a3 h3 a4 h4 a5 h5 a6 h6 a7 h7 hc x0 x1 x2 x3)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread,
    View.ld_unit_zero (S := S1x64x16384) hz3, View.ld_unit_zero (S := S1x1x16384) hz3, View.ld_unit_zero (S := S1x1) hz2,
    View.ld_unit_zero (S := S20x64) hz2, View.ld_unit_zero (S := S1x1x1) hz3]

/-- An image's first block leaves in the count's cell zero plus the block's count. -/
theorem outA5 (c : Dev nD) (i : grid1.Coords) (a2 : Memref sig .tc .vmem S1x64x16384 .f32) (h2 : a2.IsWhole)
    (a3 : Memref sig .tc .vmem S1x1x16384 .i32) (h3 : a3.IsWhole) (a4 : Memref sig .tc .vmem S1x1 .f32) (h4 : a4.IsWhole)
    (a5 : Memref sig .tc .vmem S20x64 .bf16) (h5 : a5.IsWhole) (a6 : Memref sig .tc .vmem S1x1x1 .f32) (h6 : a6.IsWhole)
    (a7 : Memref sig .tc .vmem S1x1x1 .f32) (h7 : a7.IsWhole) (hc : cond1_0 i)
    (x0 : Vec F S1x64x16384 .f32) (x1 : Vec F S1x1x16384 .i32) (x2 : Vec F S1x1 .f32) (x3 : Vec F S20x64 .bf16) :
    out1_A_5 c i a2 h2 a3 h3 a4 h4 a5 h5 a6 h6 a7 h7 hc x0 x1 x2 x3 = k1_pay2 (k1_pay6 x1) (k1_pay4 (F := F)) := by
  unfold out1_A_5
  rw [View.read_writes_eq_canon _ _ _ (cover1_A_5 c i a2 h2 a3 h3 a4 h4 a5 h5 a6 h6 a7 h7 hc x0 x1 x2 x3)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread,
    View.ld_unit_zero (S := S1x64x16384) hz3, View.ld_unit_zero (S := S1x1x16384) hz3, View.ld_unit_zero (S := S1x1) hz2,
    View.ld_unit_zero (S := S20x64) hz2, View.ld_unit_zero (S := S1x1x1) hz3]

end Pieces

section Arrays

/-- The arrays the second launch reads, and its blocks at a point, at their literal types. -/
abbrev xf (c : Dev nD) : Vec Ideal S4x64x262144 .f32 := V c main_v0
abbrev tf (c : Dev nD) : Vec Ideal S4x1x262144 .i32 := V c main_v1
abbrev mx (c : Dev nD) : Vec Ideal S1x1 .f32 := V c main_v7
abbrev oh (c : Dev nD) : Vec Ideal S20x64 .bf16 := V c main_v4
abbrev xb (c : Dev nD) (t : Fin cfg1.N) : Vec Ideal S1x64x16384 .f32 := iblk1 V c 0 t
abbrev tb (c : Dev nD) (t : Fin cfg1.N) : Vec Ideal S1x1x16384 .i32 := iblk1 V c 1 t
abbrev mb (c : Dev nD) (t : Fin cfg1.N) : Vec Ideal S1x1 .f32 := iblk1 V c 2 t
abbrev ob (c : Dev nD) (t : Fin cfg1.N) : Vec Ideal S20x64 .bf16 := iblk1 V c 3 t

/-- The block indices at point t = 16 b + i: the score and label blocks are block (b, 0, i), the largest score and
    the table are whole, the two results' blocks are (b, 0, 0). -/
theorem idx_facts : ∀ t : Fin cfg1.N,
    win1_0.index t (0 : Fin 3) = t.val / 16 ∧ win1_0.index t (1 : Fin 3) = 0 ∧ win1_0.index t (2 : Fin 3) = t.val % 16
    ∧ win1_1.index t (0 : Fin 3) = t.val / 16 ∧ win1_1.index t (1 : Fin 3) = 0 ∧ win1_1.index t (2 : Fin 3) = t.val % 16
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 16 ∧ win1_4.index t (1 : Fin 3) = 0 ∧ win1_4.index t (2 : Fin 3) = 0
    ∧ win1_5.index t (0 : Fin 3) = t.val / 16 ∧ win1_5.index t (1 : Fin 3) = 0 ∧ win1_5.index t (2 : Fin 3) = 0 :=
  (by decide +kernel : ∀ t : Fin grid1.N, _)

/-- Position s of the score block at point t is position 16384 (t % 16) + s of image t / 16. -/
theorem xb_apply (c : Dev nD) (t : Fin cfg1.N) (ch : Fin 64) (s : Fin 16384) (b : Fin 4) (p : Fin 262144)
    (hb : b.val = t.val / 16) (hp : p.val = 16384 * (t.val % 16) + s.val) :
    xb V c t (ix3 0 ch s) = xf V c (ix3 b ch p) := by
  show iblk1 V c 0 t (ix3 0 ch s) = V c main_v0 (ix3 b ch p)
  unfold iblk1
  rw [View.read_apply]
  show V c main_v0 _ = V c main_v0 _
  congr 1
  funext a
  apply Fin.ext
  obtain ⟨e0, e1, e2, -⟩ := idx_facts t
  match a with
  | ⟨0, _⟩ => show win1_0.index t (0 : Fin 3) * 1 + 1 * (0 : Fin 1).val = b.val; rw [e0]; simp; omega
  | ⟨1, _⟩ => show win1_0.index t (1 : Fin 3) * 64 + 1 * ch.val = ch.val; rw [e1]; omega
  | ⟨2, _⟩ => show win1_0.index t (2 : Fin 3) * 16384 + 1 * s.val = p.val; rw [e2]; omega

/-- The same for the label block. -/
theorem tb_apply (c : Dev nD) (t : Fin cfg1.N) (s : Fin 16384) (b : Fin 4) (p : Fin 262144)
    (hb : b.val = t.val / 16) (hp : p.val = 16384 * (t.val % 16) + s.val) :
    tb V c t (ix3 0 0 s) = tf V c (ix3 b 0 p) := by
  show iblk1 V c 1 t (ix3 0 0 s) = V c main_v1 (ix3 b 0 p)
  unfold iblk1
  rw [View.read_apply]
  show V c main_v1 _ = V c main_v1 _
  congr 1
  funext a
  apply Fin.ext
  obtain ⟨-, -, -, e0, e1, e2, -⟩ := idx_facts t
  match a with
  | ⟨0, _⟩ => show win1_1.index t (0 : Fin 3) * 1 + 1 * (0 : Fin 1).val = b.val; rw [e0]; simp; omega
  | ⟨1, _⟩ => show win1_1.index t (1 : Fin 3) * 1 + 1 * (0 : Fin 1).val = (0 : Fin 1).val; rw [e1]; simp
  | ⟨2, _⟩ => show win1_1.index t (2 : Fin 3) * 16384 + 1 * s.val = p.val; rw [e2]; omega

/-- The largest score's block is the whole [1, 1] array. -/
theorem mb_apply (c : Dev nD) (t : Fin cfg1.N) : mb V c t (ix2 0 0) = mx V c (ix2 0 0) := by
  show iblk1 V c 2 t (ix2 0 0) = V c main_v7 (ix2 0 0)
  unfold iblk1
  rw [View.read_apply]
  show V c main_v7 _ = V c main_v7 _
  congr 1
  funext a
  apply Fin.ext
  obtain ⟨-, -, -, -, -, -, e0, e1, -⟩ := idx_facts t
  match a with
  | ⟨0, _⟩ => show win1_2.index t (0 : Fin 2) * 1 + 1 * (0 : Fin 1).val = (0 : Fin 1).val; rw [e0]; simp
  | ⟨1, _⟩ => show win1_2.index t (1 : Fin 2) * 1 + 1 * (0 : Fin 1).val = (0 : Fin 1).val; rw [e1]; simp

/-- The table's block is the whole [20, 64] table. -/
theorem ob_apply (c : Dev nD) (t : Fin cfg1.N) (n : Fin 20) (ch : Fin 64) : ob V c t (ix2 n ch) = oh V c (ix2 n ch) := by
  show iblk1 V c 3 t (ix2 n ch) = V c main_v4 (ix2 n ch)
  unfold iblk1
  rw [View.read_apply]
  show V c main_v4 _ = V c main_v4 _
  congr 1
  funext a
  apply Fin.ext
  obtain ⟨-, -, -, -, -, -, -, -, e0, e1, -⟩ := idx_facts t
  match a with
  | ⟨0, _⟩ => show win1_3.index t (0 : Fin 2) * 20 + 1 * n.val = n.val; rw [e0]; omega
  | ⟨1, _⟩ => show win1_3.index t (1 : Fin 2) * 64 + 1 * ch.val = ch.val; rw [e1]; omega

end Arrays

section Terms

/-- A position's term read off a block is the term read off the arrays, when the block's entries are the arrays'. -/
theorem termB_eq_termF (xb' : KFlat.SXB.Idx → EReal) (tb' : KFlat.STB.Idx → BitVec 32) (mb' : KFlat.SM.Idx → EReal)
    (ob' : KFlat.SO.Idx → EReal) (xf' : KFlat.SXF.Idx → EReal) (tf' : KFlat.STF.Idx → BitVec 32) (mx' : KFlat.SM.Idx → EReal)
    (oh' : KFlat.SO.Idx → EReal) (b : Fin 4) (s : Fin 16384) (p : Fin 262144)
    (hx : ∀ ch, xb' (ix3 0 ch s) = xf' (ix3 b ch p)) (ht : tb' (ix3 0 0 s) = tf' (ix3 b 0 p))
    (hm : mb' (ix2 0 0) = mx' (ix2 0 0)) (ho : ∀ n ch, ob' (ix2 n ch) = oh' (ix2 n ch)) :
    KFlat.termB xb' tb' mb' ob' s = KFlat.termF xf' tf' mx' oh' b p := by
  unfold KFlat.termB KFlat.termF KFlat.lblB KFlat.lblF KFlat.oriB KFlat.oriF KFlat.eB KFlat.eF
  simp only [hx, ht, hm, ho]

/-- The same for the one counted at a label that is not ignored. -/
theorem oneB_eq_oneF (tb' : KFlat.STB.Idx → BitVec 32) (tf' : KFlat.STF.Idx → BitVec 32) (b : Fin 4) (s : Fin 16384)
    (p : Fin 262144) (ht : tb' (ix3 0 0 s) = tf' (ix3 b 0 p)) : KFlat.oneB tb' s = KFlat.oneF tf' b p := by
  unfold KFlat.oneB KFlat.oneF
  simp only [ht]

end Terms

section Running

/-- Image b's term at position p, and 0 past the image's end: the summand of the running sum. -/
def gS (c : Dev nD) (b : Fin 4) (p : ℕ) : EReal :=
  if h : p < 262144 then KFlat.termF (xf V c) (tf V c) (mx V c) (oh V c) b ⟨p, h⟩ else 0
/-- Image b's one at position p when its label is not ignored: the summand of the running count. -/
def gC (c : Dev nD) (b : Fin 4) (p : ℕ) : EReal :=
  if h : p < 262144 then KFlat.oneF (tf V c) b ⟨p, h⟩ else 0

/-- The block at point t contributes the terms of positions 16384 (t % 16) … 16384 (t % 16) + 16383 of image t / 16. -/
theorem blkS (c : Dev nD) (t : Fin cfg1.N) (b : Fin 4) (hb : b.val = t.val / 16) :
    ∑ s : Fin 16384, KFlat.termB (xb V c t) (tb V c t) (mb V c t) (ob V c t) s
      = ∑ x ∈ Finset.range 16384, gS V c b (16384 * (t.val % 16) + x) := by
  rw [← Fin.sum_univ_eq_sum_range (fun x => gS V c b (16384 * (t.val % 16) + x)) 16384]
  refine Finset.sum_congr rfl fun s _ => ?_
  have hlt : 16384 * (t.val % 16) + s.val < 262144 := by have := s.isLt; omega
  unfold gS
  rw [dif_pos hlt]
  exact termB_eq_termF (xb V c t) (tb V c t) (mb V c t) (ob V c t) (xf V c) (tf V c) (mx V c) (oh V c) b s ⟨_, hlt⟩
    (fun ch => xb_apply V c t ch s b ⟨_, hlt⟩ hb rfl) (tb_apply V c t s b ⟨_, hlt⟩ hb rfl) (mb_apply V c t)
    (fun n ch => ob_apply V c t n ch)

theorem blkC (c : Dev nD) (t : Fin cfg1.N) (b : Fin 4) (hb : b.val = t.val / 16) :
    ∑ s : Fin 16384, KFlat.oneB (tb V c t) s = ∑ x ∈ Finset.range 16384, gC V c b (16384 * (t.val % 16) + x) := by
  rw [← Fin.sum_univ_eq_sum_range (fun x => gC V c b (16384 * (t.val % 16) + x)) 16384]
  refine Finset.sum_congr rfl fun s _ => ?_
  have hlt : 16384 * (t.val % 16) + s.val < 262144 := by have := s.isLt; omega
  unfold gC
  rw [dif_pos hlt]
  exact oneB_eq_oneF (tb V c t) (tf V c) b s ⟨_, hlt⟩ (tb_apply V c t s b ⟨_, hlt⟩ hb rfl)

/-- The zero cell the reset stores reads 0. -/
theorem pay3_zero : (k1_pay3 (F := Ideal) : S1x1x1.Idx → EReal) (ix3 0 0 0) = 0 := by
  unfold k1_pay3
  exact Ideal.ofBits_zero_f32
theorem pay4_zero : (k1_pay4 (F := Ideal) : S1x1x1.Idx → EReal) (ix3 0 0 0) = 0 := by
  unfold k1_pay4
  exact Ideal.ofBits_zero_f32

/-- After an image's first block the sum's cell holds the block's terms. -/
theorem stepA4 (c : Dev nD) (t : Fin cfg1.N) (h0 : t.val % 16 = 0) :
    ((outsAt1 V c t.val t.isLt).1 : S1x1x1.Idx → EReal) (ix3 0 0 0)
      = 0 + ∑ s : Fin 16384, KFlat.termB (xb V c t) (tb V c t) (mb V c t) (ob V c t) s := by
  rw [outsAt1_A V c t h0]
  dsimp only
  refine (congrFun (outA4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)) (ix3 0 0 0)).trans ?_
  refine (K1Pay.pay1_eq (iblk1 V c 0 t) (iblk1 V c 1 t) (iblk1 V c 2 t) (iblk1 V c 3 t) (k1_pay3 (F := Ideal))).trans ?_
  rw [pay3_zero]

theorem stepA5 (c : Dev nD) (t : Fin cfg1.N) (h0 : t.val % 16 = 0) :
    ((outsAt1 V c t.val t.isLt).2 : S1x1x1.Idx → EReal) (ix3 0 0 0)
      = 0 + ∑ s : Fin 16384, KFlat.oneB (tb V c t) s := by
  rw [outsAt1_A V c t h0]
  dsimp only
  refine (congrFun (outA5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)) (ix3 0 0 0)).trans ?_
  refine (K1Pay.pay2_eq (iblk1 V c 1 t) (k1_pay4 (F := Ideal))).trans ?_
  rw [pay4_zero]

/-- After a later block the sum's cell holds what it held plus the block's terms. -/
theorem stepB4 (c : Dev nD) (t : Fin cfg1.N) (h0 : ¬t.val % 16 = 0) :
    ((outsAt1 V c t.val t.isLt).1 : S1x1x1.Idx → EReal) (ix3 0 0 0)
      = ((outsAt1 V c (t.val - 1) (Nat.lt_of_le_of_lt (Nat.sub_le _ _) t.isLt)).1 : S1x1x1.Idx → EReal) (ix3 0 0 0)
        + ∑ s : Fin 16384, KFlat.termB (xb V c t) (tb V c t) (mb V c t) (ob V c t) s := by
  rw [outsAt1_B V c t h0]
  dsimp only
  refine (congrFun (outB4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2) (ix3 0 0 0)).trans ?_
  exact K1Pay.pay1_eq (iblk1 V c 0 t) (iblk1 V c 1 t) (iblk1 V c 2 t) (iblk1 V c 3 t) (outsAt1 V c (t.val - 1) (Nat.lt_of_le_of_lt (Nat.sub_le _ _) t.isLt)).1

theorem stepB5 (c : Dev nD) (t : Fin cfg1.N) (h0 : ¬t.val % 16 = 0) :
    ((outsAt1 V c t.val t.isLt).2 : S1x1x1.Idx → EReal) (ix3 0 0 0)
      = ((outsAt1 V c (t.val - 1) (Nat.lt_of_le_of_lt (Nat.sub_le _ _) t.isLt)).2 : S1x1x1.Idx → EReal) (ix3 0 0 0) + ∑ s : Fin 16384, KFlat.oneB (tb V c t) s := by
  rw [outsAt1_B V c t h0]
  dsimp only
  refine (congrFun (outB5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2) (ix3 0 0 0)).trans ?_
  exact K1Pay.pay2_eq (iblk1 V c 1 t) (outsAt1 V c (t.val - 1) (Nat.lt_of_le_of_lt (Nat.sub_le _ _) t.isLt)).2

end Running

section Whole

/-- After point n (block n % 16 of image n / 16) the sum's cell holds the terms of the image's first
    16384 (n % 16 + 1) positions: by induction on the point, a first block starting from 0. -/
theorem inv4 (c : Dev nD) : ∀ (n : ℕ) (h : n < cfg1.N) (b : Fin 4), b.val = n / 16 →
    ((outsAt1 V c n h).1 : S1x1x1.Idx → EReal) (ix3 0 0 0) = ∑ p ∈ Finset.range (16384 * (n % 16 + 1)), gS V c b p := by
  intro n
  induction n with
  | zero =>
    intro h b hb
    refine (stepA4 V c ⟨0, h⟩ rfl).trans ?_
    rw [blkS V c ⟨0, h⟩ b hb, zero_add]
    simp
  | succ m ih =>
    intro h b hb
    by_cases h0 : (m + 1) % 16 = 0
    · refine (stepA4 V c ⟨m + 1, h⟩ h0).trans ?_
      rw [blkS V c ⟨m + 1, h⟩ b hb, zero_add]
      dsimp only
      rw [h0]
      simp
    · refine (stepB4 V c ⟨m + 1, h⟩ h0).trans ?_
      rw [blkS V c ⟨m + 1, h⟩ b hb]
      show ((outsAt1 V c m _).1 : S1x1x1.Idx → EReal) (ix3 0 0 0) + _ = _
      rw [ih (Nat.lt_of_succ_lt h) b (by omega)]
      dsimp only
      have e1 : (m + 1) % 16 = m % 16 + 1 := by omega
      rw [e1, show 16384 * (m % 16 + 1 + 1) = 16384 * (m % 16 + 1) + 16384 by ring, Finset.sum_range_add]

/-- The same for the count's cell. -/
theorem inv5 (c : Dev nD) : ∀ (n : ℕ) (h : n < cfg1.N) (b : Fin 4), b.val = n / 16 →
    ((outsAt1 V c n h).2 : S1x1x1.Idx → EReal) (ix3 0 0 0) = ∑ p ∈ Finset.range (16384 * (n % 16 + 1)), gC V c b p := by
  intro n
  induction n with
  | zero =>
    intro h b hb
    refine (stepA5 V c ⟨0, h⟩ rfl).trans ?_
    rw [blkC V c ⟨0, h⟩ b hb, zero_add]
    simp
  | succ m ih =>
    intro h b hb
    by_cases h0 : (m + 1) % 16 = 0
    · refine (stepA5 V c ⟨m + 1, h⟩ h0).trans ?_
      rw [blkC V c ⟨m + 1, h⟩ b hb, zero_add]
      dsimp only
      rw [h0]
      simp
    · refine (stepB5 V c ⟨m + 1, h⟩ h0).trans ?_
      rw [blkC V c ⟨m + 1, h⟩ b hb]
      show ((outsAt1 V c m _).2 : S1x1x1.Idx → EReal) (ix3 0 0 0) + _ = _
      rw [ih (Nat.lt_of_succ_lt h) b (by omega)]
      dsimp only
      have e1 : (m + 1) % 16 = m % 16 + 1 := by omega
      rw [e1, show 16384 * (m % 16 + 1 + 1) = 16384 * (m % 16 + 1) + 16384 by ring, Finset.sum_range_add]

/-- All sixteen blocks: the image's sum of terms, and its count. -/
theorem gS_full (c : Dev nD) (b : Fin 4) :
    ∑ p ∈ Finset.range (16384 * (15 + 1)), gS V c b p = KFlat.sums (xf V c) (tf V c) (mx V c) (oh V c) b := by
  unfold KFlat.sums
  rw [show 16384 * (15 + 1) = 262144 by norm_num, ← Fin.sum_univ_eq_sum_range (gS V c b) 262144]
  refine Finset.sum_congr rfl fun p _ => ?_
  unfold gS
  rw [dif_pos p.isLt]
theorem gC_full (c : Dev nD) (b : Fin 4) :
    ∑ p ∈ Finset.range (16384 * (15 + 1)), gC V c b p = KFlat.counts (tf V c) b := by
  unfold KFlat.counts
  rw [show 16384 * (15 + 1) = 262144 by norm_num, ← Fin.sum_univ_eq_sum_range (gC V c b) 262144]
  refine Finset.sum_congr rfl fun p _ => ?_
  unfold gC
  rw [dif_pos p.isLt]

/-- What the two result arrays end holding: entry (b, 0, 0) is image b's sum, and its count. -/
abbrev G4 (c : Dev nD) : Vec Ideal S4x1x1 .f32 := fun j => KFlat.sums (xf V c) (tf V c) (mx V c) (oh V c) (j 0)
abbrev G5 (c : Dev nD) : Vec Ideal S4x1x1 .f32 := fun j => KFlat.counts (tf V c) (j 0)

theorem G4_apply (c : Dev nD) (i : S4x1x1.Idx) (b : Fin 4) (h : i 0 = b) :
    G4 V c i = KFlat.sums (xf V c) (tf V c) (mx V c) (oh V c) b := by subst h; rfl
theorem G5_apply (c : Dev nD) (i : S4x1x1.Idx) (b : Fin 4) (h : i 0 = b) :
    G5 V c i = KFlat.counts (tf V c) b := by subst h; rfl

/-- The block's one index. -/
theorem idx_one (j : S1x1x1.Idx) : j = ix3 0 0 0 := by
  funext a
  apply Fin.ext
  match a with
  | ⟨0, _⟩ => have : (j 0).val < 1 := (j 0).isLt; show (j 0).val = (0 : Fin 1).val; simp; omega
  | ⟨1, _⟩ => have : (j 1).val < 1 := (j 1).isLt; show (j 1).val = (0 : Fin 1).val; simp; omega
  | ⟨2, _⟩ => have : (j 2).val < 1 := (j 2).isLt; show (j 2).val = (0 : Fin 1).val; simp; omega

/-- A one-entry block read at its index is read at (0, 0, 0). -/
theorem cut4 (t : Fin cfg1.N) (X : Vec Ideal S1x1x1 .f32) (j : S1x1x1.Idx) :
    (cfg1.win 4).cut (grid1.coords t) X j = X (ix3 0 0 0) := by
  show X _ = X _
  exact congrArg X (idx_one _)
theorem cut5 (t : Fin cfg1.N) (X : Vec Ideal S1x1x1 .f32) (j : S1x1x1.Idx) :
    (cfg1.win 5).cut (grid1.coords t) X j = X (ix3 0 0 0) := by
  show X _ = X _
  exact congrArg X (idx_one _)

/-- The block of a result array at point t is its entry (t / 16, 0, 0). -/
theorem rd4 (t : Fin cfg1.N) (G : Vec Ideal S4x1x1 .f32) (j : S1x1x1.Idx) (b : Fin 4) (hb : b.val = t.val / 16) :
    ((cfg1.win 4).blk t).view.read (Elt Ideal) G j = G (ix3 b 0 0) := by
  rw [View.read_apply]
  show G _ = G _
  congr 1
  funext a
  apply Fin.ext
  obtain ⟨-, -, -, -, -, -, -, -, -, -, e0, e1, e2, -⟩ := idx_facts t
  have h0 : (j 0).val < 1 := (j 0).isLt
  have h1 : (j 1).val < 1 := (j 1).isLt
  have h2 : (j 2).val < 1 := (j 2).isLt
  match a with
  | ⟨0, _⟩ => show win1_4.index t (0 : Fin 3) * 1 + 1 * (j 0).val = b.val; rw [e0]; omega
  | ⟨1, _⟩ => show win1_4.index t (1 : Fin 3) * 1 + 1 * (j 1).val = (0 : Fin 1).val; rw [e1]; simp; omega
  | ⟨2, _⟩ => show win1_4.index t (2 : Fin 3) * 1 + 1 * (j 2).val = (0 : Fin 1).val; rw [e2]; simp; omega
theorem rd5 (t : Fin cfg1.N) (G : Vec Ideal S4x1x1 .f32) (j : S1x1x1.Idx) (b : Fin 4) (hb : b.val = t.val / 16) :
    ((cfg1.win 5).blk t).view.read (Elt Ideal) G j = G (ix3 b 0 0) := by
  rw [View.read_apply]
  show G _ = G _
  congr 1
  funext a
  apply Fin.ext
  obtain ⟨-, -, -, -, -, -, -, -, -, -, -, -, -, e0, e1, e2⟩ := idx_facts t
  have h0 : (j 0).val < 1 := (j 0).isLt
  have h1 : (j 1).val < 1 := (j 1).isLt
  have h2 : (j 2).val < 1 := (j 2).isLt
  match a with
  | ⟨0, _⟩ => show win1_5.index t (0 : Fin 3) * 1 + 1 * (j 0).val = b.val; rw [e0]; omega
  | ⟨1, _⟩ => show win1_5.index t (1 : Fin 3) * 1 + 1 * (j 1).val = (0 : Fin 1).val; rw [e1]; simp; omega
  | ⟨2, _⟩ => show win1_5.index t (2 : Fin 3) * 1 + 1 * (j 2).val = (0 : Fin 1).val; rw [e2]; simp; omega

/-- The write-back after an image's last block writes the image's sum to its entry. -/
theorem flushed4 (c : Dev nD) (t : Fin cfg1.N) (hf : (cfg1.win 4).flush t = true) :
    (dat1 (F := Ideal) V c).flushed 4 t = ((cfg1.win 4).blk t).view.read (Elt Ideal) (G4 V c) := by
  have h15 : t.val % 16 = 15 := (flush1_4 t).mp hf
  have hN : t.val < 64 := lt_of_lt_of_eq t.isLt (show cfg1.N = 64 from N_1)
  have hb : t.val / 16 < 4 := by omega
  show (cfg1.win 4).cut (grid1.coords t) ((dat1 (F := Ideal) V c).after 4 t) = _
  rw [after1_4]
  refine funext fun (j : S1x1x1.Idx) => ?_
  refine (cut4 t (outsAt1 V c t.val t.isLt).1 j).trans ?_
  refine Eq.trans ?_ (rd4 t (G4 V c) j ⟨t.val / 16, hb⟩ rfl).symm
  rw [inv4 V c t.val t.isLt ⟨t.val / 16, hb⟩ rfl, h15]
  exact (gS_full V c ⟨t.val / 16, hb⟩).trans (G4_apply V c (ix3 ⟨t.val / 16, hb⟩ 0 0) ⟨t.val / 16, hb⟩ rfl).symm

theorem flushed5 (c : Dev nD) (t : Fin cfg1.N) (hf : (cfg1.win 5).flush t = true) :
    (dat1 (F := Ideal) V c).flushed 5 t = ((cfg1.win 5).blk t).view.read (Elt Ideal) (G5 V c) := by
  have h15 : t.val % 16 = 15 := (flush1_5 t).mp hf
  have hN : t.val < 64 := lt_of_lt_of_eq t.isLt (show cfg1.N = 64 from N_1)
  have hb : t.val / 16 < 4 := by omega
  show (cfg1.win 5).cut (grid1.coords t) ((dat1 (F := Ideal) V c).after 5 t) = _
  rw [after1_5]
  refine funext fun (j : S1x1x1.Idx) => ?_
  refine (cut5 t (outsAt1 V c t.val t.isLt).2 j).trans ?_
  refine Eq.trans ?_ (rd5 t (G5 V c) j ⟨t.val / 16, hb⟩ rfl).symm
  rw [inv5 V c t.val t.isLt ⟨t.val / 16, hb⟩ rfl, h15]
  exact (gC_full V c ⟨t.val / 16, hb⟩).trans (G5_apply V c (ix3 ⟨t.val / 16, hb⟩ 0 0) ⟨t.val / 16, hb⟩ rfl).symm

/-- Entry (b, 0, 0) of a result array lies in the block written back after point 16 b + 15. -/
theorem cover4 (i : S4x1x1.Idx) :
    ∃ t : Fin cfg1.N, (cfg1.win 4).flush t = true ∧ i ∈ ((cfg1.win 4).blk t).view.set := by
  have hi0 : (i 0).val < 4 := (i 0).isLt
  have hi1 : (i 1).val < 1 := (i 1).isLt
  have hi2 : (i 2).val < 1 := (i 2).isLt
  have hlt : 16 * (i 0).val + 15 < cfg1.N := by rw [show cfg1.N = 64 from N_1]; omega
  refine ⟨⟨16 * (i 0).val + 15, hlt⟩, (flush1_4 _).mpr (by dsimp only; omega), ?_⟩
  show i ∈ ((View.whole main_v8_0).slice (win1_4.rect ⟨16 * (i 0).val + 15, hlt⟩)).set
  rw [View.set_slice_whole, Rect.mem_set_unit]
  obtain ⟨-, -, -, -, -, -, -, -, -, -, e0, e1, e2, -⟩ := idx_facts ⟨16 * (i 0).val + 15, hlt⟩
  dsimp only at e0
  intro a
  match a with
  | ⟨0, _⟩ =>
    show win1_4.index ⟨16 * (i 0).val + 15, hlt⟩ (0 : Fin 3) * 1 ≤ (i 0).val
      ∧ (i 0).val < win1_4.index ⟨16 * (i 0).val + 15, hlt⟩ (0 : Fin 3) * 1 + 1
    rw [e0]; omega
  | ⟨1, _⟩ =>
    show win1_4.index ⟨16 * (i 0).val + 15, hlt⟩ (1 : Fin 3) * 1 ≤ (i 1).val
      ∧ (i 1).val < win1_4.index ⟨16 * (i 0).val + 15, hlt⟩ (1 : Fin 3) * 1 + 1
    rw [e1]; omega
  | ⟨2, _⟩ =>
    show win1_4.index ⟨16 * (i 0).val + 15, hlt⟩ (2 : Fin 3) * 1 ≤ (i 2).val
      ∧ (i 2).val < win1_4.index ⟨16 * (i 0).val + 15, hlt⟩ (2 : Fin 3) * 1 + 1
    rw [e2]; omega

theorem cover5 (i : S4x1x1.Idx) :
    ∃ t : Fin cfg1.N, (cfg1.win 5).flush t = true ∧ i ∈ ((cfg1.win 5).blk t).view.set := by
  have hi0 : (i 0).val < 4 := (i 0).isLt
  have hi1 : (i 1).val < 1 := (i 1).isLt
  have hi2 : (i 2).val < 1 := (i 2).isLt
  have hlt : 16 * (i 0).val + 15 < cfg1.N := by rw [show cfg1.N = 64 from N_1]; omega
  refine ⟨⟨16 * (i 0).val + 15, hlt⟩, (flush1_5 _).mpr (by dsimp only; omega), ?_⟩
  show i ∈ ((View.whole main_v8_1).slice (win1_5.rect ⟨16 * (i 0).val + 15, hlt⟩)).set
  rw [View.set_slice_whole, Rect.mem_set_unit]
  obtain ⟨-, -, -, -, -, -, -, -, -, -, -, -, -, e0, e1, e2⟩ := idx_facts ⟨16 * (i 0).val + 15, hlt⟩
  dsimp only at e0
  intro a
  match a with
  | ⟨0, _⟩ =>
    show win1_5.index ⟨16 * (i 0).val + 15, hlt⟩ (0 : Fin 3) * 1 ≤ (i 0).val
      ∧ (i 0).val < win1_5.index ⟨16 * (i 0).val + 15, hlt⟩ (0 : Fin 3) * 1 + 1
    rw [e0]; omega
  | ⟨1, _⟩ =>
    show win1_5.index ⟨16 * (i 0).val + 15, hlt⟩ (1 : Fin 3) * 1 ≤ (i 1).val
      ∧ (i 1).val < win1_5.index ⟨16 * (i 0).val + 15, hlt⟩ (1 : Fin 3) * 1 + 1
    rw [e1]; omega
  | ⟨2, _⟩ =>
    show win1_5.index ⟨16 * (i 0).val + 15, hlt⟩ (2 : Fin 3) * 1 ≤ (i 2).val
      ∧ (i 2).val < win1_5.index ⟨16 * (i 0).val + 15, hlt⟩ (2 : Fin 3) * 1 + 1
    rw [e2]; omega

end Whole

theorem arr4 (c : Dev nD) (b : Fin 4) :
    ((dat1 (F := Ideal) V c).arrAt 4 cfg1.N : S4x1x1.Idx → EReal) (ix3 b 0 0)
      = Cert.KFlat.sums (V c main_v0) (V c main_v1) (V c main_v7) (V c main_v4) b :=
  (congrFun ((dat1 (F := Ideal) V c).arrAt_eq_of_cover 4 (G4 V c) (flushed4 V c) cover4) (ix3 b 0 0)).trans
    (G4_apply V c (ix3 b 0 0) b rfl)

theorem arr5 (c : Dev nD) (b : Fin 4) :
    ((dat1 (F := Ideal) V c).arrAt 5 cfg1.N : S4x1x1.Idx → EReal) (ix3 b 0 0)
      = Cert.KFlat.counts (V c main_v1) b :=
  (congrFun ((dat1 (F := Ideal) V c).arrAt_eq_of_cover 5 (G5 V c) (flushed5 V c) cover5) (ix3 b 0 0)).trans
    (G5_apply V c (ix3 b 0 0) b rfl)

end Cert.KernelIdeal.K1

end
-- ==== Proof.KBridge.lean ====
/-
  From the launches' quantities to the first closed form of the loss.

  Given that the flattened scores are the scores at row p / 512 and column p % 512, the flattened labels
  likewise, the [1, 1] array holds the largest score, and the table's entry (n, c) is one when channel c's class
  is n and zero otherwise: the images' sums of terms over the larger of the images' counts and one is the first
  closed form. Also: the largest of the four images' largest scores is the largest score.

  The road. A flat position p is the pair (p / 512, p % 512) and every pair of a row and a column is the pair of
  exactly one position, 512 h + w. So the largest score over (b, c, p) is the largest over (b, c, h, w); at a
  position the shifted exponential, the class sums (a table entry times a value is the value or zero), the
  label and the term are the first closed form's at (p / 512, p % 512); and the sum over (b, p) of a one for every
  label that is not ignored is the sum over (b, h, w), which is the number of such pixels.
-/
import proofs.«404899_j12180527252165_2_alg».proof.Proof.Spec
import proofs.«404899_j12180527252165_2_alg».proof.Proof.KFlat
import Mathlib.Algebra.BigOperators.Ring.Finset
import Mathlib.Data.Fintype.BigOperators
import Mathlib.Data.EReal.Inv

noncomputable section

open scoped BigOperators

namespace Cert.KBridge

open Idealize.ShloMosaic Idealize.ShloMosaic.ValueIdx Cert.Spec Cert.KFlat

/-! ## Flat positions are the pairs of a row and a column -/

/-- The flat position 512 h + w of row h and column w. -/
def pOf (h w : Fin 512) : Fin 262144 :=
  ⟨512 * h.val + w.val, by have := h.isLt; have := w.isLt; omega⟩

/-- The row of 512 h + w is h. -/
theorem hOf_pOf (h w : Fin 512) : hOf (pOf h w) = h := by
  apply Fin.ext
  show (512 * h.val + w.val) / 512 = h.val
  have := w.isLt
  omega

/-- The column of 512 h + w is w. -/
theorem wOf_pOf (h w : Fin 512) : wOf (pOf h w) = w := by
  apply Fin.ext
  show (512 * h.val + w.val) % 512 = w.val
  have := w.isLt
  omega

/-- A position is 512 times its row plus its column. -/
theorem pOf_hOf_wOf (p : Fin 262144) : pOf (hOf p) (wOf p) = p := by
  apply Fin.ext
  show 512 * (p.val / 512) + p.val % 512 = p.val
  omega

/-- Positions against pairs of a row and a column. -/
def posEquiv : Fin 262144 ≃ Fin 512 × Fin 512 where
  toFun p := (hOf p, wOf p)
  invFun q := pOf q.1 q.2
  left_inv p := pOf_hOf_wOf p
  right_inv q := Prod.ext (hOf_pOf q.1 q.2) (wOf_pOf q.1 q.2)

/-- A sum over images and positions of a function of the row and the column is the sum over the triples. -/
theorem sum_pos_eq (F : Fin 4 → Fin 512 → Fin 512 → EReal) :
    ∑ b : Fin 4, ∑ p : Fin 262144, F b (hOf p) (wOf p)
      = ∑ r : Fin 4 × Fin 512 × Fin 512, F r.1 r.2.1 r.2.2 := by
  rw [Fintype.sum_prod_type]
  apply Finset.sum_congr rfl
  intro b _
  exact Equiv.sum_comp posEquiv (fun q : Fin 512 × Fin 512 => F b q.1 q.2)

variable (x : SX.Idx → EReal) (t : ST.Idx → BitVec 32) (g : SG.Idx → BitVec 32)
variable (xf : SXF.Idx → EReal) (tf : STF.Idx → BitVec 32) (mx : SM.Idx → EReal) (oh : SO.Idx → EReal)

section Pointwise
variable {x t g xf tf mx oh}

/-- The shifted exponential at a position is the one at its row and column. -/
theorem eF_eq
    (hxf : ∀ (b : Fin 4) (c : Fin 64) (p : Fin 262144), xf (ix3 b c p) = x (ix4 b c (hOf p) (wOf p)))
    (hmx : mx (ix2 0 0) = gmax x) (b : Fin 4) (c : Fin 64) (p : Fin 262144) :
    eF xf mx b c p = ex x b c (hOf p) (wOf p) := by
  unfold eF ex
  rw [hxf, hmx]

/-- A class's table-weighted sum is the sum over the channels of that class: an entry times a value is the
    value where the entry is one and zero where it is zero. -/
theorem oriF_eq
    (hxf : ∀ (b : Fin 4) (c : Fin 64) (p : Fin 262144), xf (ix3 b c p) = x (ix4 b c (hOf p) (wOf p)))
    (hmx : mx (ix2 0 0) = gmax x)
    (hoh : ∀ (n : Fin 20) (c : Fin 64), oh (ix2 n c) = if g (ix1 c) = BitVec.ofNat 32 n.val then 1 else 0)
    (b : Fin 4) (n : Fin 20) (p : Fin 262144) :
    oriF xf mx oh b n p = Spec.ori x g b n (hOf p) (wOf p) := by
  unfold oriF Spec.ori
  apply Finset.sum_congr rfl
  intro c _
  rw [hoh, eF_eq hxf hmx, ite_mul, one_mul, zero_mul]

/-- The label at a position is the label at its row and column. -/
theorem lblF_eq (htf : ∀ (b : Fin 4) (p : Fin 262144), tf (ix3 b 0 p) = t (ix3 b (hOf p) (wOf p)))
    (b : Fin 4) (p : Fin 262144) : lblF tf b p = lbl t b (hOf p) (wOf p) := by
  unfold lblF lbl
  rw [htf]

/-- The term at a position is the first closed form's term at its row and column. -/
theorem termF_eq
    (hxf : ∀ (b : Fin 4) (c : Fin 64) (p : Fin 262144), xf (ix3 b c p) = x (ix4 b c (hOf p) (wOf p)))
    (htf : ∀ (b : Fin 4) (p : Fin 262144), tf (ix3 b 0 p) = t (ix3 b (hOf p) (wOf p)))
    (hmx : mx (ix2 0 0) = gmax x)
    (hoh : ∀ (n : Fin 20) (c : Fin 64), oh (ix2 n c) = if g (ix1 c) = BitVec.ofNat 32 n.val then 1 else 0)
    (b : Fin 4) (p : Fin 262144) :
    termF xf tf mx oh b p = termK x t g b (hOf p) (wOf p) := by
  unfold termF termK pickK esumK
  rw [htf, lblF_eq htf]
  simp only [oriF_eq hxf hmx hoh]

/-- The images' counts add up to the number of pixels whose label is not ignored. -/
theorem counts_eq (htf : ∀ (b : Fin 4) (p : Fin 262144), tf (ix3 b 0 p) = t (ix3 b (hOf p) (wOf p))) :
    ∑ b : Fin 4, counts tf b = ((cnt t : ℝ) : EReal) := by
  have h1 : ∑ b : Fin 4, counts tf b
      = ∑ b : Fin 4, ∑ p : Fin 262144, (if t (ix3 b (hOf p) (wOf p)) ≠ 255#32 then (1 : EReal) else 0) := by
    apply Finset.sum_congr rfl
    intro b _
    unfold counts oneF
    apply Finset.sum_congr rfl
    intro p _
    rw [htf]
  have h2 : ∑ b : Fin 4, ∑ p : Fin 262144, (if t (ix3 b (hOf p) (wOf p)) ≠ 255#32 then (1 : EReal) else 0)
      = ∑ r : Fin 4 × Fin 512 × Fin 512, (if t (ix3 r.1 r.2.1 r.2.2) ≠ 255#32 then (1 : EReal) else 0) :=
    sum_pos_eq (fun b h w => if t (ix3 b h w) ≠ 255#32 then (1 : EReal) else 0)
  rw [h1, h2, Finset.sum_boole]
  unfold cnt
  exact EReal.coe_natCast.symm

end Pointwise

/-- The largest of the images' largest scores is the largest score. -/
theorem sup_bmax (hxf : ∀ (b : Fin 4) (c : Fin 64) (p : Fin 262144), xf (ix3 b c p) = x (ix4 b c (hOf p) (wOf p))) :
    (Finset.univ.sup fun b : Fin 4 => bmax xf b) = gmax x := by
  apply le_antisymm
  · -- every flattened score is a score
    apply Finset.sup_le
    intro b _
    unfold bmax
    apply Finset.sup_le
    intro q _
    rw [hxf]
    exact Finset.le_sup (f := x) (Finset.mem_univ _)
  · -- every score is the flattened score at the position 512 h + w
    unfold gmax
    apply Finset.sup_le
    intro i _
    obtain ⟨b, c, h, w, rfl⟩ : ∃ (b : Fin 4) (c : Fin 64) (h w : Fin 512), i = ix4 b c h w :=
      ⟨i 0, i 1, i 2, i 3, eq_ix4 i⟩
    have hx : x (ix4 b c h w) = xf (ix3 b c (pOf h w)) := by
      rw [hxf, hOf_pOf, wOf_pOf]
    rw [hx]
    have h1 : xf (ix3 b c (pOf h w)) ≤ bmax xf b :=
      Finset.le_sup (f := fun q : Fin 64 × Fin 262144 => xf (ix3 b q.1 q.2)) (Finset.mem_univ (c, pOf h w))
    have h2 : bmax xf b ≤ Finset.univ.sup fun b : Fin 4 => bmax xf b :=
      Finset.le_sup (f := fun b : Fin 4 => bmax xf b) (Finset.mem_univ b)
    exact le_trans h1 h2

/-- The images' sums over the larger of the images' counts and one is the first closed form. -/
theorem lossK_of_flat
    (hxf : ∀ (b : Fin 4) (c : Fin 64) (p : Fin 262144), xf (ix3 b c p) = x (ix4 b c (hOf p) (wOf p)))
    (htf : ∀ (b : Fin 4) (p : Fin 262144), tf (ix3 b 0 p) = t (ix3 b (hOf p) (wOf p)))
    (hmx : mx (ix2 0 0) = gmax x)
    (hoh : ∀ (n : Fin 20) (c : Fin 64), oh (ix2 n c) = if g (ix1 c) = BitVec.ofNat 32 n.val then 1 else 0) :
    Ideal.div (∑ b : Fin 4, sums xf tf mx oh b) (max (∑ b : Fin 4, counts tf b) 1) = lossK x t g := by
  have hs : ∑ b : Fin 4, sums xf tf mx oh b
      = ∑ b : Fin 4, ∑ p : Fin 262144, termK x t g b (hOf p) (wOf p) := by
    apply Finset.sum_congr rfl
    intro b _
    unfold sums
    apply Finset.sum_congr rfl
    intro p _
    exact termF_eq hxf htf hmx hoh b p
  rw [hs, counts_eq htf]
  rfl

end Cert.KBridge

end
-- ==== Proof.KHead.lean ====
/-
  The host operations before the first launch, read at an index: the scores and the labels flattened over rows and
  columns.
-/
import proofs.«404899_j12180527252165_2_alg».proof.Proof.Gen.KernelIdeal
import proofs.«404899_j12180527252165_2_alg».proof.Proof.Spec
import Idealize.ShloMosaic.Lib.ValueIdx
import Idealize.ShloMosaic.Lib.ValueLayout
import Idealize.ShloMosaic.Lib.Pipeline.Value
import Idealize.ShloMosaic.Lib.StableHlo.Predicate

noncomputable section

open Idealize.ShloMosaic Idealize.ShloMosaic.ValueIdx

namespace Cert.KernelIdeal.KHead

open Cert.KernelIdeal Cert.KernelIdeal.Gen Cert.Spec

/-- The flattened scores at (b, c, p) are the scores at row p / 512 and column p % 512. -/
theorem head_x (x : S4x64x512x512.Idx → EReal) (b : Fin 4) (ch : Fin 64) (p : Fin 262144) :
    (shapeCast S4x64x262144 x shapeCasts_S4x64x512x512_S4x64x262144 : S4x64x262144.Idx → EReal) (ix3 b ch p)
      = x (ix4 b ch (hOf p) (wOf p)) := by
  have hp := p.isLt
  refine shapeCast_apply x shapeCasts_S4x64x512x512_S4x64x262144 (ix3 b ch p) (ix4 b ch (hOf p) (wOf p)) ?_
  rewrite [Shape.rowMajor_val_four, Shape.rowMajor_val_three]
  show ((b.val * 64 + ch.val) * 512 + p.val / 512) * 512 + p.val % 512 = (b.val * 64 + ch.val) * 262144 + p.val
  omega

/-- The flattened labels likewise. -/
theorem head_t (t : IVec S4x512x512 32) (b : Fin 4) (p : Fin 262144) :
    (shapeCast S4x1x262144 t shapeCasts_S4x512x512_S4x1x262144 : IVec S4x1x262144 32) (ix3 b 0 p)
      = t (ix3 b (hOf p) (wOf p)) := by
  have hp := p.isLt
  refine shapeCast_apply t shapeCasts_S4x512x512_S4x1x262144 (ix3 b 0 p) (ix3 b (hOf p) (wOf p)) ?_
  rewrite [Shape.rowMajor_val_three, Shape.rowMajor_val_three]
  show (b.val * 512 + p.val / 512) * 512 + p.val % 512 = (b.val * 1 + 0) * 262144 + p.val
  omega

end Cert.KernelIdeal.KHead

end
-- ==== Proof.KHeadOh.lean ====
/-
  The host operations before the first launch, read at an index: the table of the channels' classes.
-/
import proofs.«404899_j12180527252165_2_alg».proof.Proof.Gen.KernelIdeal
import proofs.«404899_j12180527252165_2_alg».proof.Proof.Spec
import Idealize.ShloMosaic.Lib.ValueIdx
import Idealize.ShloMosaic.Lib.ValueLayout
import Idealize.ShloMosaic.Lib.Pipeline.Value
import Idealize.ShloMosaic.Lib.StableHlo.Predicate

noncomputable section

open Idealize.ShloMosaic Idealize.ShloMosaic.ValueIdx

namespace Cert.KernelIdeal.KHead

open Cert.KernelIdeal Cert.KernelIdeal.Gen Cert.Spec

/-- The table's entry (n, c): one when channel c's class is n, zero otherwise. -/
theorem head_oh (g : IVec S64 32) (n : Fin 20) (ch : Fin 64) :
    (truncf .bf16 (transpose S20x64 [1, 0] (uitofp (F := Ideal) .f32 (cmpi .eq
        (broadcastInDim S64x20 ![0, 1] bcast_S64x1_S64x20_0_1 (broadcastInDim S64x1 ![0] bcast_S64_S64x1_0 g))
        (broadcastInDim S64x20 ![0, 1] bcast_S1x20_S64x20_0_1 (iotaInDim S1x20 32 1)))) transposes_S64x20_S20x64_1_0)
      bitsLt_bf16_f32 : S20x64.Idx → EReal) (ix2 n ch)
      = if g (ix1 ch) = BitVec.ofNat 32 n.val then 1 else 0 := by
  have hperm : ∀ b : Fin S20x64.rank, ((StableHlo.Predicate.ij ch n : S64x20.Idx)
      ([1, 0] : List (Fin S64x20.rank))[b.cast transposes_S64x20_S20x64_1_0.2.1]).val = ((ix2 n ch : S20x64.Idx) b).val := by
    intro b
    match b with
    | ⟨0, _⟩ => rfl
    | ⟨1, _⟩ => rfl
  show transpose S20x64 [1, 0] (uitofp (F := Ideal) .f32 (cmpi .eq
        (broadcastInDim S64x20 ![0, 1] bcast_S64x1_S64x20_0_1 (broadcastInDim S64x1 ![0] bcast_S64_S64x1_0 g))
        (broadcastInDim S64x20 ![0, 1] bcast_S1x20_S64x20_0_1 (iotaInDim S1x20 32 1)))) transposes_S64x20_S20x64_1_0 (ix2 n ch) = _
  rw [transpose_apply [1, 0] _ transposes_S64x20_S20x64_1_0 (ix2 n ch) (StableHlo.Predicate.ij ch n) hperm]
  show (((IntOp.cmpi .eq
        (broadcastInDim S64x20 ![0, 1] bcast_S64x1_S64x20_0_1 (broadcastInDim S64x1 ![0] bcast_S64_S64x1_0 g) (StableHlo.Predicate.ij ch n))
        (broadcastInDim S64x20 ![0, 1] bcast_S1x20_S64x20_0_1 (iotaInDim S1x20 32 1) (StableHlo.Predicate.ij ch n))).toNat : ℝ) : EReal) = _
  rw [StableHlo.Predicate.bcast_rows, StableHlo.Predicate.bcast_of_row]
  have hg : (Shape.Idx.ofFin ch : S64.Idx) = ix1 ch := by
    funext q
    match q with
    | ⟨0, _⟩ => rfl
  have hi : iotaInDim S1x20 32 1 (StableHlo.Predicate.i1q n) = BitVec.ofNat 32 n.val := rfl
  rw [hg, hi]
  by_cases h : g (ix1 ch) = BitVec.ofNat 32 n.val
  · rw [if_pos h, StableHlo.Predicate.cmpi_eq_iff.mpr h]
    simp
  · rw [if_neg h, eq_zero_of_ne_one (fun h1 => h (StableHlo.Predicate.cmpi_eq_iff.mp h1))]
    simp

end Cert.KernelIdeal.KHead

end
-- ==== Proof.LibReduceMaxAll.lean ====
/-
  A host maximum-reduction over every axis, started from the bottom element, is the supremum of the entries
  (over the extended reals, for any shape, from the reduction's own facts alone).
-/
import Idealize.ShloMosaic.PureOps.Ideal
import Idealize.ShloMosaic.PureOps.Reduce
import Mathlib.Data.Finset.Lattice.Fold

noncomputable section

namespace Cert.LibMax

open Idealize.ShloMosaic

/-- The maximum of two extended reals is commutative and associative: the two facts a reduction's fold asks for. -/
instance maximumf_comm {φ : FTy} : Std.Commutative (FloatOps.maximumf (F := Ideal) (φ := φ)) :=
  ⟨fun a b => max_comm a b⟩
instance maximumf_assoc {φ : FTy} : Std.Associative (FloatOps.maximumf (F := Ideal) (φ := φ)) :=
  ⟨fun a b c => max_assoc a b c⟩

/-- Reduced over axes that leave only unit axes, from an initial value that is the bottom element, the host's
    maximum-reduction at its one index is the supremum of all the entries. -/
theorem hostReduceMax_total {φ : FTy} {s t u : Shape} {axes : List (Fin s.rank)} (x : FVec Ideal s φ)
    (init : FVec Ideal u φ) (h : s.ReducesTo axes t) (hu : 0 < u.numel) (ht : ∀ b, t.size b = 1)
    (hinit : init (Shape.Idx.first hu) = (⊥ : EReal)) (j : t.Idx) :
    Host.reduce (FloatOps.maximumf (F := Ideal) (φ := φ)) x init h hu j = Finset.univ.sup (fun i => (x i : EReal)) := by
  rw [Host.reduce_eq_fold]
  -- every index drops to the one index of the result
  rw [Finset.filter_true_of_mem fun i _ => funext fun b => Fin.ext (by
    have := (h.drop i b).isLt; have := (j b).isLt; have := ht b; omega)]
  rw [hinit]
  -- the supremum of a finite family is this very fold
  show Finset.univ.fold (fun a b : EReal => max a b) ⊥ (fun i => (x i : EReal)) = _
  rfl

end Cert.LibMax

end
-- ==== Proof.KHost.lean ====
/-
  The kernel program's result, read back through its host operations and its two launches.

  The result is the quotient of two host sums over the four images' entries of the second launch's two result
  arrays, the divisor first raised to at least one. Those entries are the images' sums of terms and counts, over
  the arrays the second launch is given: the flattened scores and labels and the table, which the host operations
  before the first launch make from the arguments and nothing writes afterwards, and the [1, 1] array holding the
  host maximum of the first launch's result array, whose four entries are the images' largest scores. So the
  result is the first closed form of the loss of the three arguments.
-/
import proofs.«404899_j12180527252165_2_alg».proof.Proof.Gen.KernelIdeal.Frame
import proofs.«404899_j12180527252165_2_alg».proof.Proof.KFlat
import proofs.«404899_j12180527252165_2_alg».proof.Proof.Spec
import proofs.«404899_j12180527252165_2_alg».proof.Proof.K0
import proofs.«404899_j12180527252165_2_alg».proof.Proof.K1
import proofs.«404899_j12180527252165_2_alg».proof.Proof.KBridge
import proofs.«404899_j12180527252165_2_alg».proof.Proof.KHead
import proofs.«404899_j12180527252165_2_alg».proof.Proof.KHeadOh
import proofs.«404899_j12180527252165_2_alg».proof.Proof.LibReduceMaxAll
import Idealize.ShloMosaic.Lib.Pipeline.Value
import Idealize.ShloMosaic.Lib.StableHlo.Run
import Idealize.ShloMosaic.Lib.IdealHost
import Idealize.ShloMosaic.Lib.ValueIdx
import Idealize.ShloMosaic.Lib.Tactic
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.KHost

open Cert.KernelIdeal Cert.KernelIdeal.Gen

variable (m : (ℓ : Loc nD τ sig) → Buf (Elt Ideal) ℓ) (ρ : Dev nD → PrngReg)

/-! ## The four images' entries of a [4, 1, 1] array -/

/-- An index of a [4, 1, 1] array is its first coordinate. -/
def e4 : Fin 4 ≃ S4x1x1.Idx where
  toFun b := ix3 b 0 0
  invFun i := i 0
  left_inv b := rfl
  right_inv i := by
    funext a
    match a with
    | ⟨0, _⟩ => rfl
    | ⟨1, _⟩ => exact Fin.ext (by have h : ((i 1 : Fin 1) : Nat) < 1 := (i 1).isLt; show (0 : Nat) = ((i 1 : Fin 1) : Nat); omega)
    | ⟨2, _⟩ => exact Fin.ext (by have h : ((i 2 : Fin 1) : Nat) < 1 := (i 2).isLt; show (0 : Nat) = ((i 2 : Fin 1) : Nat); omega)

theorem sum_S4x1x1 (y : S4x1x1.Idx → EReal) : ∑ i : S4x1x1.Idx, y i = ∑ b : Fin 4, y (ix3 b 0 0) :=
  (Equiv.sum_comp e4 y).symm

theorem sup_S4x1x1 (y : S4x1x1.Idx → EReal) : Finset.univ.sup y = Finset.univ.sup fun b : Fin 4 => y (ix3 b 0 0) := by
  apply le_antisymm
  · apply Finset.sup_le
    intro i _
    have hi : i = ix3 (e4.symm i) 0 0 := (e4.apply_symm_apply i).symm
    rw [hi]
    exact Finset.le_sup (f := fun b : Fin 4 => y (ix3 b 0 0)) (Finset.mem_univ _)
  · apply Finset.sup_le
    intro b _
    exact Finset.le_sup (f := y) (Finset.mem_univ _)

/-- The word 0x3F800000 is the number one. -/
theorem one_f32 : Ideal.ofBits .f32 0x3F800000#32 = 1 := by
  simp [Ideal.ofBits, Ideal.ieee]
  rw [← EReal.coe_mul]; norm_num

/-! ## The host operations after the second launch -/

theorem tail (c : Dev nD) :
    (W7 (F := Ideal) m ρ c (Proc.devRef .tc main_v12) : S_.Idx → EReal)
      = Host.divf (Host.reduceAdd (F := Ideal) (φ := .f32) (W6 (F := Ideal) m ρ c (Proc.devRef .tc main_v8_0)) (constant (F := Ideal) S_ .f32 0x00000000#32) reducesTo_S4x1x1_S_d0_1_2 h_S_)
          (maximumf (Host.reduceAdd (F := Ideal) (φ := .f32) (W6 (F := Ideal) m ρ c (Proc.devRef .tc main_v8_1)) (constant (F := Ideal) S_ .f32 0x00000000#32) reducesTo_S4x1x1_S_d0_1_2 h_S_)
            (constant (F := Ideal) S_ .f32 0x3F800000#32)) := by
  show StableHlo.after hostOps2 (W6 (F := Ideal) m ρ c) (Proc.devRef .tc main_v12) = _
  after_results

theorem arr_v8_0 (c : Dev nD) : W6 (F := Ideal) m ρ c (Proc.devRef .tc main_v8_0) = (dat1 (V5 (F := Ideal) m ρ) c).arrAt 4 cfg1.N :=
  W6_arr m ρ c 4
theorem arr_v8_1 (c : Dev nD) : W6 (F := Ideal) m ρ c (Proc.devRef .tc main_v8_1) = (dat1 (V5 (F := Ideal) m ρ) c).arrAt 5 cfg1.N :=
  W6_arr m ρ c 5

/-! ## The host operations between the launches -/

theorem mid (c : Dev nD) :
    (W5 (F := Ideal) m ρ c (Proc.devRef .tc main_v7) : S1x1.Idx → EReal)
      = shapeCast S1x1 (Host.reduce (FloatOps.maximumf (F := Ideal) (φ := .f32)) (W4 (F := Ideal) m ρ c (Proc.devRef .tc main_v5)) (constant (F := Ideal) S_ .f32 0xFF800000#32) reducesTo_S4x1x1_S_d0_1_2 h_S_) shapeCasts_S_S1x1 := by
  show StableHlo.after hostOps1 (W4 (F := Ideal) m ρ c) (Proc.devRef .tc main_v7) = _
  after_results
  rfl

theorem arr_v5 (c : Dev nD) : W4 (F := Ideal) m ρ c (Proc.devRef .tc main_v5) = (dat0 (V3 (F := Ideal) m ρ) c).arrAt 1 cfg0.N :=
  W4_arr m ρ c 1

/-- The flattened scores pass the first launch (which only reads them) and the host operations between. -/
theorem carry_v0 (c : Dev nD) : W5 (F := Ideal) m ρ c (Proc.devRef .tc main_v0) = W3 (F := Ideal) m ρ c (Proc.devRef .tc main_v0) := by
  have h1 : W5 (F := Ideal) m ρ c (Proc.devRef .tc main_v0) = W4 (F := Ideal) m ρ c (Proc.devRef .tc main_v0) := by
    show StableHlo.after hostOps1 (W4 (F := Ideal) m ρ c) (Proc.devRef .tc main_v0) = _
    after_results
  rw [h1]
  exact (W4_arr m ρ c 0).trans ((dat0 (V3 m ρ) c).arrAt_in 0 rfl _)

theorem carry_v1 (c : Dev nD) : W5 (F := Ideal) m ρ c (Proc.devRef .tc main_v1) = W3 (F := Ideal) m ρ c (Proc.devRef .tc main_v1) := by
  have h1 : W5 (F := Ideal) m ρ c (Proc.devRef .tc main_v1) = W4 (F := Ideal) m ρ c (Proc.devRef .tc main_v1) := by
    show StableHlo.after hostOps1 (W4 (F := Ideal) m ρ c) (Proc.devRef .tc main_v1) = _
    after_results
  rw [h1]
  exact W4_of_ne m ρ c main_v1 (by decide)

theorem carry_v4 (c : Dev nD) : W5 (F := Ideal) m ρ c (Proc.devRef .tc main_v4) = W3 (F := Ideal) m ρ c (Proc.devRef .tc main_v4) := by
  have h1 : W5 (F := Ideal) m ρ c (Proc.devRef .tc main_v4) = W4 (F := Ideal) m ρ c (Proc.devRef .tc main_v4) := by
    show StableHlo.after hostOps1 (W4 (F := Ideal) m ρ c) (Proc.devRef .tc main_v4) = _
    after_results
  rw [h1]
  exact W4_of_ne m ρ c main_v4 (by decide)

/-! ## The host operations before the first launch -/

theorem head_v0 (c : Dev nD) :
    (W3 (F := Ideal) m ρ c (Proc.devRef .tc main_v0) : S4x64x262144.Idx → EReal)
      = shapeCast S4x64x262144 (m ((c : Thread nD τ).loc main_arg0)) shapeCasts_S4x64x512x512_S4x64x262144 := by
  show StableHlo.after hostOps0_2 (StableHlo.after hostOps0_1 (StableHlo.after hostOps0 (W0 (F := Ideal) m ρ c))) (Proc.devRef .tc main_v0) = _
  after_results
  rfl

theorem head_v1 (c : Dev nD) :
    (W3 (F := Ideal) m ρ c (Proc.devRef .tc main_v1) : IVec S4x1x262144 32)
      = shapeCast S4x1x262144 (m ((c : Thread nD τ).loc main_arg1)) shapeCasts_S4x512x512_S4x1x262144 := by
  show StableHlo.after hostOps0_2 (StableHlo.after hostOps0_1 (StableHlo.after hostOps0 (W0 (F := Ideal) m ρ c))) (Proc.devRef .tc main_v1) = _
  after_results
  rfl

theorem head_v4 (c : Dev nD) :
    (W3 (F := Ideal) m ρ c (Proc.devRef .tc main_v4) : S20x64.Idx → EReal)
      = truncf .bf16 (transpose S20x64 [1, 0] (uitofp (F := Ideal) .f32 (cmpi .eq
          (broadcastInDim S64x20 ![0, 1] bcast_S64x1_S64x20_0_1 (broadcastInDim S64x1 ![0] bcast_S64_S64x1_0 (m ((c : Thread nD τ).loc main_arg2))))
          (broadcastInDim S64x20 ![0, 1] bcast_S1x20_S64x20_0_1 (iotaInDim S1x20 32 1)))) transposes_S64x20_S20x64_1_0) bitsLt_bf16_f32 := by
  show StableHlo.after hostOps0_2 (StableHlo.after hostOps0_1 (StableHlo.after hostOps0 (W0 (F := Ideal) m ρ c))) (Proc.devRef .tc main_v4) = _
  after_results
  rfl

/-! ## What the launches are given, in terms of the arguments -/

/-- The first launch's scores are the flattened scores. -/
theorem V3_x (c : Dev nD) (b : Fin 4) (ch : Fin 64) (p : Fin 262144) :
    (V3 (F := Ideal) m ρ c main_v0 : S4x64x262144.Idx → EReal) (ix3 b ch p)
      = m ((c : Thread nD τ).loc main_arg0) (ix4 b ch (Cert.Spec.hOf p) (Cert.Spec.wOf p)) := by
  show (W3 (F := Ideal) m ρ c (Proc.devRef .tc main_v0) : S4x64x262144.Idx → EReal) (ix3 b ch p) = _
  rw [head_v0]
  exact KHead.head_x _ b ch p

/-- The second launch's scores, labels and table. -/
theorem V5_x (c : Dev nD) (b : Fin 4) (ch : Fin 64) (p : Fin 262144) :
    (V5 (F := Ideal) m ρ c main_v0 : S4x64x262144.Idx → EReal) (ix3 b ch p)
      = m ((c : Thread nD τ).loc main_arg0) (ix4 b ch (Cert.Spec.hOf p) (Cert.Spec.wOf p)) := by
  show (W5 (F := Ideal) m ρ c (Proc.devRef .tc main_v0) : S4x64x262144.Idx → EReal) (ix3 b ch p) = _
  rw [carry_v0, head_v0]
  exact KHead.head_x _ b ch p

theorem V5_t (c : Dev nD) (b : Fin 4) (p : Fin 262144) :
    (V5 (F := Ideal) m ρ c main_v1 : IVec S4x1x262144 32) (ix3 b 0 p)
      = m ((c : Thread nD τ).loc main_arg1) (ix3 b (Cert.Spec.hOf p) (Cert.Spec.wOf p)) := by
  show (W5 (F := Ideal) m ρ c (Proc.devRef .tc main_v1) : IVec S4x1x262144 32) (ix3 b 0 p) = _
  rw [carry_v1, head_v1]
  exact KHead.head_t _ b p

theorem V5_oh (c : Dev nD) (n : Fin 20) (ch : Fin 64) :
    (V5 (F := Ideal) m ρ c main_v4 : S20x64.Idx → EReal) (ix2 n ch)
      = (if m ((c : Thread nD τ).loc main_arg2) (ix1 ch) = BitVec.ofNat 32 n.val then (1 : EReal) else 0) := by
  show (W5 (F := Ideal) m ρ c (Proc.devRef .tc main_v4) : S20x64.Idx → EReal) (ix2 n ch) = _
  rw [carry_v4, head_v4]
  exact KHead.head_oh _ n ch

/-- The [1, 1] array the second launch is given holds the largest score. -/
theorem V5_max (c : Dev nD) :
    (V5 (F := Ideal) m ρ c main_v7 : S1x1.Idx → EReal) (ix2 0 0) = Cert.Spec.gmax (m ((c : Thread nD τ).loc main_arg0)) := by
  show (W5 (F := Ideal) m ρ c (Proc.devRef .tc main_v7) : S1x1.Idx → EReal) (ix2 0 0) = _
  rw [mid]
  -- a reshape of a one-entry array reads its one entry
  have hsc : ∀ (y : S_.Idx → EReal) (i : S1x1.Idx), shapeCast S1x1 y shapeCasts_S_S1x1 i = y ix0 := by
    intro y i
    unfold shapeCast
    exact congrArg y (eq_ix0 _)
  rw [hsc]
  -- the host maximum from the bottom element over the four entries is their supremum
  rw [Cert.LibMax.hostReduceMax_total _ _ _ _ (fun b => b.elim0) (by
    show Ideal.ofBits .f32 0xFF800000#32 = ⊥
    simp [Ideal.ofBits, Ideal.ieee])]
  rw [sup_S4x1x1, arr_v5]
  simp only [K0.arr0]
  exact Cert.KBridge.sup_bmax _ _ (V3_x m ρ c)

/-! ## The result -/

/-- The kernel program's result buffer ends at the first closed form of the loss of the three arguments. -/
theorem result (c : Dev nD) :
    (W7 (F := Ideal) m ρ c (Proc.devRef .tc main_v12) : S_.Idx → EReal)
      = fun _ => Cert.Spec.lossK (m ((c : Thread nD τ).loc main_arg0)) (m ((c : Thread nD τ).loc main_arg1))
          (m ((c : Thread nD τ).loc main_arg2)) := by
  funext j
  rw [tail]
  show Ideal.div (Ideal.hostReduceAdd reducesTo_S4x1x1_S_d0_1_2 (W6 (F := Ideal) m ρ c (Proc.devRef .tc main_v8_0)) (Ideal.ofBits .f32 0x00000000#32) j)
      (max (Ideal.hostReduceAdd reducesTo_S4x1x1_S_d0_1_2 (W6 (F := Ideal) m ρ c (Proc.devRef .tc main_v8_1)) (Ideal.ofBits .f32 0x00000000#32) j)
        (Ideal.ofBits .f32 0x3F800000#32)) = _
  rw [Ideal.hostReduceAdd_total _ (fun b => b.elim0), Ideal.hostReduceAdd_total _ (fun b => b.elim0),
    Ideal.ofBits_zero_f32, zero_add, zero_add, one_f32, sum_S4x1x1, sum_S4x1x1, arr_v8_0, arr_v8_1]
  simp only [K1.arr4, K1.arr5]
  exact Cert.KBridge.lossK_of_flat _ _ _ _ _ _ _ (V5_x m ρ c) (V5_t m ρ c) (V5_max m ρ c) (V5_oh m ρ c)

end Cert.KernelIdeal.KHost

end
-- ==== Proof.RefRunHand.lean ====
/-
  The reference's run: every execution ends with the result at the last stage's value of the arguments, the
  arguments unchanged.
-/
import proofs.«404899_j12180527252165_2_alg».proof.Proof.RefRun
import proofs.«404899_j12180527252165_2_alg».proof.Proof.RefReadGen

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-!
  The program is a straight line of 63 operations, so the memory after it is the fold `after ops V` of the
  operations' results over the launch contents `V`. The list is cut into eight stretches. For each stretch `cK` and a
  GENERAL valuation `W`, given that `W` holds at the buffers the stretch reads the stages `val_…` of the three
  arguments `x0 x1 x2`, the valuation `after cK W` holds the stretch's own stages at the buffers later stretches read,
  and still holds the earlier stages that are read later on. Each such fact compares two SMALL terms: the earlier
  stages enter as hypotheses and are never unfolded. Composing the eight facts along
  `after (l₁ ++ l₂) V = after l₂ (after l₁ V)` gives the last stage at the result buffer. No operation writes an
  argument's buffer.
-/

open Cert.ReferenceIdeal.ValueP Cert.ReferenceIdeal.ReadP

/-! ## The eight stretches of the operation list -/

/-- Operations 1–8: the global maximum, the shifted exponentials `val_main_v3`, their transpose, and the zero table. -/
abbrev c1 : List (HloOp τ sig (Elt F)) :=
  [ nullary main_cst (constant S_ .f32 0xFF800000#32),
    binary main_arg0 main_cst main_v0 ((fun x v => Host.reduce FloatOps.maximumf x v reducesTo_S4x64x512x512_S_d0_1_2_3 h_S_) : (⟨S4x64x512x512, .f32⟩ : BufTy).Contents (Elt F) → (⟨S_, .f32⟩ : BufTy).Contents (Elt F) → (⟨S_, .f32⟩ : BufTy).Contents (Elt F)),
    unary main_v0 main_v1 (broadcastInDim S4x64x512x512 ![] bcast_S_S4x64x512x512 : (⟨S_, .f32⟩ : BufTy).Contents (Elt F) → (⟨S4x64x512x512, .f32⟩ : BufTy).Contents (Elt F)),
    binary main_arg0 main_v1 main_v2 (subf : (⟨S4x64x512x512, .f32⟩ : BufTy).Contents (Elt F) → (⟨S4x64x512x512, .f32⟩ : BufTy).Contents (Elt F) → (⟨S4x64x512x512, .f32⟩ : BufTy).Contents (Elt F)),
    unary main_v2 main_v3 (Host.exp : (⟨S4x64x512x512, .f32⟩ : BufTy).Contents (Elt F) → (⟨S4x64x512x512, .f32⟩ : BufTy).Contents (Elt F)),
    unary main_v3 main_v4 ((transpose S64x4x512x512 [1, 0, 2, 3] · transposes_S4x64x512x512_S64x4x512x512_1_0_2_3) : (⟨S4x64x512x512, .f32⟩ : BufTy).Contents (Elt F) → (⟨S64x4x512x512, .f32⟩ : BufTy).Contents (Elt F)),
    nullary main_cst_0 (constant S_ .f32 0x00000000#32),
    unary main_cst_0 main_v5 (broadcastInDim S20x4x512x512 ![] bcast_S_S20x4x512x512 : (⟨S_, .f32⟩ : BufTy).Contents (Elt F) → (⟨S20x4x512x512, .f32⟩ : BufTy).Contents (Elt F)) ]

/-- Operations 9–18: the scatter-add into the twenty rows, its logarithm, the logarithm of the row sums, and their difference `val_main_v14`. -/
abbrev c2 : List (HloOp τ sig (Elt F)) :=
  [ unary main_arg2 main_v6 (broadcastInDim S64x1 ![0] bcast_S64_S64x1_0 : (⟨S64, .i32⟩ : BufTy).Contents (Elt F) → (⟨S64x1, .i32⟩ : BufTy).Contents (Elt F)),
    ternary main_v5 main_v6 main_v4 main_v7 ((fun x i u => Host.scatterAdd scatter_S20x4x512x512_S64x1_S64x4x512x512_123_0_0_1 x i u) : (⟨S20x4x512x512, .f32⟩ : BufTy).Contents (Elt F) → (⟨S64x1, .i32⟩ : BufTy).Contents (Elt F) → (⟨S64x4x512x512, .f32⟩ : BufTy).Contents (Elt F) → (⟨S20x4x512x512, .f32⟩ : BufTy).Contents (Elt F)),
    unary main_v7 main_v8 ((transpose S4x20x512x512 [1, 0, 2, 3] · transposes_S20x4x512x512_S4x20x512x512_1_0_2_3) : (⟨S20x4x512x512, .f32⟩ : BufTy).Contents (Elt F) → (⟨S4x20x512x512, .f32⟩ : BufTy).Contents (Elt F)),
    unary main_v8 main_v9 (Host.log : (⟨S4x20x512x512, .f32⟩ : BufTy).Contents (Elt F) → (⟨S4x20x512x512, .f32⟩ : BufTy).Contents (Elt F)),
    nullary main_cst_1 (constant S_ .f32 0x00000000#32),
    binary main_v3 main_cst_1 main_v10 ((fun x v => Host.reduceAdd x v reducesTo_S4x64x512x512_S4x512x512_d1 h_S_) : (⟨S4x64x512x512, .f32⟩ : BufTy).Contents (Elt F) → (⟨S_, .f32⟩ : BufTy).Contents (Elt F) → (⟨S4x512x512, .f32⟩ : BufTy).Contents (Elt F)),
    unary main_v10 main_v11 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    unary main_v11 main_v12 (Host.log : (⟨S4x1x512x512, .f32⟩ : BufTy).Contents (Elt F) → (⟨S4x1x512x512, .f32⟩ : BufTy).Contents (Elt F)),
    unary main_v12 main_v13 (broadcastInDim S4x20x512x512 ![0, 1, 2, 3] bcast_S4x1x512x512_S4x20x512x512_0_1_2_3 : (⟨S4x1x512x512, .f32⟩ : BufTy).Contents (Elt F) → (⟨S4x20x512x512, .f32⟩ : BufTy).Contents (Elt F)),
    binary main_v9 main_v13 main_v14 (subf : (⟨S4x20x512x512, .f32⟩ : BufTy).Contents (Elt F) → (⟨S4x20x512x512, .f32⟩ : BufTy).Contents (Elt F) → (⟨S4x20x512x512, .f32⟩ : BufTy).Contents (Elt F)) ]

/-- Operations 19–26: the validity mask `val_main_v16` of the labels and the labels with the invalid ones replaced by zero, `val_main_v18`. -/
abbrev c3 : List (HloOp τ sig (Elt F)) :=
  [ nullary main_c (constantI S_ 32 255#32),
    unary main_c main_v15 (broadcastInDim S4x512x512 ![] bcast_S_S4x512x512 : (⟨S_, .i32⟩ : BufTy).Contents (Elt F) → (⟨S4x512x512, .i32⟩ : BufTy).Contents (Elt F)),
    binary main_arg1 main_v15 main_v16 (cmpi .ne : (⟨S4x512x512, .i32⟩ : BufTy).Contents (Elt F) → (⟨S4x512x512, .i32⟩ : BufTy).Contents (Elt F) → (⟨S4x512x512, .i1⟩ : BufTy).Contents (Elt F)),
    nullary main_c_2 (constantI S_ 32 0#32),
    TRef.unary (TRef.of (T := ⟨S_, .i32⟩) main_c_2) (TRef.of (T := ⟨S_, .i32⟩) main_call0_v0) id,
    TRef.unary (TRef.of (T := ⟨S_, .i32⟩) main_call0_v0) (TRef.of (T := ⟨S4x512x512, .i32⟩) main_call0_v1) (broadcastInDim S4x512x512 ![] bcast_S_S4x512x512),
    TRef.ternary (TRef.of (T := ⟨S4x512x512, .i1⟩) main_v16) (TRef.of (T := ⟨S4x512x512, .i32⟩) main_arg1) (TRef.of (T := ⟨S4x512x512, .i32⟩) main_call0_v1) (TRef.of (T := ⟨S4x512x512, .i32⟩) main_v17) select,
    unary main_v17 main_v18 (broadcastInDim S4x1x512x512 ![0, 2, 3] bcast_S4x512x512_S4x1x512x512_0_2_3 : (⟨S4x512x512, .i32⟩ : BufTy).Contents (Elt F) → (⟨S4x1x512x512, .i32⟩ : BufTy).Contents (Elt F)) ]

/-- Operations 27–34: the labels wrapped into range (negative ones shifted by twenty) and reshaped, `val_main_call1_v5`. -/
abbrev c4 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S4x1x512x512, .i32⟩) main_call1_v0) (broadcastInDim S4x1x512x512 ![] bcast_S_S4x1x512x512),
    TRef.binary (TRef.of (T := ⟨S4x1x512x512, .i32⟩) main_v18) (TRef.of (T := ⟨S4x1x512x512, .i32⟩) main_call1_v0) (TRef.of (T := ⟨S4x1x512x512, .i1⟩) main_call1_v1) (cmpi .slt),
    TRef.nullary (TRef.of (T := ⟨S_, .i32⟩) main_call1_c_0) (constantI S_ 32 20#32),
    TRef.unary (TRef.of (T := ⟨S_, .i32⟩) main_call1_c_0) (TRef.of (T := ⟨S4x1x512x512, .i32⟩) main_call1_v2) (broadcastInDim S4x1x512x512 ![] bcast_S_S4x1x512x512),
    TRef.binary (TRef.of (T := ⟨S4x1x512x512, .i32⟩) main_v18) (TRef.of (T := ⟨S4x1x512x512, .i32⟩) main_call1_v2) (TRef.of (T := ⟨S4x1x512x512, .i32⟩) main_call1_v3) addi,
    TRef.ternary (TRef.of (T := ⟨S4x1x512x512, .i1⟩) main_call1_v1) (TRef.of (T := ⟨S4x1x512x512, .i32⟩) main_call1_v3) (TRef.of (T := ⟨S4x1x512x512, .i32⟩) main_v18) (TRef.of (T := ⟨S4x1x512x512, .i32⟩) main_call1_v4) select,
    TRef.reshape (TRef.of (T := ⟨S4x1x512x512, .i32⟩) main_call1_v4) (TRef.of (T := ⟨S4x1x512x512x1, .i32⟩) main_call1_v5) rfl shapeCasts_S4x1x512x512_S4x1x512x512x1 ]

/-- Operations 35–44: the in-bounds test of the wrapped labels, `val_main_call1_v12`. -/
abbrev c5 : List (HloOp τ sig (Elt F)) :=
  [ TRef.nullary (TRef.of (T := ⟨S1, .i32⟩) main_call1_c_1) (constantI S1 32 19#32),
    TRef.nullary (TRef.of (T := ⟨S_, .i32⟩) main_call1_c_2) (constantI S_ 32 0#32),
    TRef.unary (TRef.of (T := ⟨S_, .i32⟩) main_call1_c_2) (TRef.of (T := ⟨S4x1x512x512x1, .i32⟩) main_call1_v6) (broadcastInDim S4x1x512x512x1 ![] bcast_S_S4x1x512x512x1),
    TRef.binary (TRef.of (T := ⟨S4x1x512x512x1, .i32⟩) main_call1_v5) (TRef.of (T := ⟨S4x1x512x512x1, .i32⟩) main_call1_v6) (TRef.of (T := ⟨S4x1x512x512x1, .i1⟩) main_call1_v7) (cmpi .sge),
    TRef.unary (TRef.of (T := ⟨S1, .i32⟩) main_call1_c_1) (TRef.of (T := ⟨S1x1x1x1x1, .i32⟩) main_call1_v8) (broadcastInDim S1x1x1x1x1 ![4] bcast_S1_S1x1x1x1x1_4),
    TRef.unary (TRef.of (T := ⟨S1x1x1x1x1, .i32⟩) main_call1_v8) (TRef.of (T := ⟨S4x1x512x512x1, .i32⟩) main_call1_v9) (broadcastInDim S4x1x512x512x1 ![0, 1, 2, 3, 4] bcast_S1x1x1x1x1_S4x1x512x512x1_0_1_2_3_4),
    TRef.binary (TRef.of (T := ⟨S4x1x512x512x1, .i32⟩) main_call1_v5) (TRef.of (T := ⟨S4x1x512x512x1, .i32⟩) main_call1_v9) (TRef.of (T := ⟨S4x1x512x512x1, .i1⟩) main_call1_v10) (cmpi .sle),
    TRef.binary (TRef.of (T := ⟨S4x1x512x512x1, .i1⟩) main_call1_v7) (TRef.of (T := ⟨S4x1x512x512x1, .i1⟩) main_call1_v10) (TRef.of (T := ⟨S4x1x512x512x1, .i1⟩) main_call1_v11) andi,
    TRef.nullary (TRef.of (T := ⟨S_, .i1⟩) main_call1_c_3) (constantI S_ 1 1#1),
    TRef.binary (TRef.of (T := ⟨S4x1x512x512x1, .i1⟩) main_call1_v11) (TRef.of (T := ⟨S_, .i1⟩) main_call1_c_3) (TRef.of (T := ⟨S4x1x512x512, .i1⟩) main_call1_v12) (fun x v => Host.reduce IntOp.andi x v reducesTo_S4x1x512x512x1_S4x1x512x512_d4 h_S_) ]

/-- Operations 45–49: the gather along the class axis, the out-of-bounds fill, and the reshape, `val_main_v20`. -/
abbrev c6 : List (HloOp τ sig (Elt F)) :=
  [ TRef.binary (TRef.of (T := ⟨S4x20x512x512, .f32⟩) main_v14) (TRef.of (T := ⟨S4x1x512x512x1, .i32⟩) main_call1_v5) (TRef.of (T := ⟨S4x1x512x512, .f32⟩) main_call1_v13) (fun x i => Host.gather gather_S4x20x512x512_S4x1x512x512x1_S4x1x512x512_n_1_023_023_1_4_1111 x i),
    TRef.nullary (TRef.of (T := ⟨S_, .f32⟩) main_call1_cst) (constant S_ .f32 0x7FC00000#32),
    TRef.unary (TRef.of (T := ⟨S_, .f32⟩) main_call1_cst) (TRef.of (T := ⟨S4x1x512x512, .f32⟩) main_call1_v14) (broadcastInDim S4x1x512x512 ![] bcast_S_S4x1x512x512),
    TRef.ternary (TRef.of (T := ⟨S4x1x512x512, .i1⟩) main_call1_v12) (TRef.of (T := ⟨S4x1x512x512, .f32⟩) main_call1_v13) (TRef.of (T := ⟨S4x1x512x512, .f32⟩) main_call1_v14) (TRef.of (T := ⟨S4x1x512x512, .f32⟩) main_v19) select,
    reshape main_v19 main_v20 rfl shapeCasts_S4x1x512x512_S4x512x512 ]

/-- Operations 50–54: the number of valid labels, at least one, `val_main_v23`. -/
abbrev c7 : List (HloOp τ sig (Elt F)) :=
  [ unary main_v16 main_v21 ((extui 32 · natLt_1_32) : (⟨S4x512x512, .i1⟩ : BufTy).Contents (Elt F) → (⟨S4x512x512, .i32⟩ : BufTy).Contents (Elt F)),
    nullary main_c_3 (constantI S_ 32 0#32),
    binary main_v21 main_c_3 main_v22 ((fun x v => Host.reduce IntOp.addi x v reducesTo_S4x512x512_S_d0_1_2 h_S_) : (⟨S4x512x512, .i32⟩ : BufTy).Contents (Elt F) → (⟨S_, .i32⟩ : BufTy).Contents (Elt F) → (⟨S_, .i32⟩ : BufTy).Contents (Elt F)),
    nullary main_c_4 (constantI S_ 32 1#32),
    binary main_v22 main_c_4 main_v23 (maxsi : (⟨S_, .i32⟩ : BufTy).Contents (Elt F) → (⟨S_, .i32⟩ : BufTy).Contents (Elt F) → (⟨S_, .i32⟩ : BufTy).Contents (Elt F)) ]

/-- Operations 55–63: the masked sum, its negation, and the quotient `val_main_v28`. -/
abbrev c8 : List (HloOp τ sig (Elt F)) :=
  [ nullary main_cst_5 (constant S_ .f32 0x00000000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S4x512x512, .f32⟩) main_call2_v1) (broadcastInDim S4x512x512 ![] bcast_S_S4x512x512),
    TRef.ternary (TRef.of (T := ⟨S4x512x512, .i1⟩) main_v16) (TRef.of (T := ⟨S4x512x512, .f32⟩) main_v20) (TRef.of (T := ⟨S4x512x512, .f32⟩) main_call2_v1) (TRef.of (T := ⟨S4x512x512, .f32⟩) main_v24) select,
    nullary main_cst_6 (constant S_ .f32 0x00000000#32),
    binary main_v24 main_cst_6 main_v25 ((fun x v => Host.reduceAdd x v reducesTo_S4x512x512_S_d0_1_2 h_S_) : (⟨S4x512x512, .f32⟩ : BufTy).Contents (Elt F) → (⟨S_, .f32⟩ : BufTy).Contents (Elt F) → (⟨S_, .f32⟩ : BufTy).Contents (Elt F)),
    unary main_v25 main_v26 (Host.negf : (⟨S_, .f32⟩ : BufTy).Contents (Elt F) → (⟨S_, .f32⟩ : BufTy).Contents (Elt F)),
    unary main_v23 main_v27 (sitofp .f32 : (⟨S_, .i32⟩ : BufTy).Contents (Elt F) → (⟨S_, .f32⟩ : BufTy).Contents (Elt F)),
    binary main_v26 main_v27 main_v28 (Host.divf : (⟨S_, .f32⟩ : BufTy).Contents (Elt F) → (⟨S_, .f32⟩ : BufTy).Contents (Elt F) → (⟨S_, .f32⟩ : BufTy).Contents (Elt F)) ]

/-- The operation list is its eight stretches in a row. -/
theorem ops_split : (ops : List (HloOp τ sig (Elt F))) = c1 ++ (c2 ++ (c3 ++ (c4 ++ (c5 ++ (c6 ++ (c7 ++ c8)))))) := rfl

/-! ## What each stretch leaves, over a general valuation -/

/-- The three arguments' contents types. -/
abbrev X0 (F : FTy → Type) : Type := (⟨S4x64x512x512, .f32⟩ : BufTy).Contents (Elt F)
abbrev X1 (F : FTy → Type) : Type := (⟨S4x512x512, .i32⟩ : BufTy).Contents (Elt F)
abbrev X2 (F : FTy → Type) : Type := (⟨S64, .i32⟩ : BufTy).Contents (Elt F)

/-- Stretch 1 reads the first argument only. -/
theorem step1 (W : Valuation τ sig (Elt F)) (x0 : X0 F) (x1 : X1 F) (x2 : X2 F)
    (a0 : W main_arg0 = x0) (a1 : W main_arg1 = x1) (a2 : W main_arg2 = x2) :
    after c1 W main_arg1 = x1 ∧ after c1 W main_arg2 = x2
      ∧ after c1 W main_v3 = val_main_v3 x0 ∧ after c1 W main_v4 = val_main_v4 x0
      ∧ after c1 W main_v5 = val_main_v5 (F := F) := by
  refine ⟨?_, ?_, ?_, ?_, ?_⟩
  · after_results_simp; exact a1
  · after_results_simp; exact a2
  · after_results_simp; rw [a0]; rfl
  · after_results_simp; rw [a0]; rfl
  · after_results_simp; rfl

/-- Stretch 2 reads the third argument, the exponentials, their transpose and the zero table. -/
theorem step2 (W : Valuation τ sig (Elt F)) (x0 : X0 F) (x1 : X1 F) (x2 : X2 F)
    (a1 : W main_arg1 = x1) (a2 : W main_arg2 = x2)
    (h3 : W main_v3 = val_main_v3 x0) (h4 : W main_v4 = val_main_v4 x0) (h5 : W main_v5 = val_main_v5 (F := F)) :
    after c2 W main_arg1 = x1 ∧ after c2 W main_v14 = val_main_v14 x0 x2 := by
  refine ⟨?_, ?_⟩
  · after_results_simp; exact a1
  · after_results_simp; rw [a2, h3, h4, h5]; rfl

/-- Stretch 3 reads the labels (the second argument) only. -/
theorem step3 (W : Valuation τ sig (Elt F)) (x0 : X0 F) (x1 : X1 F) (x2 : X2 F)
    (a1 : W main_arg1 = x1) (h14 : W main_v14 = val_main_v14 x0 x2) :
    after c3 W main_v14 = val_main_v14 x0 x2
      ∧ after c3 W main_v16 = val_main_v16 x1 ∧ after c3 W main_v18 = val_main_v18 x1 := by
  refine ⟨?_, ?_, ?_⟩
  · after_results_simp; exact h14
  · after_results_simp; rw [a1]; rfl
  · after_results_simp; simp only [TRef.ofBuf, TRef.toBuf, cast_eq]; rw [a1]; rfl

/-- Stretch 4 reads the cleaned labels only. -/
theorem step4 (W : Valuation τ sig (Elt F)) (x0 : X0 F) (x1 : X1 F) (x2 : X2 F)
    (h14 : W main_v14 = val_main_v14 x0 x2) (h16 : W main_v16 = val_main_v16 x1) (h18 : W main_v18 = val_main_v18 x1) :
    after c4 W main_v14 = val_main_v14 x0 x2 ∧ after c4 W main_v16 = val_main_v16 x1
      ∧ after c4 W main_call1_v5 = val_main_call1_v5 x1 := by
  refine ⟨?_, ?_, ?_⟩
  · after_results_simp; exact h14
  · after_results_simp; exact h16
  · after_results_simp; simp only [TRef.ofBuf, TRef.toBuf, cast_eq]; rw [h18]; rfl

/-- Stretch 5 reads the wrapped labels only. -/
theorem step5 (W : Valuation τ sig (Elt F)) (x0 : X0 F) (x1 : X1 F) (x2 : X2 F)
    (h14 : W main_v14 = val_main_v14 x0 x2) (h16 : W main_v16 = val_main_v16 x1)
    (k5 : W main_call1_v5 = val_main_call1_v5 x1) :
    after c5 W main_v14 = val_main_v14 x0 x2 ∧ after c5 W main_v16 = val_main_v16 x1
      ∧ after c5 W main_call1_v5 = val_main_call1_v5 x1 ∧ after c5 W main_call1_v12 = val_main_call1_v12 x1 := by
  refine ⟨?_, ?_, ?_, ?_⟩
  · after_results_simp; exact h14
  · after_results_simp; exact h16
  · after_results_simp; exact k5
  · after_results_simp; simp only [TRef.ofBuf, TRef.toBuf, cast_eq]; rw [k5]; rfl

/-- Stretch 6 reads the log-probabilities, the wrapped labels and their in-bounds test. -/
theorem step6 (W : Valuation τ sig (Elt F)) (x0 : X0 F) (x1 : X1 F) (x2 : X2 F)
    (h14 : W main_v14 = val_main_v14 x0 x2) (h16 : W main_v16 = val_main_v16 x1)
    (k5 : W main_call1_v5 = val_main_call1_v5 x1) (k12 : W main_call1_v12 = val_main_call1_v12 x1) :
    after c6 W main_v16 = val_main_v16 x1 ∧ after c6 W main_v20 = val_main_v20 x0 x1 x2 := by
  refine ⟨?_, ?_⟩
  · after_results_simp; exact h16
  · after_results_simp; simp only [TRef.ofBuf, TRef.toBuf, cast_eq]; rw [h14, k5, k12]; rfl

/-- Stretch 7 reads the validity mask only. -/
theorem step7 (W : Valuation τ sig (Elt F)) (x0 : X0 F) (x1 : X1 F) (x2 : X2 F)
    (h16 : W main_v16 = val_main_v16 x1) (h20 : W main_v20 = val_main_v20 x0 x1 x2) :
    after c7 W main_v16 = val_main_v16 x1 ∧ after c7 W main_v20 = val_main_v20 x0 x1 x2
      ∧ after c7 W main_v23 = val_main_v23 x1 := by
  refine ⟨?_, ?_, ?_⟩
  · after_results_simp; exact h16
  · after_results_simp; exact h20
  · after_results_simp; rw [h16]; rfl

/-- Stretch 8 reads the mask, the gathered values and the count. -/
theorem step8 (W : Valuation τ sig (Elt F)) (x0 : X0 F) (x1 : X1 F) (x2 : X2 F)
    (h16 : W main_v16 = val_main_v16 x1) (h20 : W main_v20 = val_main_v20 x0 x1 x2)
    (h23 : W main_v23 = val_main_v23 x1) :
    after c8 W main_v28 = val_main_v28 x0 x1 x2 := by
  after_results_simp; simp only [TRef.ofBuf, TRef.toBuf, cast_eq]; rw [h16, h20, h23]; rfl

/-! ## The whole list -/

/-- After the 63 operations the result buffer holds the last stage of the arguments' contents. -/
theorem after_ops (V : Valuation τ sig (Elt F)) :
    after (ops (F := F)) V main_v28 = val_main_v28 (V main_arg0) (V main_arg1) (V main_arg2) := by
  rw [ops_split]
  simp only [after_append]
  obtain ⟨b1, b2, h3, h4, h5⟩ := step1 V _ _ _ rfl rfl rfl
  obtain ⟨d1, h14⟩ := step2 _ _ _ _ b1 b2 h3 h4 h5
  obtain ⟨e14, e16, e18⟩ := step3 _ _ _ _ d1 h14
  obtain ⟨f14, f16, f5⟩ := step4 _ _ _ _ e14 e16 e18
  obtain ⟨g14, g16, g5, g12⟩ := step5 _ _ _ _ f14 f16 f5
  obtain ⟨i16, i20⟩ := step6 _ _ _ _ g14 g16 g5 g12
  obtain ⟨j16, j20, j23⟩ := step7 _ _ _ _ i16 i20
  exact step8 _ _ _ _ j16 j20 j23

/-- No operation writes an argument's buffer. -/
theorem after_ops_arg0 (V : Valuation τ sig (Elt F)) : after (ops (F := F)) V main_arg0 = V main_arg0 := by
  after_results_simp
theorem after_ops_arg1 (V : Valuation τ sig (Elt F)) : after (ops (F := F)) V main_arg1 = V main_arg1 := by
  after_results_simp
theorem after_ops_arg2 (V : Valuation τ sig (Elt F)) : after (ops (F := F)) V main_arg2 = V main_arg2 := by
  after_results_simp

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
          = Cert.ReferenceIdeal.ReadP.val_main_v28 (F := F) (m ((c.tc : Thread nD τ).loc main_arg0))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c main_v28).trans (after_ops (launchContents m c)),
      (h c main_arg0).trans (after_ops_arg0 (launchContents m c)),
      (h c main_arg1).trans (after_ops_arg1 (launchContents m c)),
      (h c main_arg2).trans (after_ops_arg2 (launchContents m c))⟩)
    (run_seq scopedRefs_eq scopedSems_eq defs main (fun _ => ops) main_eq (fun _ => ops_sub) m ρ)

end Cert.ReferenceIdeal.RunHand

end
-- ==== Proof.LibScatterGatherAxis.lean ====
/-
  Two host operations whose reads depend on integer data, read at an index over the extended reals.

  An accumulating scatter of E slabs [A, B, C] into a stack of N slabs: slab e is added into the slab its index
  word names, the word read as a signed integer, and is dropped when that is outside [0, N). And the gather that
  picks, at every position (a, b, c) of an [A, N, B, C] array, one entry along the second axis: the one the index
  word at that position names, read as a signed integer and clamped into [0, N - 1]. Both are stated for arbitrary
  extents, from the dimension numbers alone.
-/
import Idealize.ShloMosaic.PureOps.Ideal
import Idealize.ShloMosaic.PureOps.Ideal.Laws
import Idealize.ShloMosaic.Lib.ValueIdx

noncomputable section

open scoped BigOperators

namespace Cert.LibAxis

open Idealize.ShloMosaic Idealize.ShloMosaic.ValueIdx

/-! ## Rank-4 indices: equality by coordinates, and a sum over them as a quadruple sum -/

/-- Two rank-4 indices built from coordinates are equal exactly when the coordinates are. -/
theorem ix4_inj {n0 n1 n2 n3 : Nat} {a a' : Fin n0} {b b' : Fin n1} {c c' : Fin n2} {e e' : Fin n3} :
    ix4 a b c e = ix4 a' b' c' e' ↔ a = a' ∧ b = b' ∧ c = c' ∧ e = e' := by
  constructor
  · intro h
    exact ⟨congrFun h 0, congrFun h 1, congrFun h 2, congrFun h 3⟩
  · rintro ⟨rfl, rfl, rfl, rfl⟩
    rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the quadruple sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ e : Fin n3, f (ix4 a b c e) := by
  rw [← Equiv.sum_comp (idxEquiv4 (n0 := n0) (n1 := n1) (n2 := n2) (n3 := n3)).symm f]
  simp only [Fintype.sum_prod_type]
  rfl

/-! ## The scatter of slabs: where update index `j` lands -/

section Slabs

variable {N E A B C w : Nat}

/-- On the stack's first axis the window starts at the index word of slab `j 0`, read as a signed integer. -/
theorem slabs_start_zero (d : ScatterDims ⟨4, ![N, A, B, C]⟩ ⟨2, ![E, 1]⟩ ⟨4, ![E, A, B, C]⟩)
    (huw : d.updateWindowDims = [1, 2, 3]) (hiw : d.insertedWindowDims = [0]) (hsd : d.scatterDimsToOperandDims = [0])
    (hivd : d.indexVectorDim = 1) (j : (⟨4, ![E, A, B, C]⟩ : Shape).Idx) (idx : IVec ⟨2, ![E, 1]⟩ w) :
    d.start j idx 0 = (idx (ix2 (j 0) 0)).toInt := by
  obtain ⟨uw, iw, sd, iv, wf⟩ := d
  simp only at huw hiw hsd hivd
  subst huw hiw hsd hivd
  unfold ScatterDims.start
  split
  · refine congrArg (fun p => (idx p).toInt) ?_
    funext q
    apply Fin.ext
    match q with
    | ⟨0, _⟩ => rfl
    | ⟨1, _⟩ => rfl
  · rename_i hn
    exact absurd (List.mem_singleton.mpr rfl) hn

/-- On the three slab axes the window starts at 0: the index vector names the first axis only. -/
theorem slabs_start_succ (d : ScatterDims ⟨4, ![N, A, B, C]⟩ ⟨2, ![E, 1]⟩ ⟨4, ![E, A, B, C]⟩)
    (hsd : d.scatterDimsToOperandDims = [0]) (j : (⟨4, ![E, A, B, C]⟩ : Shape).Idx) (idx : IVec ⟨2, ![E, 1]⟩ w)
    (k : Fin 4) (hk : k ≠ 0) : d.start j idx k = 0 := by
  unfold ScatterDims.start
  rw [dif_neg (by rw [hsd]; exact fun h => hk (List.mem_singleton.mp h))]

/-- The window coordinate on the stack's first axis is 0: that axis is inserted. -/
theorem slabs_window_zero (d : ScatterDims ⟨4, ![N, A, B, C]⟩ ⟨2, ![E, 1]⟩ ⟨4, ![E, A, B, C]⟩)
    (hiw : d.insertedWindowDims = [0]) (j : (⟨4, ![E, A, B, C]⟩ : Shape).Idx) : d.window j 0 = 0 := by
  unfold ScatterDims.window
  rw [dif_neg]
  intro h
  have h' := (List.mem_filter.mp h).2
  rw [hiw] at h'
  simp at h'

/-- The window coordinate on a slab axis is the update index's coordinate on that axis. -/
theorem slabs_window_succ (d : ScatterDims ⟨4, ![N, A, B, C]⟩ ⟨2, ![E, 1]⟩ ⟨4, ![E, A, B, C]⟩)
    (huw : d.updateWindowDims = [1, 2, 3]) (hiw : d.insertedWindowDims = [0]) (hsd : d.scatterDimsToOperandDims = [0])
    (hivd : d.indexVectorDim = 1) (j : (⟨4, ![E, A, B, C]⟩ : Shape).Idx) :
    d.window j 1 = (j 1).val ∧ d.window j 2 = (j 2).val ∧ d.window j 3 = (j 3).val := by
  obtain ⟨uw, iw, sd, iv, wf⟩ := d
  simp only at huw hiw hsd hivd
  subst huw hiw hsd hivd
  exact ⟨rfl, rfl, rfl⟩

end Slabs

/-- Where update index `j` lands: at the stack's index (n, a, b, c) exactly when the index word of slab `j 0`, read as a
    signed integer, is n and `j`'s coordinates inside the slab are (a, b, c). A word outside [0, N) lands nowhere. -/
theorem slabs_resultIdx?_eq_some_iff {N E A B C w : Nat} (d : ScatterDims ⟨4, ![N, A, B, C]⟩ ⟨2, ![E, 1]⟩ ⟨4, ![E, A, B, C]⟩)
    (huw : d.updateWindowDims = [1, 2, 3]) (hiw : d.insertedWindowDims = [0]) (hsd : d.scatterDimsToOperandDims = [0])
    (hivd : d.indexVectorDim = 1) (j : (⟨4, ![E, A, B, C]⟩ : Shape).Idx) (idx : IVec ⟨2, ![E, 1]⟩ w)
    (n : Fin N) (a : Fin A) (b : Fin B) (c : Fin C) :
    d.resultIdx? j idx = some (ix4 n a b c)
      ↔ (idx (ix2 (j 0) 0)).toInt = (n.val : Int) ∧ j 1 = a ∧ j 2 = b ∧ j 3 = c := by
  have hs0 := slabs_start_zero d huw hiw hsd hivd j idx
  have hw0 := slabs_window_zero d hiw j
  obtain ⟨hw1, hw2, hw3⟩ := slabs_window_succ d huw hiw hsd hivd j
  have hs1 := slabs_start_succ d hsd j idx 1 (by decide)
  have hs2 := slabs_start_succ d hsd j idx 2 (by decide)
  have hs3 := slabs_start_succ d hsd j idx 3 (by decide)
  have e0 : d.start j idx 0 + (d.window j 0 : Int) = (idx (ix2 (j 0) 0)).toInt := by rw [hs0, hw0]; simp
  have e1 : d.start j idx 1 + (d.window j 1 : Int) = ((j 1).val : Int) := by rw [hs1, hw1]; simp
  have e2 : d.start j idx 2 + (d.window j 2 : Int) = ((j 2).val : Int) := by rw [hs2, hw2]; simp
  have e3 : d.start j idx 3 + (d.window j 3 : Int) = ((j 3).val : Int) := by rw [hs3, hw3]; simp
  have l1 : (j 1).val < A := (j 1).isLt
  have l2 : (j 2).val < B := (j 2).isLt
  have l3 : (j 3).val < C := (j 3).isLt
  unfold ScatterDims.resultIdx?
  constructor
  · intro h
    split at h
    · rename_i hall
      have hi := Option.some.inj h
      have c0 : (d.start j idx 0 + (d.window j 0 : Int)).toNat = n.val := congrArg Fin.val (congrFun hi 0)
      have c1 : (d.start j idx 1 + (d.window j 1 : Int)).toNat = a.val := congrArg Fin.val (congrFun hi 1)
      have c2 : (d.start j idx 2 + (d.window j 2 : Int)).toNat = b.val := congrArg Fin.val (congrFun hi 2)
      have c3 : (d.start j idx 3 + (d.window j 3 : Int)).toNat = c.val := congrArg Fin.val (congrFun hi 3)
      have p0 : 0 ≤ d.start j idx 0 + (d.window j 0 : Int) := (hall 0).1
      rw [e0] at c0 p0
      rw [e1] at c1
      rw [e2] at c2
      rw [e3] at c3
      rw [Int.toNat_natCast] at c1 c2 c3
      refine ⟨?_, Fin.ext c1, Fin.ext c2, Fin.ext c3⟩
      rw [← c0, Int.toNat_of_nonneg p0]
    · exact absurd h (by simp)
  · rintro ⟨ht, ha, hb, hc⟩
    have hall : ∀ k : Fin 4, 0 ≤ d.start j idx k + (d.window j k : Int) ∧
        d.start j idx k + (d.window j k : Int) < ((⟨4, ![N, A, B, C]⟩ : Shape).size k : Int) := by
      intro k
      match k with
      | ⟨0, _⟩ =>
        show 0 ≤ d.start j idx 0 + (d.window j 0 : Int) ∧ d.start j idx 0 + (d.window j 0 : Int) < (N : Int)
        rw [e0, ht]
        have := n.isLt
        omega
      | ⟨1, _⟩ =>
        show 0 ≤ d.start j idx 1 + (d.window j 1 : Int) ∧ d.start j idx 1 + (d.window j 1 : Int) < (A : Int)
        rw [e1]
        omega
      | ⟨2, _⟩ =>
        show 0 ≤ d.start j idx 2 + (d.window j 2 : Int) ∧ d.start j idx 2 + (d.window j 2 : Int) < (B : Int)
        rw [e2]
        omega
      | ⟨3, _⟩ =>
        show 0 ≤ d.start j idx 3 + (d.window j 3 : Int) ∧ d.start j idx 3 + (d.window j 3 : Int) < (C : Int)
        rw [e3]
        omega
    rw [dif_pos hall]
    congr 1
    funext k
    apply Fin.ext
    match k with
    | ⟨0, _⟩ =>
      show (d.start j idx 0 + (d.window j 0 : Int)).toNat = n.val
      rw [e0, ht, Int.toNat_natCast]
    | ⟨1, _⟩ =>
      show (d.start j idx 1 + (d.window j 1 : Int)).toNat = a.val
      rw [e1, Int.toNat_natCast, ha]
    | ⟨2, _⟩ =>
      show (d.start j idx 2 + (d.window j 2 : Int)).toNat = b.val
      rw [e2, Int.toNat_natCast, hb]
    | ⟨3, _⟩ =>
      show (d.start j idx 3 + (d.window j 3 : Int)).toNat = c.val
      rw [e3, Int.toNat_natCast, hc]

/-! ## The two reads -/

/-- The accumulating scatter of slabs read at (n, a, b, c): the stack's entry plus the sum, over the slabs e whose
    index word is n (read signed; a word outside [0, N) matches no n), of slab e's entry (a, b, c). -/
theorem scatterAdd_slabs {φ : FTy} {N E A B C : Nat}
    (d : ScatterDims ⟨4, ![N, A, B, C]⟩ ⟨2, ![E, 1]⟩ ⟨4, ![E, A, B, C]⟩)
    (huw : d.updateWindowDims = [1, 2, 3]) (hiw : d.insertedWindowDims = [0]) (hsd : d.scatterDimsToOperandDims = [0])
    (hivd : d.indexVectorDim = 1)
    (x : FVec Ideal ⟨4, ![N, A, B, C]⟩ φ) (idx : IVec ⟨2, ![E, 1]⟩ 32) (upd : FVec Ideal ⟨4, ![E, A, B, C]⟩ φ)
    (n : Fin N) (a : Fin A) (b : Fin B) (c : Fin C) :
    Host.scatterAdd (F := Ideal) d x idx upd (ix4 n a b c)
      = x (ix4 n a b c) + ∑ e : Fin E, if (idx (ix2 e 0)).toInt = (n.val : Int) then upd (ix4 e a b c) else 0 := by
  show Ideal.hostScatterAdd d x idx upd (ix4 n a b c) = _
  unfold Ideal.hostScatterAdd
  congr 1
  rw [← Finset.sum_filter]
  have key : ∀ j : (⟨4, ![E, A, B, C]⟩ : Shape).Idx, d.resultIdx? j idx = some (ix4 n a b c) → ix4 (j 0) a b c = j := by
    intro j hj
    have h := (slabs_resultIdx?_eq_some_iff d huw hiw hsd hivd j idx n a b c).mp hj
    rw [← h.2.1, ← h.2.2.1, ← h.2.2.2]
    exact (eq_ix4 j).symm
  refine Finset.sum_bij' (fun j _ => j 0) (fun e _ => ix4 e a b c) ?_ ?_ ?_ ?_ ?_
  · intro j hj
    have h := (slabs_resultIdx?_eq_some_iff d huw hiw hsd hivd j idx n a b c).mp (Finset.mem_filter.mp hj).2
    exact Finset.mem_filter.mpr ⟨Finset.mem_univ _, h.1⟩
  · intro e he
    refine Finset.mem_filter.mpr ⟨Finset.mem_univ _, ?_⟩
    exact (slabs_resultIdx?_eq_some_iff d huw hiw hsd hivd _ idx n a b c).mpr ⟨(Finset.mem_filter.mp he).2, rfl, rfl, rfl⟩
  · intro j hj
    exact key j (Finset.mem_filter.mp hj).2
  · intro e _
    rfl
  · intro j hj
    exact congrArg upd (key j (Finset.mem_filter.mp hj).2).symm

/-- The gather along the second axis read at (a, 0, b, c): the array's entry at (a, k, b, c), k the index word at
    (a, 0, b, c, 0) read as a signed integer and clamped into [0, N - 1]. -/
theorem gather_axis1 {α : Type} {A N B C w : Nat} (hN : 0 < N)
    (d : GatherDims ⟨4, ![A, N, B, C]⟩ ⟨5, ![A, 1, B, C, 1]⟩ ⟨4, ![A, 1, B, C]⟩)
    (hoff : d.offsetDims = []) (hcoll : d.collapsedSliceDims = [1]) (hob : d.operandBatchingDims = [0, 2, 3])
    (hsb : d.startIndicesBatchingDims = [0, 2, 3]) (hsim : d.startIndexMap = [1]) (hivd : d.indexVectorDim = 4)
    (hss : d.sliceSizes = ![1, 1, 1, 1])
    (x : (⟨4, ![A, N, B, C]⟩ : Shape).Idx → α) (idx : IVec ⟨5, ![A, 1, B, C, 1]⟩ w) (a : Fin A) (b : Fin B) (c : Fin C) :
    Host.gather d x idx (ix4 a 0 b c)
      = x (ix4 a ⟨min (idx (ix5 a 0 b c 0)).toInt.toNat (N - 1), by omega⟩ b c) := by
  obtain ⟨od, cd, ob, sb, sm, iv, ss, wf⟩ := d
  simp only at hoff hcoll hob hsb hsim hivd hss
  subst hoff hcoll hob hsb hsim hivd hss
  have hb0 : (0 : Fin 4) ∈ ([0, 2, 3] : List (Fin 4)) := by decide
  have hb1 : (1 : Fin 4) ∉ ([0, 2, 3] : List (Fin 4)) := by decide
  have hb2 : (2 : Fin 4) ∈ ([0, 2, 3] : List (Fin 4)) := by decide
  have hb3 : (3 : Fin 4) ∈ ([0, 2, 3] : List (Fin 4)) := by decide
  unfold Host.gather
  congr 1
  funext k
  apply Fin.ext
  match k with
  | ⟨0, _⟩ =>
    show GatherDims.start _ _ idx _ + GatherDims.batchCoord _ _ _ + GatherDims.offCoord _ _ _ = _
    rw [GatherDims.start_batching _ _ _ _ hb0,
      GatherDims.offCoord_eq_zero _ _ _ (fun h => ((GatherDims.mem_sKept _ _).mp h).2 hb0)]
    simp only [Nat.zero_add, Nat.add_zero]
    rfl
  | ⟨1, _⟩ =>
    show GatherDims.start _ _ idx _ + GatherDims.batchCoord _ _ _ + GatherDims.offCoord _ _ _ = _
    rw [GatherDims.batchCoord_eq_zero _ _ _ hb1,
      GatherDims.offCoord_eq_zero _ _ _ (fun h => ((GatherDims.mem_sKept _ _).mp h).1 (List.mem_singleton.mpr rfl))]
    simp only [Nat.add_zero]
    unfold GatherDims.start
    split
    · refine congrArg (fun p => min (idx p).toInt.toNat (N - 1)) ?_
      funext q
      apply Fin.ext
      match q with
      | ⟨0, _⟩ => rfl
      | ⟨1, _⟩ => rfl
      | ⟨2, _⟩ => rfl
      | ⟨3, _⟩ => rfl
      | ⟨4, _⟩ => rfl
    · rename_i hn
      exact absurd (List.mem_singleton.mpr rfl) hn
  | ⟨2, _⟩ =>
    show GatherDims.start _ _ idx _ + GatherDims.batchCoord _ _ _ + GatherDims.offCoord _ _ _ = _
    rw [GatherDims.start_batching _ _ _ _ hb2,
      GatherDims.offCoord_eq_zero _ _ _ (fun h => ((GatherDims.mem_sKept _ _).mp h).2 hb2)]
    simp only [Nat.zero_add, Nat.add_zero]
    rfl
  | ⟨3, _⟩ =>
    show GatherDims.start _ _ idx _ + GatherDims.batchCoord _ _ _ + GatherDims.offCoord _ _ _ = _
    rw [GatherDims.start_batching _ _ _ _ hb3,
      GatherDims.offCoord_eq_zero _ _ _ (fun h => ((GatherDims.mem_sKept _ _).mp h).2 hb3)]
    simp only [Nat.zero_add, Nat.add_zero]
    rfl

end Cert.LibAxis

end
-- ==== Proof.RefValue.lean ====
/-
  The reference's result is the second closed form of the loss.

  The stages are read bottom-up, each at explicit coordinates. The first stage is a maximum folded from minus
  infinity over every score, which is the supremum of the scores. The shifted exponentials follow elementwise. The
  accumulating scatter into twenty zero slabs adds channel c's slab into the slab its class word names, so slab n at a
  pixel is the sum of the exponentials of the channels of class n; the normaliser sums all sixty-four channels. On
  the domain the label with the ignore value replaced by 0 is a class: it is not negative, so the wrap of negative
  indices leaves it alone, it passes the range test [0, 19], and the gather's clamp leaves it alone; hence the gather
  picks the label's class. A pixel's term is that picked value where the label is valid and zero elsewhere. The sum
  over the pixel indices is the triple sum over the coordinates. The word sum of the widened mask bits is at most
  4 · 512 · 512 = 2²⁰, so it does not wrap and is the number of valid pixels; its signed maximum with 1, read as a
  signed integer, is the natural number max (count, 1).
-/
import proofs.«404899_j12180527252165_2_alg».proof.Proof.RefReadGen
import proofs.«404899_j12180527252165_2_alg».proof.Proof.LibScatterGatherAxis
import proofs.«404899_j12180527252165_2_alg».proof.Proof.Spec
import Idealize.ShloMosaic.Lib.ValueIdx
import Idealize.ShloMosaic.PureOps.Ideal.Laws
import Idealize.ShloMosaic.PureOps.Reduce
import Idealize.ShloMosaic.Lib.StableHlo.Predicate

noncomputable section

open scoped BigOperators

namespace Cert.RefValue

open Cert.ReferenceIdeal Cert.ReferenceIdeal.Gen Cert.ReferenceIdeal.ReadP Idealize.ShloMosaic Idealize.ShloMosaic.ValueIdx
open Idealize.ShloMosaic.StableHlo.Predicate

/-! ## The composed index functions at coordinates -/

theorem idx_v4_ix (c : Fin 64) (b : Fin 4) (h w : Fin 512) : idx_main_v4 (ix4 c b h w) = ix4 b c h w :=
  funext fun a => Fin.ext (by match a with | ⟨0, _⟩ => rfl | ⟨1, _⟩ => rfl | ⟨2, _⟩ => rfl | ⟨3, _⟩ => rfl)

theorem idx_v8_ix (b : Fin 4) (n : Fin 20) (h w : Fin 512) : idx_main_v8 (ix4 b n h w) = ix4 n b h w :=
  funext fun a => Fin.ext (by match a with | ⟨0, _⟩ => rfl | ⟨1, _⟩ => rfl | ⟨2, _⟩ => rfl | ⟨3, _⟩ => rfl)

theorem idx_v6_ix (c : Fin 64) : idx_main_v6 (ix2 c (0 : Fin 1)) = ix1 c :=
  funext fun a => Fin.ext (by match a with | ⟨0, _⟩ => rfl)

theorem idx_v10_ix (b : Fin 4) (h w : Fin 512) (k : Fin 64) : idx_main_v10 (ix3 b h w) k = ix4 b k h w :=
  funext fun a => Fin.ext (by match a with | ⟨0, _⟩ => rfl | ⟨1, _⟩ => rfl | ⟨2, _⟩ => rfl | ⟨3, _⟩ => rfl)

theorem idx_v11_ix (b : Fin 4) (h w : Fin 512) : idx_main_v11 (ix4 b (0 : Fin 1) h w) = ix3 b h w :=
  funext fun a => Fin.ext (by match a with | ⟨0, _⟩ => rfl | ⟨1, _⟩ => rfl | ⟨2, _⟩ => rfl)

theorem idx_v13_ix (b : Fin 4) (n : Fin 20) (h w : Fin 512) : idx_main_v13 (ix4 b n h w) = ix4 b (0 : Fin 1) h w :=
  funext fun a => Fin.ext (by match a with | ⟨0, _⟩ => rfl | ⟨1, _⟩ => rfl | ⟨2, _⟩ => rfl | ⟨3, _⟩ => rfl)

/-! ## The largest score -/

/-- The word of minus infinity is the bottom element. -/
theorem ofBits_neg_inf : Ideal.ofBits .f32 0xFF800000#32 = (⊥ : EReal) := by
  simp [Ideal.ofBits, Ideal.ieee]

/-- A maximum folded from the bottom element over every index is the supremum of the scores. -/
theorem v0_eq (x : Cert.Spec.SX.Idx → EReal) (j : S_.Idx) : val_main_v0 (F := Ideal) x j = Cert.Spec.gmax x := by
  unfold val_main_v0
  rw [Host.reduce_eq_fold, Finset.filter_true_of_mem (fun i _ => funext fun a => a.elim0), val_main_cst_apply,
    Ideal.ofBits_def, ofBits_neg_inf]
  rfl

/-! ## The shifted exponentials, the class sums and the normaliser -/

theorem v3_eq (x : Cert.Spec.SX.Idx → EReal) (b : Fin 4) (c : Fin 64) (h w : Fin 512) :
    val_main_v3 (F := Ideal) x (ix4 b c h w) = Cert.Spec.ex x b c h w := by
  rw [val_main_v3_apply, val_main_v2_apply, val_main_v1_apply, v0_eq]
  rfl

theorem v10_eq (x : Cert.Spec.SX.Idx → EReal) (b : Fin 4) (h w : Fin 512) :
    val_main_v10 (F := Ideal) x (ix3 b h w) = Cert.Spec.esumR x b h w := by
  rw [val_main_v10_apply, val_main_cst_1_apply, Ideal.ofBits_def, Ideal.ofBits_zero_f32, zero_add]
  unfold Cert.Spec.esumR
  exact Finset.sum_congr rfl fun k _ => by rw [idx_v10_ix, v3_eq]

/-- A class word below 20, read as a signed integer, is n exactly when it is the word of n. -/
theorem grp_toInt_iff (v : BitVec 32) (hv : v.toNat < 20) (n : Fin 20) :
    v.toInt = (n.val : Int) ↔ v = BitVec.ofNat 32 n.val := by
  have hn := n.isLt
  rw [toInt_eq_toNat_of_lt (by omega)]
  constructor
  · intro e
    apply BitVec.eq_of_toNat_eq
    rw [BitVec.toNat_ofNat]
    omega
  · intro e
    rw [e, BitVec.toNat_ofNat]
    omega

/-- The accumulating scatter into twenty zero slabs, transposed back: class n's sum at a pixel. -/
theorem v8_eq (x : Cert.Spec.SX.Idx → EReal) (g : Cert.Spec.SG.Idx → BitVec 32) (hg : ∀ i, (g i).toNat < 20)
    (b : Fin 4) (n : Fin 20) (h w : Fin 512) :
    val_main_v8 (F := Ideal) x g (ix4 b n h w) = Cert.Spec.ori x g b n h w := by
  rw [val_main_v8_apply, idx_v8_ix]
  unfold val_main_v7
  rw [Cert.LibAxis.scatterAdd_slabs (φ := .f32) scatter_S20x4x512x512_S64x1_S64x4x512x512_123_0_0_1 rfl rfl rfl rfl,
    val_main_v5_apply, val_main_cst_0_apply, Ideal.ofBits_def, Ideal.ofBits_zero_f32, zero_add]
  unfold Cert.Spec.ori
  refine Finset.sum_congr rfl fun c _ => ?_
  rw [val_main_v6_apply, idx_v6_ix, val_main_v4_apply, idx_v4_ix, v3_eq]
  exact if_congr (grp_toInt_iff _ (hg _) n) rfl rfl

/-- The log of a class sum minus the log of the normaliser. -/
theorem v14_eq (x : Cert.Spec.SX.Idx → EReal) (g : Cert.Spec.SG.Idx → BitVec 32) (hg : ∀ i, (g i).toNat < 20)
    (b : Fin 4) (n : Fin 20) (h w : Fin 512) :
    val_main_v14 (F := Ideal) x g (ix4 b n h w)
      = Ideal.log (Cert.Spec.ori x g b n h w) - Ideal.log (Cert.Spec.esumR x b h w) := by
  rw [val_main_v14_apply, val_main_v9_apply, v8_eq x g hg, val_main_v13_apply, idx_v13_ix, val_main_v12_apply,
    val_main_v11_apply, idx_v11_ix, v10_eq]
  rfl

/-! ## The label, and the gather along the class axis -/

theorem cmpi_ne_eq_one_iff (a b : BitVec 32) : IntOp.cmpi .ne a b = 1#1 ↔ a ≠ b := by
  simp only [IntOp.cmpi, ofBool_eq_one_iff, bne_iff_ne]

/-- A select on "the two words differ" is the `if` on that. -/
theorem select_ne {α : Type} (a b : BitVec 32) (A B : α) :
    Scalar.select (IntOp.cmpi .ne a b) A B = if a ≠ b then A else B := by
  unfold Scalar.select
  exact if_congr (cmpi_ne_eq_one_iff a b) rfl rfl

theorem idx_v18_ix (b : Fin 4) (h w : Fin 512) : idx_main_v18 (ix4 b (0 : Fin 1) h w) = ix3 b h w :=
  funext fun a => Fin.ext (by match a with | ⟨0, _⟩ => rfl | ⟨1, _⟩ => rfl | ⟨2, _⟩ => rfl)

theorem idx_c1v5_ix (b : Fin 4) (h w : Fin 512) :
    idx_main_call1_v5 (ix5 b (0 : Fin 1) h w (0 : Fin 1)) = ix4 b (0 : Fin 1) h w := by
  have hb := b.isLt; have hh := h.isLt; have hw := w.isLt
  funext a
  apply Fin.ext
  match a with
  | ⟨0, _⟩ => show ((((b.val * 1 + 0) * 512 + h.val) * 512 + w.val) * 1 + 0) / 262144 = b.val; omega
  | ⟨1, _⟩ => rfl
  | ⟨2, _⟩ => show ((((b.val * 1 + 0) * 512 + h.val) * 512 + w.val) * 1 + 0) / 512 % 512 = h.val; omega
  | ⟨3, _⟩ => show ((((b.val * 1 + 0) * 512 + h.val) * 512 + w.val) * 1 + 0) % 512 = w.val; omega

theorem idx_v20_ix (b : Fin 4) (h w : Fin 512) : idx_main_v20 (ix3 b h w) = ix4 b (0 : Fin 1) h w := by
  have hb := b.isLt; have hh := h.isLt; have hw := w.isLt
  funext a
  apply Fin.ext
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

theorem v17_eq (t : Cert.Spec.ST.Idx → BitVec 32) (b : Fin 4) (h w : Fin 512) :
    val_main_v17 (F := Ideal) t (ix3 b h w) = Cert.Spec.lbl t b h w := by
  rw [val_main_v17_apply, val_main_v16_apply, val_main_v15_apply, val_main_c_apply, val_main_call0_v1_apply,
    val_main_call0_v0_apply, val_main_c_2_apply, select_ne]
  rfl

/-- On the domain the label with the ignore value replaced is a class. -/
theorem lbl_lt (t : Cert.Spec.ST.Idx → BitVec 32) (hl : ∀ i, t i = 255#32 ∨ (t i).toNat < 20) (b : Fin 4) (h w : Fin 512) :
    (Cert.Spec.lbl t b h w).toNat < 20 := by
  unfold Cert.Spec.lbl
  split_ifs with hne
  · exact (hl _).resolve_left hne
  · decide

/-- A class is not negative, so the wrap of a negative index leaves it alone. -/
theorem c1v4_eq (t : Cert.Spec.ST.Idx → BitVec 32) (hl : ∀ i, t i = 255#32 ∨ (t i).toNat < 20) (b : Fin 4) (h w : Fin 512) :
    val_main_call1_v4 (F := Ideal) t (ix4 b (0 : Fin 1) h w) = Cert.Spec.lbl t b h w := by
  have hlt := lbl_lt t hl b h w
  have h0 : IntOp.cmpi .slt (Cert.Spec.lbl t b h w) 0#32 = 0#1 :=
    eq_zero_of_ne_one fun e => Nat.not_lt_zero _ ((slt_iff_toNat (by omega) (by decide)).1 e)
  rw [val_main_call1_v4_apply, val_main_call1_v1_apply, val_main_call1_v0_apply, val_main_call1_c_apply,
    val_main_v18_apply, idx_v18_ix, v17_eq, h0, select_zero]

theorem c1v5_eq (t : Cert.Spec.ST.Idx → BitVec 32) (hl : ∀ i, t i = 255#32 ∨ (t i).toNat < 20) (b : Fin 4) (h w : Fin 512) :
    val_main_call1_v5 (F := Ideal) t (ix5 b (0 : Fin 1) h w (0 : Fin 1)) = Cert.Spec.lbl t b h w := by
  rw [val_main_call1_v5_apply, idx_c1v5_ix, c1v4_eq t hl]

/-- A class lies in [0, 19], so the range test holds at every position. -/
theorem c1v11_one (t : Cert.Spec.ST.Idx → BitVec 32) (hl : ∀ i, t i = 255#32 ∨ (t i).toNat < 20) (i : S4x1x512x512x1.Idx) :
    val_main_call1_v11 (F := Ideal) t i = 1#1 := by
  obtain ⟨b, z, h, w, z', rfl⟩ : ∃ (b : Fin 4) (z : Fin 1) (h w : Fin 512) (z' : Fin 1), i = ix5 b z h w z' :=
    ⟨i 0, i 1, i 2, i 3, i 4, eq_ix5 i⟩
  obtain rfl : z = 0 := Subsingleton.elim _ _
  obtain rfl : z' = 0 := Subsingleton.elim _ _
  have hlt := lbl_lt t hl b h w
  rw [val_main_call1_v11_apply, val_main_call1_v7_apply, val_main_call1_v10_apply, c1v5_eq t hl,
    val_main_call1_v6_apply, val_main_call1_c_2_apply, val_main_call1_v9_apply, val_main_call1_v8_apply,
    val_main_call1_c_1_apply,
    (sge_iff_toNat (by omega) (by decide)).2 (Nat.zero_le _),
    (sle_iff_toNat (by omega) (by decide)).2 (by show _ ≤ 19; omega)]
  rfl

theorem fold_andi_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons.2 (Or.inl rfl)), ih fun i hi => hf i (Finset.mem_cons.2 (Or.inr hi))]
    rfl

theorem c1v12_one (t : Cert.Spec.ST.Idx → BitVec 32) (hl : ∀ i, t i = 255#32 ∨ (t i).toNat < 20) (j : S4x1x512x512.Idx) :
    val_main_call1_v12 (F := Ideal) t j = 1#1 := by
  unfold val_main_call1_v12
  rw [Host.reduce_eq_fold, val_main_call1_c_3_apply]
  exact fold_andi_one _ _ fun i _ => c1v11_one t hl i

/-- The gather picks the label's class: the clamp into [0, 19] leaves a class alone. -/
theorem c1v13_eq (x : Cert.Spec.SX.Idx → EReal) (t : Cert.Spec.ST.Idx → BitVec 32) (g : Cert.Spec.SG.Idx → BitVec 32)
    (hl : ∀ i, t i = 255#32 ∨ (t i).toNat < 20) (b : Fin 4) (h w : Fin 512) :
    val_main_call1_v13 (F := Ideal) x t g (ix4 b (0 : Fin 1) h w)
      = val_main_v14 (F := Ideal) x g (ix4 b (Cert.Spec.lblFin t b h w) h w) := by
  have hlt := lbl_lt t hl b h w
  unfold val_main_call1_v13
  rw [Cert.LibAxis.gather_axis1 (by decide) gather_S4x20x512x512_S4x1x512x512x1_S4x1x512x512_n_1_023_023_1_4_1111
    rfl rfl rfl rfl rfl rfl rfl]
  refine congrArg (val_main_v14 (F := Ideal) x g) (congrArg (fun k => ix4 b k h w) (Fin.ext ?_))
  show min (val_main_call1_v5 (F := Ideal) t (ix5 b (0 : Fin 1) h w (0 : Fin 1))).toInt.toNat (20 - 1)
    = (Cert.Spec.lbl t b h w).toNat % 20
  rw [c1v5_eq t hl, toInt_eq_toNat_of_lt (by omega)]
  omega

theorem v20_eq (x : Cert.Spec.SX.Idx → EReal) (t : Cert.Spec.ST.Idx → BitVec 32) (g : Cert.Spec.SG.Idx → BitVec 32)
    (hl : ∀ i, t i = 255#32 ∨ (t i).toNat < 20) (hg : ∀ i, (g i).toNat < 20) (b : Fin 4) (h w : Fin 512) :
    val_main_v20 (F := Ideal) x t g (ix3 b h w)
      = Ideal.log (Cert.Spec.ori x g b (Cert.Spec.lblFin t b h w) h w) - Ideal.log (Cert.Spec.esumR x b h w) := by
  rw [val_main_v20_apply, idx_v20_ix, val_main_v19_apply, c1v12_one t hl, select_one, c1v13_eq x t g hl, v14_eq x g hg]

/-- A pixel's term: the picked log-probability where the label is valid, zero elsewhere. -/
theorem v24_eq (x : Cert.Spec.SX.Idx → EReal) (t : Cert.Spec.ST.Idx → BitVec 32) (g : Cert.Spec.SG.Idx → BitVec 32)
    (hl : ∀ i, t i = 255#32 ∨ (t i).toNat < 20) (hg : ∀ i, (g i).toNat < 20) (b : Fin 4) (h w : Fin 512) :
    val_main_v24 (F := Ideal) x t g (ix3 b h w) = Cert.Spec.termR x t g b h w := by
  rw [val_main_v24_apply, val_main_v16_apply, val_main_v15_apply, val_main_c_apply, select_ne, v20_eq x t g hl hg,
    val_main_call2_v1_apply, val_main_call2_v0_apply, val_main_cst_5_apply, Ideal.ofBits_def, Ideal.ofBits_zero_f32]
  rfl

/-! ## The sum over the pixels, and their count -/

/-- A pixel index is its three coordinates. -/
def idxEquiv3 : Cert.Spec.ST.Idx ≃ Fin 4 × Fin 512 × Fin 512 where
  toFun i := (i 0, i 1, i 2)
  invFun p := ix3 p.1 p.2.1 p.2.2
  left_inv i := (eq_ix3 i).symm
  right_inv _ := rfl

theorem sum_idx3 {M : Type} [AddCommMonoid M] (f : Cert.Spec.ST.Idx → M) :
    ∑ i, f i = ∑ b : Fin 4, ∑ h : Fin 512, ∑ w : Fin 512, f (ix3 b h w) := by
  rw [← Equiv.sum_comp idxEquiv3.symm f, Fintype.sum_prod_type]
  refine Finset.sum_congr rfl fun b _ => ?_
  rw [Fintype.sum_prod_type]
  rfl

theorem v25_eq (x : Cert.Spec.SX.Idx → EReal) (t : Cert.Spec.ST.Idx → BitVec 32) (g : Cert.Spec.SG.Idx → BitVec 32)
    (hl : ∀ i, t i = 255#32 ∨ (t i).toNat < 20) (hg : ∀ i, (g i).toNat < 20) (j : S_.Idx) :
    val_main_v25 (F := Ideal) x t g j = ∑ b : Fin 4, ∑ h : Fin 512, ∑ w : Fin 512, Cert.Spec.termR x t g b h w := by
  rw [val_main_v25_apply, val_main_cst_6_apply, Ideal.ofBits_def, Ideal.ofBits_zero_f32, zero_add, sum_idx3]
  exact Finset.sum_congr rfl fun b _ => Finset.sum_congr rfl fun h _ => Finset.sum_congr rfl fun w _ =>
    v24_eq x t g hl hg b h w

/-- The widened mask bit is 1 at a valid pixel and 0 at an ignored one. -/
theorem v21_toNat (t : Cert.Spec.ST.Idx → BitVec 32) (i : Cert.Spec.ST.Idx) :
    (val_main_v21 (F := Ideal) t i).toNat = if t i ≠ 255#32 then 1 else 0 := by
  rw [val_main_v21_apply, toNat_setWidth_bit, val_main_v16_apply, val_main_v15_apply, val_main_c_apply]
  exact if_congr (cmpi_ne_eq_one_iff _ _) rfl rfl

theorem sum_v21 (t : Cert.Spec.ST.Idx → BitVec 32) :
    ∑ i, (val_main_v21 (F := Ideal) t i).toNat = Cert.Spec.cnt t := by
  unfold Cert.Spec.cnt
  rw [Finset.card_filter, ← Equiv.sum_comp idxEquiv3.symm]
  exact Finset.sum_congr rfl fun q _ => v21_toNat t _

/-- There are 4 · 512 · 512 pixels. -/
theorem cnt_le (t : Cert.Spec.ST.Idx → BitVec 32) : Cert.Spec.cnt t ≤ 1048576 := by
  unfold Cert.Spec.cnt
  refine (Finset.card_le_univ _).trans ?_
  simp [Fintype.card_prod, Fintype.card_fin]

/-- The word sum of the mask does not wrap, so it is the count. -/
theorem v22_toNat (t : Cert.Spec.ST.Idx → BitVec 32) (j : S_.Idx) :
    (val_main_v22 (F := Ideal) t j).toNat = Cert.Spec.cnt t := by
  classical
  have hle := cnt_le t
  unfold val_main_v22
  rw [Host.reduce_eq_fold, Finset.filter_true_of_mem (fun i _ => funext fun a => a.elim0), val_main_c_3_apply,
    toNat_fold_addi _ _ (by rw [sum_v21]; omega), sum_v21]

/-- The signed maximum with 1 of a count below 2³¹, read signed. -/
theorem v23_toInt (t : Cert.Spec.ST.Idx → BitVec 32) (j : S_.Idx) :
    (val_main_v23 (F := Ideal) t j).toInt = ((max (Cert.Spec.cnt t) 1 : ℕ) : Int) := by
  have hc := v22_toNat t j
  have hle := cnt_le t
  rw [val_main_v23_apply, val_main_c_4_apply]
  generalize val_main_v22 (F := Ideal) t j = a at hc ⊢
  have ha : a.toInt = a.toNat := toInt_eq_toNat_of_lt (by omega)
  have h1 : (1#32 : BitVec 32).toInt = 1 := by decide
  unfold IntOp.maxsi
  simp only [BitVec.slt, ha, h1, decide_eq_true_eq]
  split_ifs with hlt
  · rw [ha, hc]; omega
  · rw [h1]; omega

theorem v27_eq (t : Cert.Spec.ST.Idx → BitVec 32) (j : S_.Idx) :
    val_main_v27 (F := Ideal) t j = (((max (Cert.Spec.cnt t) 1 : ℕ) : ℝ) : EReal) := by
  rw [val_main_v27_apply]
  show (((val_main_v23 (F := Ideal) t j).toInt : ℝ) : EReal) = _
  rw [v23_toInt, Int.cast_natCast]

/-- On the domain the reference's last stage is the second closed form, at its one index. -/
theorem val_eq (x : Cert.Spec.SX.Idx → EReal) (t : Cert.Spec.ST.Idx → BitVec 32) (g : Cert.Spec.SG.Idx → BitVec 32)
    (hd : Cert.Spec.Dom x t g) :
    val_main_v28 (F := Ideal) x t g = fun _ => Cert.Spec.lossR x t g := by
  funext j
  rw [val_main_v28_apply, val_main_v26_apply, v25_eq x t g hd.lab hd.grp, v27_eq]
  rfl

end Cert.RefValue

end
-- ==== Proof.PreDecode.lean ====
/-
  The precondition, read: finite scores, labels 255 or below 20, channel classes below 20.

  The precondition is the conjunction of three "all" tests, each a reduction by "and" of a one-bit array into a
  single bit. The conjunction being 1 makes each reduction 1, and a reduction by "and" that is 1 met a 1 at every index.
  At an index the three bits say: |x| < +inf over the extended reals, which excludes both infinities; the label equals
  255, or is at least 0 and below 20 as a signed word; the class is at least 0 and below 20 as a signed word. A signed
  word that is at least 0 has its top bit clear, so it reads the same unsigned, and the unsigned bound follows.
-/
import proofs.«404899_j12180527252165_2_alg».proof.Proof.Spec
import proofs.«404899_j12180527252165_2_alg».proof.Pre_finite_inputs
import proofs.«404899_j12180527252165_2_alg».proof.Proof.Gen.Pre_finite_inputs
import Idealize.ShloMosaic.Lib.ReduceAll
import Idealize.ShloMosaic.Lib.StableHlo.Predicate

noncomputable section

namespace Cert.PreDecode

open Idealize.ShloMosaic Idealize.ShloMosaic.ValueIdx

/-- The f32 pattern 0x7F800000 denotes +inf. -/
theorem inf_bits : Ideal.ofBits .f32 0x7F800000#32 = (⊤ : EReal) := by
  simp [Ideal.ofBits, Ideal.ieee]

/-- An extended real whose absolute value max a (-a) is below +inf is neither infinity. -/
theorem finite_of_abs_lt_top {a : EReal} (h : max a (-a) < ⊤) : a ≠ ⊤ ∧ a ≠ ⊥ := by
  obtain ⟨h1, h2⟩ := max_lt_iff.1 h
  refine ⟨ne_of_lt h1, ?_⟩
  intro hb
  rw [hb, EReal.neg_bot] at h2
  exact lt_irrefl _ h2

/-- A 32-bit word that is at least 0 and below 20 as a signed number is below 20 as an unsigned one. -/
theorem toNat_lt_twenty {a : BitVec 32} (h0 : (0#32 : BitVec 32).toInt ≤ a.toInt)
    (h1 : a.toInt < (20#32 : BitVec 32).toInt) : a.toNat < 20 := by
  have z : (0#32 : BitVec 32).toInt = 0 := by decide
  have w : (20#32 : BitVec 32).toInt = 20 := by decide
  rw [z] at h0
  rw [w] at h1
  have hn : 2 * a.toNat < 2 ^ 32 := BitVec.toInt_pos_iff.1 h0
  rw [BitVec.toInt_eq_toNat_of_lt hn] at h1
  omega

theorem dom_of_pre (x : Cert.Spec.SX.Idx → EReal) (t : Cert.Spec.ST.Idx → BitVec 32) (g : Cert.Spec.SG.Idx → BitVec 32)
    (h : Cert.Pre_finite_inputs.fn (F := Ideal) x t g = fun _ => 1#1) : Cert.Spec.Dom x t g := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  -- the conjunction of the three reductions
  obtain ⟨h12, h3⟩ := IntOp.andi_eq_one.1 h0
  obtain ⟨h1, h2⟩ := IntOp.andi_eq_one.1 h12
  -- each reduction by "and" is 1, so each of its elements is
  have e1 := Host.reduce_andi_all _ _ _ _ _ h1
  have e2 := Host.reduce_andi_all _ _ _ _ _ h2
  have e3 := Host.reduce_andi_all _ _ _ _ _ h3
  refine ⟨fun i => ?_, fun i => ?_, fun i => ?_⟩
  · -- |x i| < +inf
    have e : BitVec.ofBool (decide (max (x i) (-(x i)) < Ideal.ofBits .f32 0x7F800000#32)) = 1#1 := e1 i
    rw [StableHlo.Predicate.ofBool_eq_one_iff, decide_eq_true_eq, inf_bits] at e
    exact finite_of_abs_lt_top e
  · -- t i = 255, or 0 ≤ t i < 20
    have e : IntOp.ori (IntOp.cmpi .eq (t i) 255#32)
        (IntOp.andi (IntOp.cmpi .sge (t i) 0#32) (IntOp.cmpi .slt (t i) 20#32)) = 1#1 := e2 i
    rcases IntOp.ori_eq_one.1 e with h255 | hr
    · exact Or.inl (IntOp.cmpi_eq.1 h255)
    · obtain ⟨hge, hlt⟩ := IntOp.andi_eq_one.1 hr
      exact Or.inr (toNat_lt_twenty (IntOp.cmpi_sge.1 hge) (IntOp.cmpi_slt.1 hlt))
  · -- 0 ≤ g i < 20
    have e : IntOp.andi (IntOp.cmpi .sge (g i) 0#32) (IntOp.cmpi .slt (g i) 20#32) = 1#1 := e3 i
    obtain ⟨hge, hlt⟩ := IntOp.andi_eq_one.1 e
    exact toNat_lt_twenty (IntOp.cmpi_sge.1 hge) (IntOp.cmpi_slt.1 hlt)

end Cert.PreDecode

end
-- ==== Proof.Algebra.lean ====
/-
  The two closed forms of the loss agree on the domain.

  The steps: (1) summing the twenty class sums is summing the sixty-four channels, because every channel
  has exactly one class below 20; (2) the one-hot pick of the label's class sum is the class sum at the
  label; (3) so a pixel's term in the first form is minus its term in the second; (4) the sum over the
  flat position p = 512 h + w is the double sum over h and w; (5) minus passes through the sums, because
  no term of the second form is the top element: it is log of a nonnegative real minus log of a positive
  real; (6) the count's maximum with one is the same in the naturals and in the extended reals.
-/
import proofs.«404899_j12180527252165_2_alg».proof.Proof.Spec
import Mathlib.Data.EReal.Basic
import Mathlib.Data.EReal.Operations
import Mathlib.Algebra.BigOperators.Group.Finset.Basic
import Mathlib.Algebra.BigOperators.Group.Finset.Sigma
import Mathlib.Algebra.BigOperators.Group.Finset.Piecewise
import Mathlib.Algebra.Order.BigOperators.Group.Finset
import Mathlib.Data.Finset.Lattice.Fold
import Mathlib.Analysis.Complex.Exponential

noncomputable section

open scoped BigOperators

namespace Cert.Spec

open Idealize.ShloMosaic Idealize.ShloMosaic.ValueIdx

/-! ### Finite sums in the extended reals -/

/-- The coercion from the reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of terms none of which is the top element is not the top element. -/
theorem sum_ne_top {ι : Type*} (s : Finset ι) (f : ι → EReal) (h : ∀ i ∈ s, f i ≠ ⊤) :
    ∑ i ∈ s, f i ≠ ⊤ := by
  classical
  induction s using Finset.induction_on with
  | empty => simp
  | insert a s ha ih =>
    rw [Finset.sum_insert ha]
    exact EReal.add_ne_top (h a (Finset.mem_insert_self a s))
      (ih fun i hi => h i (Finset.mem_insert_of_mem hi))

/-- Negation passes through a finite sum none of whose terms is the top element. -/
theorem sum_neg {ι : Type*} (s : Finset ι) (f : ι → EReal) (h : ∀ i ∈ s, f i ≠ ⊤) :
    ∑ i ∈ s, -f i = -∑ i ∈ s, f i := by
  classical
  induction s using Finset.induction_on with
  | empty => simp
  | insert a s ha ih =>
    have h1 : f a ≠ ⊤ := h a (Finset.mem_insert_self a s)
    have h2 : ∀ i ∈ s, f i ≠ ⊤ := fun i hi => h i (Finset.mem_insert_of_mem hi)
    rw [Finset.sum_insert ha, Finset.sum_insert ha, ih h2,
      EReal.neg_add (Or.inr (sum_ne_top s f h2)) (Or.inl h1), sub_eq_add_neg]

/-! ### The logarithm at a real -/

/-- The logarithm of a real is never the top element. -/
theorem log_coe_ne_top (r : ℝ) : Ideal.log (r : EReal) ≠ ⊤ := by
  rw [Ideal.log_coe]
  split_ifs
  · exact bot_ne_top
  · exact EReal.coe_ne_top _

/-- The logarithm of a positive real is the real logarithm. -/
theorem log_coe_of_pos {r : ℝ} (hr : 0 < r) : Ideal.log (r : EReal) = (Real.log r : EReal) := by
  rw [Ideal.log_coe, if_neg (not_le.mpr hr)]

/-! ### Words against class numbers -/

/-- A 32-bit word below 20 is the word of exactly one class number, its own value. -/
theorem ofNat_eq_iff (v : BitVec 32) (hv : v.toNat < 20) (n : Fin 20) :
    BitVec.ofNat 32 n.val = v ↔ n = ⟨v.toNat, hv⟩ := by
  rw [← BitVec.toNat_inj, BitVec.toNat_ofNat, Fin.ext_iff]
  have := n.isLt
  simp only
  omega

/-! ### The count -/

/-- The larger of a count and one, taken in the extended reals or in the naturals. -/
theorem count_eq (n : ℕ) : max ((n : ℝ) : EReal) 1 = (((max n 1 : ℕ) : ℝ) : EReal) := by
  rw [Nat.cast_max, EReal.coe_strictMono.monotone.map_max, Nat.cast_one, EReal.coe_one]

/-! ### The flat position -/

/-- The flat position p = 512 h + w, as an equivalence between pairs (h, w) and positions. -/
def flatEquiv : Fin 512 × Fin 512 ≃ Fin 262144 where
  toFun q := ⟨512 * q.1.val + q.2.val, by have := q.1.isLt; have := q.2.isLt; omega⟩
  invFun p := (hOf p, wOf p)
  left_inv q := by
    have h1 := q.1.isLt
    have h2 := q.2.isLt
    apply Prod.ext <;> apply Fin.ext <;> simp only [hOf, wOf] <;> omega
  right_inv p := by
    apply Fin.ext
    simp only [hOf, wOf]
    omega

/-- A sum over the flat position is the double sum over row and column. -/
theorem sum_flat (F : Fin 512 → Fin 512 → EReal) :
    ∑ p : Fin 262144, F (hOf p) (wOf p) = ∑ h : Fin 512, ∑ w : Fin 512, F h w := by
  rw [← Fintype.sum_prod_type',
    ← Equiv.sum_comp flatEquiv.symm (fun q : Fin 512 × Fin 512 => F q.1 q.2)]
  rfl

section Values
variable (x : SX.Idx → EReal) (t : ST.Idx → BitVec 32) (g : SG.Idx → BitVec 32)

/-! ### The largest score is a real -/

theorem gmax_ne_top (hx : ∀ i, x i ≠ ⊤ ∧ x i ≠ ⊥) : gmax x ≠ ⊤ := by
  have h : gmax x < ⊤ := by
    unfold gmax
    rw [Finset.sup_lt_iff bot_lt_top]
    intro i _
    exact lt_top_iff_ne_top.mpr (hx i).1
  exact h.ne

theorem gmax_ne_bot (hx : ∀ i, x i ≠ ⊤ ∧ x i ≠ ⊥) : gmax x ≠ ⊥ := by
  have h0 : x (ix4 (0 : Fin 4) (0 : Fin 64) (0 : Fin 512) (0 : Fin 512)) ≤ gmax x :=
    Finset.le_sup (f := x) (Finset.mem_univ _)
  intro h
  rw [h, le_bot_iff] at h0
  exact (hx _).2 h0

/-! ### The shifted exponentials are positive reals -/

/-- The real value of the shifted exponential at (b, c, h, w). -/
def exr (b : Fin 4) (c : Fin 64) (h w : Fin 512) : ℝ :=
  Real.exp ((x (ix4 b c h w)).toReal - (gmax x).toReal)

theorem exr_pos (b : Fin 4) (c : Fin 64) (h w : Fin 512) : 0 < exr x b c h w := Real.exp_pos _

theorem ex_eq (hx : ∀ i, x i ≠ ⊤ ∧ x i ≠ ⊥) (b : Fin 4) (c : Fin 64) (h w : Fin 512) :
    ex x b c h w = (exr x b c h w : EReal) := by
  unfold ex exr
  obtain ⟨r, hr⟩ : ∃ r : ℝ, x (ix4 b c h w) = r :=
    ⟨_, (EReal.coe_toReal (hx _).1 (hx _).2).symm⟩
  obtain ⟨m, hm⟩ : ∃ m : ℝ, gmax x = m :=
    ⟨_, (EReal.coe_toReal (gmax_ne_top x hx) (gmax_ne_bot x hx)).symm⟩
  rw [hr, hm, EReal.toReal_coe, EReal.toReal_coe, ← EReal.coe_sub, Ideal.exp_coe]

/-- The channel sum is a positive real. -/
theorem esumR_eq (hx : ∀ i, x i ≠ ⊤ ∧ x i ≠ ⊥) (b : Fin 4) (h w : Fin 512) :
    esumR x b h w = ((∑ c : Fin 64, exr x b c h w : ℝ) : EReal) := by
  unfold esumR
  rw [coe_sum]
  exact Finset.sum_congr rfl fun c _ => ex_eq x hx b c h w

theorem esumR_pos (b : Fin 4) (h w : Fin 512) : 0 < ∑ c : Fin 64, exr x b c h w :=
  Finset.sum_pos (fun c _ => exr_pos x b c h w) Finset.univ_nonempty

/-- A class sum is a real. -/
theorem ori_eq (hx : ∀ i, x i ≠ ⊤ ∧ x i ≠ ⊥) (b : Fin 4) (n : Fin 20) (h w : Fin 512) :
    ori x g b n h w
      = ((∑ c : Fin 64, if g (ix1 c) = BitVec.ofNat 32 n.val then exr x b c h w else 0 : ℝ) : EReal) := by
  unfold ori
  rw [coe_sum]
  refine Finset.sum_congr rfl fun c _ => ?_
  split_ifs
  · exact ex_eq x hx b c h w
  · exact EReal.coe_zero.symm

/-- No term of the second form is the top element. -/
theorem termR_ne_top (hx : ∀ i, x i ≠ ⊤ ∧ x i ≠ ⊥) (b : Fin 4) (h w : Fin 512) :
    termR x t g b h w ≠ ⊤ := by
  unfold termR
  split_ifs
  · rw [ori_eq x g hx, esumR_eq x hx, log_coe_of_pos (esumR_pos x b h w), sub_eq_add_neg,
      ← EReal.coe_neg]
    exact EReal.add_ne_top (log_coe_ne_top _) (EReal.coe_ne_top _)
  · exact EReal.zero_ne_top

/-! ### The two normalisers and the two picks -/

/-- Summing the class sums is summing the channels: each channel is in exactly one class. -/
theorem esumK_eq_esumR (hg : ∀ i, (g i).toNat < 20) (b : Fin 4) (h w : Fin 512) :
    esumK x g b h w = esumR x b h w := by
  unfold esumK esumR ori
  rw [Finset.sum_comm]
  refine Finset.sum_congr rfl fun c _ => ?_
  have key : ∀ n : Fin 20,
      (g (ix1 c) = BitVec.ofNat 32 n.val) ↔ n = ⟨(g (ix1 c)).toNat, hg _⟩ := fun n => by
    rw [eq_comm]
    exact ofNat_eq_iff _ _ n
  simp only [key, Finset.sum_ite_eq', Finset.mem_univ, if_true]

/-- The label, with the ignore value replaced by 0, is below 20. -/
theorem lbl_lt (hl : ∀ i, t i = 255#32 ∨ (t i).toNat < 20) (b : Fin 4) (h w : Fin 512) :
    (lbl t b h w).toNat < 20 := by
  unfold lbl
  split_ifs with h1
  · exact (hl _).resolve_left h1
  · decide

/-- The one-hot pick of the label's class sum is the class sum at the label. -/
theorem pickK_eq (hl : ∀ i, t i = 255#32 ∨ (t i).toNat < 20) (b : Fin 4) (h w : Fin 512) :
    pickK x t g b h w = ori x g b (lblFin t b h w) h w := by
  unfold pickK
  have e : lblFin t b h w = ⟨(lbl t b h w).toNat, lbl_lt t hl b h w⟩ :=
    Fin.ext (Nat.mod_eq_of_lt (lbl_lt t hl b h w))
  have key : ∀ n : Fin 20, (BitVec.ofNat 32 n.val = lbl t b h w) ↔ n = lblFin t b h w := fun n => by
    rw [e]
    exact ofNat_eq_iff _ _ n
  simp only [key, Finset.sum_ite_eq', Finset.mem_univ, if_true]

/-- A pixel's term in the first form is minus its term in the second. -/
theorem termK_eq (hd : Dom x t g) (b : Fin 4) (h w : Fin 512) :
    termK x t g b h w = -termR x t g b h w := by
  unfold termK termR
  split_ifs
  · rw [pickK_eq x t g hd.lab, esumK_eq_esumR x g hd.grp, zero_sub]
  · exact neg_zero.symm

/-- The first form's sum of terms is minus the second form's. -/
theorem sumK_eq (hd : Dom x t g) :
    ∑ b : Fin 4, ∑ p : Fin 262144, termK x t g b (hOf p) (wOf p)
      = -(∑ b : Fin 4, ∑ h : Fin 512, ∑ w : Fin 512, termR x t g b h w) := by
  have hT : ∀ (b : Fin 4) (h w : Fin 512), termR x t g b h w ≠ ⊤ :=
    fun b h w => termR_ne_top x t g hd.fin b h w
  have hflat : ∀ b : Fin 4, ∑ p : Fin 262144, termK x t g b (hOf p) (wOf p)
      = -∑ h : Fin 512, ∑ w : Fin 512, termR x t g b h w := by
    intro b
    rw [sum_flat (fun h w => termK x t g b h w),
      ← sum_neg _ _ (fun h _ => sum_ne_top _ _ (fun w _ => hT b h w))]
    refine Finset.sum_congr rfl fun h _ => ?_
    rw [← sum_neg _ _ (fun w _ => hT b h w)]
    exact Finset.sum_congr rfl fun w _ => termK_eq x t g hd b h w
  rw [Finset.sum_congr rfl (fun b _ => hflat b)]
  exact sum_neg _ _ (fun b _ => sum_ne_top _ _ fun h _ => sum_ne_top _ _ fun w _ => hT b h w)

end Values

variable (x : SX.Idx → EReal) (t : ST.Idx → BitVec 32) (g : SG.Idx → BitVec 32)

theorem lossK_eq_lossR (hd : Dom x t g) : lossK x t g = lossR x t g := by
  unfold lossK lossR
  rw [count_eq, sumK_eq x t g hd]

end Cert.Spec

end
-- ==== Proof.lean ====
/-
  A masked mean negative log-likelihood over twenty classes, computed two ways from scores x : [4, 64, 512, 512],
  labels t : [4, 512, 512] (255 = ignore) and the class g : [64] of each of the 64 channels.

  Both programs shift the scores by their largest M and exponentiate, e = exp (x - M); sum the channels class by
  class, ori[n] = the sum of e over the channels of class n; take at each pixel log ori[label] - log (sum of e over
  the channels); and average minus that over the pixels whose label is not ignored (dividing by at least one).

  The reference does this with one maximum over everything, an accumulating scatter of the channels into their
  classes, a sum over the channel axis, a gather of the label's class along the class axis, one sum over all pixels
  negated afterwards, and an integer count. The kernel flattens the pixels, finds M as the largest of the four
  images' largest scores (each a running maximum over sixteen blocks), forms the class sums as a product of a
  zero-one table with the exponentials, takes the normaliser as the sum of the twenty class sums, picks the label's
  class sum by comparing every class with the label, negates each pixel's term as 0 - term before it is summed
  block by block and image by image, and counts in floating point.

  On the extended reals these agree exactly when the classes partition the channels (every g below 20: then the
  twenty class sums add up to the sum over the channels), every label is 255 or below 20 (then comparing picks
  exactly the gathered class), and every score is finite (then every term is a real number or minus infinity,
  never plus infinity, so negating the terms and then summing is negating the sum). Those three facts are the
  precondition (Proof/PreDecode.lean reads them off it); the two closed forms and their equality are
  Proof/Spec.lean and Proof/Algebra.lean; that the reference computes the second form is Proof/RefValue.lean over
  its run Proof/RefRunHand.lean; that the kernel computes the first is Proof/KHost.lean over the two launches'
  values Proof/K0.lean and Proof/K1.lean. The idealization rewrote nothing, so the word-level program is kept
  only through its frame.
-/
import proofs.«404899_j12180527252165_2_alg».proof.Defs
import proofs.«404899_j12180527252165_2_alg».proof.Proof.Gen.Kernel
import proofs.«404899_j12180527252165_2_alg».proof.Proof.Gen.Kernel.Frame
import proofs.«404899_j12180527252165_2_alg».proof.Proof.Gen.KernelIdeal
import proofs.«404899_j12180527252165_2_alg».proof.Proof.Gen.KernelIdeal.Frame
import proofs.«404899_j12180527252165_2_alg».proof.Proof.Gen.ReferenceIdeal
import proofs.«404899_j12180527252165_2_alg».proof.Proof.Gen.Pre_finite_inputs
import proofs.«404899_j12180527252165_2_alg».proof.Proof.KernelRun
import proofs.«404899_j12180527252165_2_alg».proof.Proof.KHost
import proofs.«404899_j12180527252165_2_alg».proof.Proof.RefRunHand
import proofs.«404899_j12180527252165_2_alg».proof.Proof.RefValue
import proofs.«404899_j12180527252165_2_alg».proof.Proof.PreDecode
import proofs.«404899_j12180527252165_2_alg».proof.Proof.Algebra

noncomputable section

namespace Cert.Proof

open Idealize.ShloMosaic Idealize.ShloMosaic.TcCoe Idealize.SL.Sem

/-- The word-level program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RunHand.run (F := Ideal) m ρ)

/-- Nothing was rewritten. -/
theorem preserves : Cert.preserves_Kernel_KernelIdeal := trivial

/-- From memories that agree on the arguments both programs end with the loss: the kernel at the first closed form,
    the reference at the second, and on the precondition's domain the two are one number. -/
theorem algebraic : Cert.algebraic_KernelIdeal_ReferenceIdeal := by
  intro m ρ m' ρ' hpre hagree
  refine ⟨fun c => fun _ => Cert.Spec.lossK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.KHost.result m ρ c), (h c).2⟩)
      (Cert.KernelIdeal.GenRun.run (F := Ideal) m ρ)
  · refine (θ_run Cert.ReferenceIdeal.defs _ _).mono (fun _ h c => ⟨(h c).1.trans ?_, (h c).2⟩)
      (Cert.ReferenceIdeal.RunHand.run (F := Ideal) m' ρ')
    have hd := Cert.PreDecode.dom_of_pre _ _ _ (hpre c)
    rw [(hagree c).1, (hagree c).2.1, (hagree c).2.2, Cert.RefValue.val_eq _ _ _ hd]
    funext _
    exact (Cert.Spec.lossK_eq_lossR _ _ _ hd).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
